-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v14)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v14) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096 : Shape := ⟨1, ![4096]⟩
abbrev S4096x8192 : Shape := ⟨2, ![4096, 8192]⟩
abbrev S_ : Shape := ⟨0, ![]⟩

class Facts : Prop where
  bcast_S_S4096 : S_.BroadcastsInDim S4096 (![] : Fin 0 → Fin S4096.rank)
  reducesTo_S4096_S_d0 : S4096.ReducesTo [0] S_
  h_S_ : 0 < S_.numel
  bcast_S_S4096x8192 : S_.BroadcastsInDim S4096x8192 (![] : Fin 0 → Fin S4096x8192.rank)
  reducesTo_S4096x8192_S_d0_1 : S4096x8192.ReducesTo [0, 1] S_

variable [Facts]

def fn_part1 {F : FTy → Type} [FloatOps F] (main_arg4 : FVec F S4096x8192 .f32) (main_arg5 : FVec F S4096x8192 .f32) (main_v13 : IVec S_ 1) (main_v16 : IVec S4096x8192 1) : IVec S_ 1 :=
  let main_c_5 : IVec S_ 1 := constantI S_ 1 1#1
  let main_v17 : IVec S_ 1 := (fun x v => Host.reduce IntOp.andi x v reducesTo_S4096x8192_S_d0_1 h_S_) main_v16 main_c_5
  let main_v18 : IVec S_ 1 := andi main_v13 main_v17
  let main_v19 : FVec F S4096x8192 .f32 := Host.absf main_arg4
  let main_cst_6 : FVec F S_ .f32 := constant S_ .f32 0x7F800000#32
  let main_v20 : FVec F S4096x8192 .f32 := broadcastInDim S4096x8192 ![] bcast_S_S4096x8192 main_cst_6
  let main_v21 : IVec S4096x8192 1 := cmpf .olt main_v19 main_v20
  let main_c_7 : IVec S_ 1 := constantI S_ 1 1#1
  let main_v22 : IVec S_ 1 := (fun x v => Host.reduce IntOp.andi x v reducesTo_S4096x8192_S_d0_1 h_S_) main_v21 main_c_7
  let main_v23 : IVec S_ 1 := andi main_v18 main_v22
  let main_v24 : FVec F S4096x8192 .f32 := Host.absf main_arg5
  let main_cst_8 : FVec F S_ .f32 := constant S_ .f32 0x7F800000#32
  let main_v25 : FVec F S4096x8192 .f32 := broadcastInDim S4096x8192 ![] bcast_S_S4096x8192 main_cst_8
  let main_v26 : IVec S4096x8192 1 := cmpf .olt main_v24 main_v25
  let main_c_9 : IVec S_ 1 := constantI S_ 1 1#1
  let main_v27 : IVec S_ 1 := (fun x v => Host.reduce IntOp.andi x v reducesTo_S4096x8192_S_d0_1 h_S_) main_v26 main_c_9
  let main_v28 : IVec S_ 1 := andi main_v23 main_v27
  main_v28

def fn {F : FTy → Type} [FloatOps F] (main_arg0 : FVec F S4096 .f32) (main_arg1 : FVec F S4096x8192 .f32) (main_arg2 : FVec F S4096x8192 .f32) (main_arg3 : FVec F S4096x8192 .f32) (main_arg4 : FVec F S4096x8192 .f32) (main_arg5 : FVec F S4096x8192 .f32) : IVec S_ 1 :=
  let main_v0 : FVec F S4096 .f32 := Host.absf main_arg0
  let main_cst : FVec F S_ .f32 := constant S_ .f32 0x7F800000#32
  let main_v1 : FVec F S4096 .f32 := broadcastInDim S4096 ![] bcast_S_S4096 main_cst
  let main_v2 : IVec S4096 1 := cmpf .olt main_v0 main_v1
  let main_c : IVec S_ 1 := constantI S_ 1 1#1
  let main_v3 : IVec S_ 1 := (fun x v => Host.reduce IntOp.andi x v reducesTo_S4096_S_d0 h_S_) main_v2 main_c
  let main_v4 : FVec F S4096x8192 .f32 := Host.absf main_arg1
  let main_cst_0 : FVec F S_ .f32 := constant S_ .f32 0x7F800000#32
  let main_v5 : FVec F S4096x8192 .f32 := broadcastInDim S4096x8192 ![] bcast_S_S4096x8192 main_cst_0
  let main_v6 : IVec S4096x8192 1 := cmpf .olt main_v4 main_v5
  let main_c_1 : IVec S_ 1 := constantI S_ 1 1#1
  let main_v7 : IVec S_ 1 := (fun x v => Host.reduce IntOp.andi x v reducesTo_S4096x8192_S_d0_1 h_S_) main_v6 main_c_1
  let main_v8 : IVec S_ 1 := andi main_v3 main_v7
  let main_v9 : FVec F S4096x8192 .f32 := Host.absf main_arg2
  let main_cst_2 : FVec F S_ .f32 := constant S_ .f32 0x7F800000#32
  let main_v10 : FVec F S4096x8192 .f32 := broadcastInDim S4096x8192 ![] bcast_S_S4096x8192 main_cst_2
  let main_v11 : IVec S4096x8192 1 := cmpf .olt main_v9 main_v10
  let main_c_3 : IVec S_ 1 := constantI S_ 1 1#1
  let main_v12 : IVec S_ 1 := (fun x v => Host.reduce IntOp.andi x v reducesTo_S4096x8192_S_d0_1 h_S_) main_v11 main_c_3
  let main_v13 : IVec S_ 1 := andi main_v8 main_v12
  let main_v14 : FVec F S4096x8192 .f32 := Host.absf main_arg3
  let main_cst_4 : FVec F S_ .f32 := constant S_ .f32 0x7F800000#32
  let main_v15 : FVec F S4096x8192 .f32 := broadcastInDim S4096x8192 ![] bcast_S_S4096x8192 main_cst_4
  let main_v16 : IVec S4096x8192 1 := cmpf .olt main_v14 main_v15
  fn_part1 (F := F) main_arg4 main_arg5 main_v13 main_v16
-- ==== Kernel.lean ====
abbrev S4096 : Shape := ⟨1, ![4096]⟩
abbrev S4096x8192 : Shape := ⟨2, ![4096, 8192]⟩
abbrev S4096x1 : Shape := ⟨2, ![4096, 1]⟩
abbrev S1x1 : Shape := ⟨2, ![1, 1]⟩
abbrev S64x8192 : Shape := ⟨2, ![64, 8192]⟩
abbrev S64x1 : Shape := ⟨2, ![64, 1]⟩
abbrev S1x8192 : Shape := ⟨2, ![1, 8192]⟩
abbrev S64 : Shape := ⟨1, ![64]⟩
abbrev S1 : Shape := ⟨1, ![1]⟩
abbrev S8192 : Shape := ⟨1, ![8192]⟩
abbrev S_ : Shape := ⟨0, ![]⟩

abbrev nBuf : Space → Nat
  | .hbm => 52
  | .vmem => 18
  | .smem => 0
  | _ => 0

abbrev bufTy : (tb : Table) → Fin (tcTables nBuf tb) → BufTy
  | .hbm, ⟨0, _⟩ => ⟨S4096, .f32⟩
  | .hbm, ⟨1, _⟩ => ⟨S4096x8192, .f32⟩
  | .hbm, ⟨2, _⟩ => ⟨S4096x8192, .f32⟩
  | .hbm, ⟨3, _⟩ => ⟨S4096x8192, .f32⟩
  | .hbm, ⟨4, _⟩ => ⟨S4096x8192, .f32⟩
  | .hbm, ⟨5, _⟩ => ⟨S4096x8192, .f32⟩
  | .hbm, ⟨6, _⟩ => ⟨S4096x1, .f32⟩
  | .hbm, ⟨7, _⟩ => ⟨S1x1, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .i32⟩
  | .hbm, ⟨15, _⟩ => ⟨S_, .f32⟩
  | .hbm, ⟨16, _⟩ => ⟨S_, .f32⟩
  | .hbm, ⟨17, _⟩ => ⟨S1, .f32⟩
  | .hbm, ⟨18, _⟩ => ⟨S_, .f32⟩
  | .hbm, ⟨19, _⟩ => ⟨S1, .f32⟩
  | .hbm, ⟨20, _⟩ => ⟨S1, .f32⟩
  | .hbm, ⟨21, _⟩ => ⟨S4096, .f32⟩
  | .hbm, ⟨22, _⟩ => ⟨S4096, .f32⟩
  | .hbm, ⟨23, _⟩ => ⟨S4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .i1⟩
  | .hbm, ⟨32, _⟩ => ⟨S_, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .local _ .vmem, ⟨0, _⟩ => ⟨S64x8192, .f32⟩
  | .local _ .vmem, ⟨1, _⟩ => ⟨S64x8192, .f32⟩
  | .local _ .vmem, ⟨2, _⟩ => ⟨S64x8192, .f32⟩
  | .local _ .vmem, ⟨3, _⟩ => ⟨S64x8192, .f32⟩
  | .local _ .vmem, ⟨4, _⟩ => ⟨S64x8192, .f32⟩
  | .local _ .vmem, ⟨5, _⟩ => ⟨S64x8192, .f32⟩
  | .local _ .vmem, ⟨6, _⟩ => ⟨S64x8192, .f32⟩
  | .local _ .vmem, ⟨7, _⟩ => ⟨S64x8192, .f32⟩
  | .local _ .vmem, ⟨8, _⟩ => ⟨S64x8192, .f32⟩
  | .local _ .vmem, ⟨9, _⟩ => ⟨S64x8192, .f32⟩
  | .local _ .vmem, ⟨10, _⟩ => ⟨S64x1, .f32⟩
  | .local _ .vmem, ⟨11, _⟩ => ⟨S64x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x8192, .f32⟩
  | _, _ => ⟨S4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_c : Ref sig .tc := ⟨.hbm, 14, rfl⟩
abbrev main_call0_call0_cst : Ref sig .tc := ⟨.hbm, 15, rfl⟩
abbrev main_call0_call0_v0 : Ref sig .tc := ⟨.hbm, 16, rfl⟩
abbrev main_call0_call0_v1 : Ref sig .tc := ⟨.hbm, 17, rfl⟩
abbrev main_call0_call0_cst_0 : Ref sig .tc := ⟨.hbm, 18, rfl⟩
abbrev main_call0_call0_v2 : Ref sig .tc := ⟨.hbm, 19, rfl⟩
abbrev main_call0_call0_v3 : Ref sig .tc := ⟨.hbm, 20, rfl⟩
abbrev main_call0_call0_v4 : Ref sig .tc := ⟨.hbm, 21, rfl⟩
abbrev main_call0_call0_v5 : Ref sig .tc := ⟨.hbm, 22, rfl⟩
abbrev main_call0_call0_v6 : Ref sig .tc := ⟨.hbm, 23, rfl⟩
abbrev main_call0_call0_v7 : Ref sig .tc := ⟨.hbm, 24, rfl⟩
abbrev main_call0_call0_cst_1 : Ref sig .tc := ⟨.hbm, 25, rfl⟩
abbrev main_call0_call0_v8 : Ref sig .tc := ⟨.hbm, 26, rfl⟩
abbrev main_call0_call0_cst_2 : Ref sig .tc := ⟨.hbm, 27, rfl⟩
abbrev main_call0_call0_v9 : Ref sig .tc := ⟨.hbm, 28, rfl⟩
abbrev main_call0_call0_v10 : Ref sig .tc := ⟨.hbm, 29, rfl⟩
abbrev main_call0_call0_cst_3 : Ref sig .tc := ⟨.hbm, 30, rfl⟩
abbrev main_call0_call0_v11 : Ref sig .tc := ⟨.hbm, 31, rfl⟩
abbrev main_call0_call0_cst_4 : Ref sig .tc := ⟨.hbm, 32, rfl⟩
abbrev main_call0_call0_call0_v0 : Ref sig .tc := ⟨.hbm, 33, rfl⟩
abbrev main_call0_v0 : Ref sig .tc := ⟨.hbm, 34, rfl⟩
abbrev main_v6 : Ref sig .tc := ⟨.hbm, 35, rfl⟩
abbrev main_v7 : Ref sig .tc := ⟨.hbm, 36, rfl⟩
abbrev main_cst_1 : Ref sig .tc := ⟨.hbm, 37, rfl⟩
abbrev main_v8 : Ref sig .tc := ⟨.hbm, 38, rfl⟩
abbrev main_v9 : Ref sig .tc := ⟨.hbm, 39, rfl⟩
abbrev main_cst_2 : Ref sig .tc := ⟨.hbm, 40, rfl⟩
abbrev main_cst_3 : Ref sig .tc := ⟨.hbm, 41, rfl⟩
abbrev main_call1_v0 : Ref sig .tc := ⟨.hbm, 42, rfl⟩
abbrev main_call1_v1 : Ref sig .tc := ⟨.hbm, 43, rfl⟩
abbrev main_call1_v2 : Ref sig .tc := ⟨.hbm, 44, rfl⟩
abbrev main_v10 : Ref sig .tc := ⟨.hbm, 45, rfl⟩
abbrev main_cst_4 : Ref sig .tc := ⟨.hbm, 46, rfl⟩
abbrev main_v11 : Ref sig .tc := ⟨.hbm, 47, rfl⟩
abbrev main_cst_5 : Ref sig .tc := ⟨.hbm, 48, rfl⟩
abbrev main_v12 : Ref sig .tc := ⟨.hbm, 49, rfl⟩
abbrev main_v13 : Ref sig .tc := ⟨.hbm, 50, rfl⟩
abbrev main_v14 : Ref sig .tc := ⟨.hbm, 51, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_scratch0 : Ref sig .tc := ⟨.vmem, 13, rfl⟩
abbrev cc0_scratch1 : Ref sig .tc := ⟨.vmem, 14, rfl⟩
abbrev cc0_scratch2 : Ref sig .tc := ⟨.vmem, 15, rfl⟩
abbrev cc0_scratch3 : Ref sig .tc := ⟨.vmem, 16, rfl⟩
abbrev cc0_scratch4 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12

abbrev nD : Nat := 1
abbrev τ : Topo := Topo.v7x

variable {F : FTy → Type} [FloatOps F]

abbrev grid0 : Pipeline.Grid := ⟨1, ![64], ![false]⟩

def k0_cond2 (i : grid0.Coords) : BitVec 1 :=
  let arg0 : BitVec 32 := BitVec.ofNat 32 (i 0).val
  let c63_i32 : BitVec 32 := 63#32
  let v125 : BitVec 1 := Scalar.cmpi .eq arg0 c63_i32
  let v126 : BitVec 32 := Scalar.extui v125
  let c0_i32_61 : BitVec 32 := 0#32
  let v127 : BitVec 1 := Scalar.cmpi .ne v126 c0_i32_61
  v127

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S64x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S64x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S64x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x8192 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x8192 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S1x8192_S1x8192_0_0 : ∀ a, (![0, 0] : Fin 2 → Nat) a + S1x8192.size a ≤ S1x8192.size a
  h_S1x8192 : 0 < S1x8192.numel
  shapeCasts_S1x8192_S1x8192 : S1x8192.ShapeCasts S1x8192
  inb_S64x8192_S64x8192_0_0 : ∀ a, (![0, 0] : Fin 2 → Nat) a + S64x8192.size a ≤ S64x8192.size a
  h_S64x8192 : 0 < S64x8192.numel
  inb_S64x1_S64x1_0_0 : ∀ a, (![0, 0] : Fin 2 → Nat) a + S64x1.size a ≤ S64x1.size a
  h_S64x1 : 0 < S64x1.numel
  shapeCasts_S64x1_S64x1 : S64x1.ShapeCasts S64x1
  reduces_S64x8192_S64 : S64x8192.Reduces [1] S64
  shapeCasts_S64_S64x1 : S64.ShapeCasts S64x1
  reduces_S64x1_S1 : S64x1.Reduces [0] S1
  shapeCasts_S1_S1x1 : S1.ShapeCasts S1x1
  broadcasts_S64x1_S64x8192 : S64x1.Broadcasts S64x8192
  reduces_S64x8192_S8192 : S64x8192.Reduces [0] S8192
  shapeCasts_S8192_S1x8192 : S8192.ShapeCasts S1x8192
  natLt_1_32 : 1 < 32
  reduces_S1x8192_S1 : S1x8192.Reduces [1] S1
  broadcasts_S1x1_S1x8192 : S1x1.Broadcasts S1x8192
  shapeCasts_S1x1_S_ : S1x1.ShapeCasts S_
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S64x8192.size a ≤ S4096x8192.size a
  hwx0_0 : ∀ i : grid0.Coords, EltTy.bits .f32 = 32 ∨ (Rect.block (s := S4096x8192) S64x8192.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S64x8192.size a ≤ S4096x8192.size a
  hwx0_1 : ∀ i : grid0.Coords, EltTy.bits .f32 = 32 ∨ (Rect.block (s := S4096x8192) S64x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x8192.size a ≤ S4096x8192.size a
  hwx0_2 : ∀ i : grid0.Coords, EltTy.bits .f32 = 32 ∨ (Rect.block (s := S4096x8192) S64x8192.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S64x8192.size a ≤ S4096x8192.size a
  hwx0_3 : ∀ i : grid0.Coords, EltTy.bits .f32 = 32 ∨ (Rect.block (s := S4096x8192) S64x8192.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S64x8192.size a ≤ S4096x8192.size a
  hwx0_4 : ∀ i : grid0.Coords, EltTy.bits .f32 = 32 ∨ (Rect.block (s := S4096x8192) S64x8192.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S64x1.size a ≤ S4096x1.size a
  hwx0_5 : ∀ i : grid0.Coords, EltTy.bits .f32 = 32 ∨ (Rect.block (s := S4096x1) S64x1.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1.size a ≤ S1x1.size a
  hwx0_6 : ∀ i : grid0.Coords, EltTy.bits .f32 = 32 ∨ (Rect.block (s := S1x1) S1x1.size (cc0_transform_6 i) (hinb0_6 i)).WholeWords (EltTy.packing .f32)

variable [Facts₀]

abbrev win0_0 : Pipeline.Window sig grid0 :=
  Pipeline.Window.ofSpec (Memref.whole main_arg1) S64x8192.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S64x8192.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S64x8192.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S64x8192.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0) S64x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v1) S1x1.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev idle0 : Fin 7 → grid0.Coords → Bool := fun | 0 => fun _ => false | 1 => fun _ => false | 2 => fun _ => false | 3 => fun _ => false | 4 => fun _ => false | 5 => fun _ => false | 6 => fun i => !(k0_cond2 i == 1#1) | ⟨_ + 7, h⟩ => absurd h (Nat.not_lt.2 (Nat.le_add_left _ _))

class Facts : Prop extends Facts₀ where

variable [Facts]
-- ==== ReferenceIdeal.lean ====
abbrev S4096 : Shape := ⟨1, ![4096]⟩
abbrev S4096x8192 : Shape := ⟨2, ![4096, 8192]⟩
abbrev S_ : Shape := ⟨0, ![]⟩
abbrev S1 : Shape := ⟨1, ![1]⟩
abbrev S4096x1 : Shape := ⟨2, ![4096, 1]⟩
abbrev S8192 : Shape := ⟨1, ![8192]⟩

abbrev nBuf : Space → Nat
  | .hbm => 209
  | .vmem => 0
  | .smem => 0
  | _ => 0

abbrev hbmTy0_0 (i : Nat) : BufTy := match i % 128 with
  | 0 => ⟨S4096, .f32⟩
  | 1 => ⟨S4096x8192, .f32⟩
  | 2 => ⟨S4096x8192, .f32⟩
  | 3 => ⟨S4096x8192, .f32⟩
  | 4 => ⟨S4096x8192, .f32⟩
  | 5 => ⟨S4096x8192, .f32⟩
  | 6 => ⟨S_, .f32⟩
  | 7 => ⟨S_, .f32⟩
  | 8 => ⟨S_, .f32⟩
  | 9 => ⟨S_, .f32⟩
  | 10 => ⟨S_, .f32⟩
  | 11 => ⟨S_, .i32⟩
  | 12 => ⟨S_, .f32⟩
  | 13 => ⟨S_, .f32⟩
  | 14 => ⟨S1, .f32⟩
  | 15 => ⟨S_, .f32⟩
  | 16 => ⟨S1, .f32⟩
  | 17 => ⟨S1, .f32⟩
  | 18 => ⟨S4096, .f32⟩
  | 19 => ⟨S4096, .f32⟩
  | 20 => ⟨S4096, .f32⟩
  | 21 => ⟨S_, .f32⟩
  | 22 => ⟨S_, .f32⟩
  | 23 => ⟨S_, .f32⟩
  | 24 => ⟨S_, .f32⟩
  | 25 => ⟨S_, .f32⟩
  | 26 => ⟨S_, .f32⟩
  | 27 => ⟨S_, .f32⟩
  | 28 => ⟨S_, .i1⟩
  | 29 => ⟨S_, .f32⟩
  | 30 => ⟨S_, .f32⟩
  | 31 => ⟨S_, .f32⟩
  | 32 => ⟨S_, .f32⟩
  | 33 => ⟨S_, .f32⟩
  | 34 => ⟨S_, .f32⟩
  | 35 => ⟨S_, .f32⟩
  | 36 => ⟨S_, .f32⟩
  | 37 => ⟨S_, .f32⟩
  | 38 => ⟨S_, .f32⟩
  | 39 => ⟨S_, .f32⟩
  | 40 => ⟨S_, .f32⟩
  | 41 => ⟨S_, .f32⟩
  | 42 => ⟨S_, .f32⟩
  | 43 => ⟨S_, .f32⟩
  | 44 => ⟨S4096x8192, .f32⟩
  | 45 => ⟨S4096x8192, .f32⟩
  | 46 => ⟨S4096x8192, .f32⟩
  | 47 => ⟨S4096x8192, .f32⟩
  | 48 => ⟨S_, .f32⟩
  | 49 => ⟨S4096, .f32⟩
  | 50 => ⟨S_, .f32⟩
  | 51 => ⟨S_, .f32⟩
  | 52 => ⟨S_, .f32⟩
  | 53 => ⟨S_, .f32⟩
  | 54 => ⟨S_, .f32⟩
  | 55 => ⟨S4096x8192, .f32⟩
  | 56 => ⟨S4096x8192, .f32⟩
  | 57 => ⟨S_, .f32⟩
  | 58 => ⟨S4096, .f32⟩
  | 59 => ⟨S4096x8192, .f32⟩
  | 60 => ⟨S_, .f32⟩
  | 61 => ⟨S4096, .f32⟩
  | 62 => ⟨S_, .f32⟩
  | 63 => ⟨S4096, .f32⟩
  | 64 => ⟨S4096, .f32⟩
  | 65 => ⟨S4096, .f32⟩
  | 66 => ⟨S_, .f32⟩
  | 67 => ⟨S4096, .f32⟩
  | 68 => ⟨S4096, .f32⟩
  | 69 => ⟨S4096, .f32⟩
  | 70 => ⟨S4096, .f32⟩
  | 71 => ⟨S_, .f32⟩
  | 72 => ⟨S4096, .f32⟩
  | 73 => ⟨S4096, .f32⟩
  | 74 => ⟨S_, .f32⟩
  | 75 => ⟨S4096, .f32⟩
  | 76 => ⟨S4096, .f32⟩
  | 77 => ⟨S4096, .f32⟩
  | 78 => ⟨S4096, .f32⟩
  | 79 => ⟨S_, .f32⟩
  | 80 => ⟨S_, .f32⟩
  | 81 => ⟨S_, .f32⟩
  | 82 => ⟨S_, .f32⟩
  | 83 => ⟨S_, .f32⟩
  | 84 => ⟨S4096, .f32⟩
  | 85 => ⟨S4096x1, .f32⟩
  | 86 => ⟨S_, .f32⟩
  | 87 => ⟨S4096x1, .f32⟩
  | 88 => ⟨S4096x1, .f32⟩
  | 89 => ⟨S4096x8192, .f32⟩
  | 90 => ⟨S4096x8192, .f32⟩
  | 91 => ⟨S4096x8192, .f32⟩
  | 92 => ⟨S_, .f32⟩
  | 93 => ⟨S8192, .f32⟩
  | 94 => ⟨S_, .f32⟩
  | 95 => ⟨S8192, .f32⟩
  | 96 => ⟨S8192, .f32⟩
  | 97 => ⟨S_, .f32⟩
  | 98 => ⟨S_, .f32⟩
  | 99 => ⟨S_, .f32⟩
  | 100 => ⟨S_, .f32⟩
  | 101 => ⟨S8192, .f32⟩
  | 102 => ⟨S8192, .f32⟩
  | 103 => ⟨S_, .f32⟩
  | 104 => ⟨S8192, .f32⟩
  | 105 => ⟨S8192, .f32⟩
  | 106 => ⟨S8192, .f32⟩
  | 107 => ⟨S8192, .f32⟩
  | 108 => ⟨S_, .f32⟩
  | 109 => ⟨S_, .f32⟩
  | 110 => ⟨S_, .f32⟩
  | 111 => ⟨S_, .f32⟩
  | 112 => ⟨S_, .f32⟩
  | 113 => ⟨S4096x8192, .f32⟩
  | 114 => ⟨S4096x8192, .i1⟩
  | 115 => ⟨S4096x8192, .i32⟩
  | 116 => ⟨S_, .i32⟩
  | 117 => ⟨S4096, .i32⟩
  | 118 => ⟨S_, .f32⟩
  | 119 => ⟨S4096x8192, .f32⟩
  | 120 => ⟨S4096x8192, .f32⟩
  | 121 => ⟨S_, .f32⟩
  | 122 => ⟨S_, .f32⟩
  | 123 => ⟨S4096x8192, .f32⟩
  | 124 => ⟨S4096x8192, .f32⟩
  | 125 => ⟨S_, .f32⟩
  | 126 => ⟨S4096, .f32⟩
  | 127 => ⟨S_, .f32⟩
  | _ => ⟨S4096, .f32⟩

abbrev hbmTy0_1 (i : Nat) : BufTy := match i % 128 with
  | 0 => ⟨S4096, .f32⟩
  | 1 => ⟨S4096, .f32⟩
  | 2 => ⟨S4096x1, .f32⟩
  | 3 => ⟨S4096x8192, .f32⟩
  | 4 => ⟨S4096x8192, .f32⟩
  | 5 => ⟨S4096x8192, .f32⟩
  | 6 => ⟨S_, .f32⟩
  | 7 => ⟨S4096, .f32⟩
  | 8 => ⟨S4096x1, .f32⟩
  | 9 => ⟨S4096x8192, .f32⟩
  | 10 => ⟨S4096x8192, .f32⟩
  | 11 => ⟨S_, .f32⟩
  | 12 => ⟨S_, .f32⟩
  | 13 => ⟨S4096x8192, .f32⟩
  | 14 => ⟨S4096x8192, .f32⟩
  | 15 => ⟨S_, .f32⟩
  | 16 => ⟨S4096, .f32⟩
  | 17 => ⟨S_, .f32⟩
  | 18 => ⟨S4096, .f32⟩
  | 19 => ⟨S4096, .f32⟩
  | 20 => ⟨S4096x1, .f32⟩
  | 21 => ⟨S4096x8192, .f32⟩
  | 22 => ⟨S4096x8192, .f32⟩
  | 23 => ⟨S4096x8192, .f32⟩
  | 24 => ⟨S_, .f32⟩
  | 25 => ⟨S4096, .f32⟩
  | 26 => ⟨S4096x1, .f32⟩
  | 27 => ⟨S4096x1, .f32⟩
  | 28 => ⟨S4096x8192, .f32⟩
  | 29 => ⟨S4096x8192, .f32⟩
  | 30 => ⟨S_, .f32⟩
  | 31 => ⟨S_, .f32⟩
  | 32 => ⟨S4096x8192, .f32⟩
  | 33 => ⟨S4096x8192, .f32⟩
  | 34 => ⟨S4096x8192, .f32⟩
  | 35 => ⟨S_, .f32⟩
  | 36 => ⟨S4096, .f32⟩
  | 37 => ⟨S4096, .f32⟩
  | 38 => ⟨S_, .i32⟩
  | 39 => ⟨S4096, .i32⟩
  | 40 => ⟨S4096, .i32⟩
  | 41 => ⟨S4096, .f32⟩
  | 42 => ⟨S4096, .f32⟩
  | 43 => ⟨S_, .i32⟩
  | 44 => ⟨S4096, .i32⟩
  | 45 => ⟨S4096, .i1⟩
  | 46 => ⟨S4096, .i32⟩
  | 47 => ⟨S_, .i32⟩
  | 48 => ⟨S_, .i32⟩
  | 49 => ⟨S_, .f32⟩
  | 50 => ⟨S_, .f32⟩
  | 51 => ⟨S4096, .f32⟩
  | 52 => ⟨S4096, .f32⟩
  | 53 => ⟨S_, .f32⟩
  | 54 => ⟨S_, .f32⟩
  | 55 => ⟨S_, .i32⟩
  | 56 => ⟨S_, .i1⟩
  | 57 => ⟨S_, .i32⟩
  | 58 => ⟨S_, .i32⟩
  | 59 => ⟨S_, .f32⟩
  | 60 => ⟨S_, .f32⟩
  | 61 => ⟨S_, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S_, .f32⟩
  | 70 => ⟨S_, .f32⟩
  | 71 => ⟨S_, .f32⟩
  | 72 => ⟨S_, .f32⟩
  | 73 => ⟨S_, .f32⟩
  | 74 => ⟨S_, .f32⟩
  | 75 => ⟨S_, .f32⟩
  | 76 => ⟨S_, .f32⟩
  | 77 => ⟨S_, .f32⟩
  | 78 => ⟨S_, .f32⟩
  | 79 => ⟨S_, .f32⟩
  | 80 => ⟨S_, .f32⟩
  | _ => ⟨S4096, .f32⟩

abbrev hbmTy (i : Nat) : BufTy := match i / 128 with
  | 0 => hbmTy0_0 i
  | 1 => hbmTy0_1 i
  | _ => ⟨S4096, .f32⟩

abbrev bufTy : (tb : Table) → Fin (tcTables nBuf tb) → BufTy
  | .hbm, ⟨i, _⟩ => hbmTy i
  | _, _ => ⟨S4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_cst_0 : Ref sig .tc := ⟨.hbm, 8, rfl⟩
abbrev main_v1 : Ref sig .tc := ⟨.hbm, 9, rfl⟩
abbrev main_v2 : Ref sig .tc := ⟨.hbm, 10, rfl⟩
abbrev main_c : Ref sig .tc := ⟨.hbm, 11, rfl⟩
abbrev main_call0_call0_cst : Ref sig .tc := ⟨.hbm, 12, rfl⟩
abbrev main_call0_call0_v0 : Ref sig .tc := ⟨.hbm, 13, rfl⟩
abbrev main_call0_call0_v1 : Ref sig .tc := ⟨.hbm, 14, rfl⟩
abbrev main_call0_call0_cst_0 : Ref sig .tc := ⟨.hbm, 15, rfl⟩
abbrev main_call0_call0_v2 : Ref sig .tc := ⟨.hbm, 16, rfl⟩
abbrev main_call0_call0_v3 : Ref sig .tc := ⟨.hbm, 17, rfl⟩
abbrev main_call0_call0_v4 : Ref sig .tc := ⟨.hbm, 18, rfl⟩
abbrev main_call0_call0_v5 : Ref sig .tc := ⟨.hbm, 19, rfl⟩
abbrev main_call0_call0_v6 : Ref sig .tc := ⟨.hbm, 20, rfl⟩
abbrev main_call0_call0_v7 : Ref sig .tc := ⟨.hbm, 21, rfl⟩
abbrev main_call0_call0_cst_1 : Ref sig .tc := ⟨.hbm, 22, rfl⟩
abbrev main_call0_call0_v8 : Ref sig .tc := ⟨.hbm, 23, rfl⟩
abbrev main_call0_call0_cst_2 : Ref sig .tc := ⟨.hbm, 24, rfl⟩
abbrev main_call0_call0_v9 : Ref sig .tc := ⟨.hbm, 25, rfl⟩
abbrev main_call0_call0_v10 : Ref sig .tc := ⟨.hbm, 26, rfl⟩
abbrev main_call0_call0_cst_3 : Ref sig .tc := ⟨.hbm, 27, rfl⟩
abbrev main_call0_call0_v11 : Ref sig .tc := ⟨.hbm, 28, rfl⟩
abbrev main_call0_call0_cst_4 : Ref sig .tc := ⟨.hbm, 29, rfl⟩
abbrev main_call0_call0_call0_v0 : Ref sig .tc := ⟨.hbm, 30, rfl⟩
abbrev main_call0_v0 : Ref sig .tc := ⟨.hbm, 31, rfl⟩
abbrev main_v3 : Ref sig .tc := ⟨.hbm, 32, rfl⟩
abbrev main_v4 : Ref sig .tc := ⟨.hbm, 33, rfl⟩
abbrev main_cst_1 : Ref sig .tc := ⟨.hbm, 34, rfl⟩
abbrev main_v5 : Ref sig .tc := ⟨.hbm, 35, rfl⟩
abbrev main_v6 : Ref sig .tc := ⟨.hbm, 36, rfl⟩
abbrev main_cst_2 : Ref sig .tc := ⟨.hbm, 37, rfl⟩
abbrev main_cst_3 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v7 : Ref sig .tc := ⟨.hbm, 42, rfl⟩
abbrev main_cst_4 : Ref sig .tc := ⟨.hbm, 43, rfl⟩
abbrev main_v8 : Ref sig .tc := ⟨.hbm, 44, rfl⟩
abbrev main_v9 : Ref sig .tc := ⟨.hbm, 45, rfl⟩
abbrev main_v10 : Ref sig .tc := ⟨.hbm, 46, rfl⟩
abbrev main_v11 : Ref sig .tc := ⟨.hbm, 47, rfl⟩
abbrev main_cst_5 : Ref sig .tc := ⟨.hbm, 48, rfl⟩
abbrev main_v12 : Ref sig .tc := ⟨.hbm, 49, rfl⟩
abbrev main_cst_6 : Ref sig .tc := ⟨.hbm, 50, rfl⟩
abbrev main_v13 : Ref sig .tc := ⟨.hbm, 51, rfl⟩
abbrev main_cst_7 : Ref sig .tc := ⟨.hbm, 52, rfl⟩
abbrev main_v14 : Ref sig .tc := ⟨.hbm, 53, rfl⟩
abbrev main_v15 : Ref sig .tc := ⟨.hbm, 54, rfl⟩
abbrev main_v16 : Ref sig .tc := ⟨.hbm, 55, rfl⟩
abbrev main_v17 : Ref sig .tc := ⟨.hbm, 56, rfl⟩
abbrev main_cst_8 : Ref sig .tc := ⟨.hbm, 57, rfl⟩
abbrev main_v18 : Ref sig .tc := ⟨.hbm, 58, rfl⟩
abbrev main_v19 : Ref sig .tc := ⟨.hbm, 59, rfl⟩
abbrev main_cst_9 : Ref sig .tc := ⟨.hbm, 60, rfl⟩
abbrev main_v20 : Ref sig .tc := ⟨.hbm, 61, rfl⟩
abbrev main_cst_10 : Ref sig .tc := ⟨.hbm, 62, rfl⟩
abbrev main_v21 : Ref sig .tc := ⟨.hbm, 63, rfl⟩
abbrev main_v22 : Ref sig .tc := ⟨.hbm, 64, rfl⟩
abbrev main_v23 : Ref sig .tc := ⟨.hbm, 65, rfl⟩
abbrev main_cst_11 : Ref sig .tc := ⟨.hbm, 66, rfl⟩
abbrev main_v24 : Ref sig .tc := ⟨.hbm, 67, rfl⟩
abbrev main_v25 : Ref sig .tc := ⟨.hbm, 68, rfl⟩
abbrev main_v26 : Ref sig .tc := ⟨.hbm, 69, rfl⟩
abbrev main_v27 : Ref sig .tc := ⟨.hbm, 70, rfl⟩
abbrev main_cst_12 : Ref sig .tc := ⟨.hbm, 71, rfl⟩
abbrev main_v28 : Ref sig .tc := ⟨.hbm, 72, rfl⟩
abbrev main_v29 : Ref sig .tc := ⟨.hbm, 73, rfl⟩
abbrev main_cst_13 : Ref sig .tc := ⟨.hbm, 74, rfl⟩
abbrev main_v30 : Ref sig .tc := ⟨.hbm, 75, rfl⟩
abbrev main_v31 : Ref sig .tc := ⟨.hbm, 76, rfl⟩
abbrev main_v32 : Ref sig .tc := ⟨.hbm, 77, rfl⟩
abbrev main_v33 : Ref sig .tc := ⟨.hbm, 78, rfl⟩
abbrev main_cst_14 : Ref sig .tc := ⟨.hbm, 79, rfl⟩
abbrev main_v34 : Ref sig .tc := ⟨.hbm, 80, rfl⟩
abbrev main_cst_15 : Ref sig .tc := ⟨.hbm, 81, rfl⟩
abbrev main_v35 : Ref sig .tc := ⟨.hbm, 82, rfl⟩
abbrev main_cst_16 : Ref sig .tc := ⟨.hbm, 83, rfl⟩
abbrev main_v36 : Ref sig .tc := ⟨.hbm, 84, rfl⟩
abbrev main_v37 : Ref sig .tc := ⟨.hbm, 85, rfl⟩
abbrev main_cst_17 : Ref sig .tc := ⟨.hbm, 86, rfl⟩
abbrev main_v38 : Ref sig .tc := ⟨.hbm, 87, rfl⟩
abbrev main_v39 : Ref sig .tc := ⟨.hbm, 88, rfl⟩
abbrev main_v40 : Ref sig .tc := ⟨.hbm, 89, rfl⟩
abbrev main_v41 : Ref sig .tc := ⟨.hbm, 90, rfl⟩
abbrev main_v42 : Ref sig .tc := ⟨.hbm, 91, rfl⟩
abbrev main_cst_18 : Ref sig .tc := ⟨.hbm, 92, rfl⟩
abbrev main_v43 : Ref sig .tc := ⟨.hbm, 93, rfl⟩
abbrev main_cst_19 : Ref sig .tc := ⟨.hbm, 94, rfl⟩
abbrev main_v44 : Ref sig .tc := ⟨.hbm, 95, rfl⟩
abbrev main_v45 : Ref sig .tc := ⟨.hbm, 96, rfl⟩
abbrev main_cst_20 : Ref sig .tc := ⟨.hbm, 97, rfl⟩
abbrev main_v46 : Ref sig .tc := ⟨.hbm, 98, rfl⟩
abbrev main_cst_21 : Ref sig .tc := ⟨.hbm, 99, rfl⟩
abbrev main_v47 : Ref sig .tc := ⟨.hbm, 100, rfl⟩
abbrev main_v48 : Ref sig .tc := ⟨.hbm, 101, rfl⟩
abbrev main_v49 : Ref sig .tc := ⟨.hbm, 102, rfl⟩
abbrev main_cst_22 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_cst_23 : Ref sig .tc := ⟨.hbm, 108, rfl⟩
abbrev main_v54 : Ref sig .tc := ⟨.hbm, 109, rfl⟩
abbrev main_v55 : Ref sig .tc := ⟨.hbm, 110, rfl⟩
abbrev main_v56 : Ref sig .tc := ⟨.hbm, 111, rfl⟩
abbrev main_cst_24 : Ref sig .tc := ⟨.hbm, 112, rfl⟩
abbrev main_v57 : Ref sig .tc := ⟨.hbm, 113, rfl⟩
abbrev main_v58 : Ref sig .tc := ⟨.hbm, 114, rfl⟩
abbrev main_v59 : Ref sig .tc := ⟨.hbm, 115, rfl⟩
abbrev main_c_25 : Ref sig .tc := ⟨.hbm, 116, rfl⟩
abbrev main_v60 : Ref sig .tc := ⟨.hbm, 117, rfl⟩
abbrev main_cst_26 : Ref sig .tc := ⟨.hbm, 118, rfl⟩
abbrev main_v61 : Ref sig .tc := ⟨.hbm, 119, rfl⟩
abbrev main_v62 : Ref sig .tc := ⟨.hbm, 120, rfl⟩
abbrev main_cst_27 : Ref sig .tc := ⟨.hbm, 121, rfl⟩
abbrev main_call2_v0 : Ref sig .tc := ⟨.hbm, 122, rfl⟩
abbrev main_call2_v1 : Ref sig .tc := ⟨.hbm, 123, rfl⟩
abbrev main_v63 : Ref sig .tc := ⟨.hbm, 124, rfl⟩
abbrev main_cst_28 : Ref sig .tc := ⟨.hbm, 125, rfl⟩
abbrev main_v64 : Ref sig .tc := ⟨.hbm, 126, rfl⟩
abbrev main_cst_29 : Ref sig .tc := ⟨.hbm, 127, rfl⟩
abbrev main_v65 : Ref sig .tc := ⟨.hbm, 128, rfl⟩
abbrev main_v66 : Ref sig .tc := ⟨.hbm, 129, rfl⟩
abbrev main_v67 : Ref sig .tc := ⟨.hbm, 130, rfl⟩
abbrev main_v68 : Ref sig .tc := ⟨.hbm, 131, rfl⟩
abbrev main_v69 : Ref sig .tc := ⟨.hbm, 132, rfl⟩
abbrev main_v70 : Ref sig .tc := ⟨.hbm, 133, rfl⟩
abbrev main_cst_30 : Ref sig .tc := ⟨.hbm, 134, rfl⟩
abbrev main_v71 : Ref sig .tc := ⟨.hbm, 135, rfl⟩
abbrev main_v72 : Ref sig .tc := ⟨.hbm, 136, rfl⟩
abbrev main_v73 : Ref sig .tc := ⟨.hbm, 137, rfl⟩
abbrev main_v74 : Ref sig .tc := ⟨.hbm, 138, rfl⟩
abbrev main_cst_31 : Ref sig .tc := ⟨.hbm, 139, rfl⟩
abbrev main_call3_v0 : Ref sig .tc := ⟨.hbm, 140, rfl⟩
abbrev main_call3_v1 : Ref sig .tc := ⟨.hbm, 141, rfl⟩
abbrev main_v75 : Ref sig .tc := ⟨.hbm, 142, rfl⟩
abbrev main_call4_cst : Ref sig .tc := ⟨.hbm, 143, rfl⟩
abbrev main_call4_v0 : Ref sig .tc := ⟨.hbm, 144, rfl⟩
abbrev main_call4_cst_0 : Ref sig .tc := ⟨.hbm, 145, rfl⟩
abbrev main_call4_v1 : Ref sig .tc := ⟨.hbm, 146, rfl⟩
abbrev main_call4_v2 : Ref sig .tc := ⟨.hbm, 147, rfl⟩
abbrev main_call4_v3 : Ref sig .tc := ⟨.hbm, 148, rfl⟩
abbrev main_call4_v4 : Ref sig .tc := ⟨.hbm, 149, rfl⟩
abbrev main_call4_v5 : Ref sig .tc := ⟨.hbm, 150, rfl⟩
abbrev main_call4_v6 : Ref sig .tc := ⟨.hbm, 151, rfl⟩
abbrev main_call4_cst_1 : Ref sig .tc := ⟨.hbm, 152, rfl⟩
abbrev main_call4_v7 : Ref sig .tc := ⟨.hbm, 153, rfl⟩
abbrev main_call4_v8 : Ref sig .tc := ⟨.hbm, 154, rfl⟩
abbrev main_call4_v9 : Ref sig .tc := ⟨.hbm, 155, rfl⟩
abbrev main_call4_v10 : Ref sig .tc := ⟨.hbm, 156, rfl⟩
abbrev main_v76 : Ref sig .tc := ⟨.hbm, 157, rfl⟩
abbrev main_cst_32 : Ref sig .tc := ⟨.hbm, 158, rfl⟩
abbrev main_call5_v0 : Ref sig .tc := ⟨.hbm, 159, rfl⟩
abbrev main_call5_v1 : Ref sig .tc := ⟨.hbm, 160, rfl⟩
abbrev main_v77 : Ref sig .tc := ⟨.hbm, 161, rfl⟩
abbrev main_v78 : Ref sig .tc := ⟨.hbm, 162, rfl⟩
abbrev main_cst_33 : Ref sig .tc := ⟨.hbm, 163, rfl⟩
abbrev main_v79 : Ref sig .tc := ⟨.hbm, 164, rfl⟩
abbrev main_v80 : Ref sig .tc := ⟨.hbm, 165, rfl⟩
abbrev main_c_34 : Ref sig .tc := ⟨.hbm, 166, rfl⟩
abbrev main_v81 : Ref sig .tc := ⟨.hbm, 167, rfl⟩
abbrev main_v82 : Ref sig .tc := ⟨.hbm, 168, rfl⟩
abbrev main_v83 : Ref sig .tc := ⟨.hbm, 169, rfl⟩
abbrev main_v84 : Ref sig .tc := ⟨.hbm, 170, rfl⟩
abbrev main_c_35 : Ref sig .tc := ⟨.hbm, 171, rfl⟩
abbrev main_v85 : Ref sig .tc := ⟨.hbm, 172, rfl⟩
abbrev main_v86 : Ref sig .tc := ⟨.hbm, 173, rfl⟩
abbrev main_v87 : Ref sig .tc := ⟨.hbm, 174, rfl⟩
abbrev main_c_36 : Ref sig .tc := ⟨.hbm, 175, rfl⟩
abbrev main_v88 : Ref sig .tc := ⟨.hbm, 176, rfl⟩
abbrev main_cst_37 : Ref sig .tc := ⟨.hbm, 177, rfl⟩
abbrev main_call6_v0 : Ref sig .tc := ⟨.hbm, 178, rfl⟩
abbrev main_call6_v1 : Ref sig .tc := ⟨.hbm, 179, rfl⟩
abbrev main_v89 : Ref sig .tc := ⟨.hbm, 180, rfl⟩
abbrev main_cst_38 : Ref sig .tc := ⟨.hbm, 181, rfl⟩
abbrev main_v90 : Ref sig .tc := ⟨.hbm, 182, rfl⟩
abbrev main_c_39 : Ref sig .tc := ⟨.hbm, 183, rfl⟩
abbrev main_v91 : Ref sig .tc := ⟨.hbm, 184, rfl⟩
abbrev main_c_40 : Ref sig .tc := ⟨.hbm, 185, rfl⟩
abbrev main_v92 : Ref sig .tc := ⟨.hbm, 186, rfl⟩
abbrev main_v93 : Ref sig .tc := ⟨.hbm, 187, rfl⟩
abbrev main_v94 : Ref sig .tc := ⟨.hbm, 188, rfl⟩
abbrev main_cst_41 : Ref sig .tc := ⟨.hbm, 189, rfl⟩
abbrev main_call7_v0 : Ref sig .tc := ⟨.hbm, 190, rfl⟩
abbrev main_v95 : Ref sig .tc := ⟨.hbm, 191, rfl⟩
abbrev main_cst_42 : Ref sig .tc := ⟨.hbm, 192, rfl⟩
abbrev main_v96 : Ref sig .tc := ⟨.hbm, 193, rfl⟩
abbrev main_cst_43 : Ref sig .tc := ⟨.hbm, 194, rfl⟩
abbrev main_v97 : Ref sig .tc := ⟨.hbm, 195, rfl⟩
abbrev main_v98 : Ref sig .tc := ⟨.hbm, 196, rfl⟩
abbrev main_cst_44 : Ref sig .tc := ⟨.hbm, 197, rfl⟩
abbrev main_v99 : Ref sig .tc := ⟨.hbm, 198, rfl⟩
abbrev main_v100 : Ref sig .tc := ⟨.hbm, 199, rfl⟩
abbrev main_cst_45 : Ref sig .tc := ⟨.hbm, 200, rfl⟩
abbrev main_v101 : Ref sig .tc := ⟨.hbm, 201, rfl⟩
abbrev main_v102 : Ref sig .tc := ⟨.hbm, 202, rfl⟩
abbrev main_cst_46 : Ref sig .tc := ⟨.hbm, 203, rfl⟩
abbrev main_v103 : Ref sig .tc := ⟨.hbm, 204, rfl⟩
abbrev main_v104 : Ref sig .tc := ⟨.hbm, 205, rfl⟩
abbrev main_cst_47 : Ref sig .tc := ⟨.hbm, 206, rfl⟩
abbrev main_v105 : Ref sig .tc := ⟨.hbm, 207, rfl⟩
abbrev main_v106 : Ref sig .tc := ⟨.hbm, 208, rfl⟩

abbrev nD : Nat := 1
abbrev τ : Topo := Topo.v7x

variable {F : FTy → Type} [FloatOps F]

class Facts₀ : Prop where
  reducesTo_S4096_S_d0 : S4096.ReducesTo [0] S_
  h_S_ : 0 < S_.numel
  bcast_S_S1 : S_.BroadcastsInDim S1 (![] : Fin 0 → Fin S1.rank)
  bcast_S1_S4096_0 : S1.BroadcastsInDim S4096 (![0] : Fin 1 → Fin S4096.rank)
  bcast_S_S4096x8192 : S_.BroadcastsInDim S4096x8192 (![] : Fin 0 → Fin S4096x8192.rank)
  reducesTo_S4096x8192_S4096_d1 : S4096x8192.ReducesTo [1] S4096
  bcast_S_S4096 : S_.BroadcastsInDim S4096 (![] : Fin 0 → Fin S4096.rank)
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x8192_0_1 : S4096x1.BroadcastsInDim S4096x8192 (![0, 1] : Fin 2 → Fin S4096x8192.rank)
  reducesTo_S4096x8192_S8192_d0 : S4096x8192.ReducesTo [0] S8192
  bcast_S_S8192 : S_.BroadcastsInDim S8192 (![] : Fin 0 → Fin S8192.rank)
  reducesTo_S8192_S_d0 : S8192.ReducesTo [0] S_
  natLt_1_32 : 1 < 32

variable [Facts₀]

class Facts : Prop extends Facts₀ where

variable [Facts]
-- ==== Proof.KStep.lean ====
/-
  One grid point's effect on the kernel's five accumulators (the sums of the concentration, confidence and ranking
  terms, the number of counted rows, the column sums), as a pure function of the point's six input blocks and of the
  accumulators before it; what the first point starts from (zeros); and what the last point makes of them (fin).
  The three equations say that the contents the frame's run found at each grid point are exactly these.
-/
import proofs.«153510_j16621523435816_1_alg».proof.Proof.Gen.KernelIdeal.Frame
import Idealize.ShloMosaic.Lib.Pipeline.Value

noncomputable section

namespace Cert.KernelIdeal.Acc

open Cert.KernelIdeal Cert.KernelIdeal.Gen Idealize.ShloMosaic Idealize.ShloMosaic.TcCoe Idealize.SL.Sem
open Idealize.ShloMosaic.Tactic

variable {F : FTy → Type} [FloatOps F]

/-- The five accumulators: concentration, confidence, ranking, counted rows (each [1,1]) and the column sums [1,8192]. -/
abbrev Scr (F : FTy → Type) [FloatOps F] : Type :=
  Vec F S1x1 .f32 × Vec F S1x1 .f32 × Vec F S1x1 .f32 × Vec F S1x1 .f32 × Vec F S1x8192 .f32

/-- What the first grid point resets them to. -/
def zeros : Scr F := (k0_pay7, k0_pay8, k0_pay9, k0_pay10, k0_pay11)

/-- One grid point: each accumulator plus its block's contribution. -/
def step (x0 x1 x2 x3 x4 : Vec F S64x8192 .f32) (x5 : Vec F S64x1 .f32) (s : Scr F) : Scr F :=
  (k0_pay13 x0 s.1,
   k0_pay15 (k0_pay12 x5) (k0_pay14 x0 x1 x3) s.2.1,
   k0_pay1 (k0_pay21 x2 x4 (k0_pay17 x3) (k0_pay18 x3) k0_pay19 s.2.2.1),
   k0_pay2 (k0_pay20 (k0_pay18 x3)) s.2.2.2.1,
   k0_pay16 x0 x3 s.2.2.2.2)

/-- What the last grid point writes to the output from the final accumulators. -/
def fin (s : Scr F) : Vec F S1x1 .f32 :=
  k0_pay3 (k0_pay4 s.2.2.2.2) (k0_pay5 s.2.2.2.1 s.2.2.1) (k0_pay6 s.1 s.2.1)

/-- The offsets of every whole-buffer rectangle here are zero. -/
private theorem hz : (![0, 0] : Fin 2 → Nat) = fun _ => 0 := funext fun a => by fin_cases a <;> rfl

/-! ### First point: each accumulator is reset, read back, and updated -/

/-- First point, concentration sum: the reset value plus the block's contribution. -/
private theorem first_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : cond0_0 i) (hc1 : ¬cond0_1 i) (x0 x1 x2 x3 x4 : Vec F S64x8192 .f32) (x5 : Vec F S64x1 .f32) :
    sout0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay13 x0 k0_pay7 := by
  unfold sout0_A_0
  rw [View.read_writes_eq_canon _ _ _ (scover0_A_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg1.read_unread, View.ld_unit_zero (S := S64x8192) hz]

/-- First point, confidence sum: the reset value plus the block's contribution. -/
private theorem first_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : cond0_0 i) (hc1 : ¬cond0_1 i) (x0 x1 x2 x3 x4 : Vec F S64x8192 .f32) (x5 : Vec F S64x1 .f32) :
    sout0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay15 (k0_pay12 x5) (k0_pay14 x0 x1 x3) k0_pay8 := by
  unfold sout0_A_1
  rw [View.read_writes_eq_canon _ _ _ (scover0_A_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg6.read_unread, harg1.read_unread, harg2.read_unread, harg4.read_unread, View.ld_unit_zero (S := S64x1) hz, View.ld_unit_zero (S := S64x8192) hz]

/-- First point, ranking sum: the reset value plus the block's contribution. -/
private theorem first_2 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : cond0_0 i) (hc1 : ¬cond0_1 i) (x0 x1 x2 x3 x4 : Vec F S64x8192 .f32) (x5 : Vec F S64x1 .f32) :
    sout0_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay1 (k0_pay21 x2 x4 (k0_pay17 x3) (k0_pay18 x3) k0_pay19 k0_pay9) := by
  unfold sout0_A_2
  rw [View.read_writes_eq_canon _ _ _ (scover0_A_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg3.read_unread, harg5.read_unread, harg4.read_unread, View.ld_unit_zero (S := S64x8192) hz]

/-- First point, count of counted rows: the reset value plus the block's contribution. -/
private theorem first_3 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : cond0_0 i) (hc1 : ¬cond0_1 i) (x0 x1 x2 x3 x4 : Vec F S64x8192 .f32) (x5 : Vec F S64x1 .f32) :
    sout0_A_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay2 (k0_pay20 (k0_pay18 x3)) k0_pay10 := by
  unfold sout0_A_3
  rw [View.read_writes_eq_canon _ _ _ (scover0_A_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x1) hz, View.readCov_unit_zero (S := S1x1) _ hz]
  simp only [View.readAt_eq_ld, harg4.read_unread, View.ld_unit_zero (S := S64x8192) hz]

/-- First point, column sums: the reset value plus the block's contribution. -/
private theorem first_4 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : cond0_0 i) (hc1 : ¬cond0_1 i) (x0 x1 x2 x3 x4 : Vec F S64x8192 .f32) (x5 : Vec F S64x1 .f32) :
    sout0_A_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 = k0_pay16 x0 x3 k0_pay11 := by
  unfold sout0_A_4
  rw [View.read_writes_eq_canon _ _ _ (scover0_A_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5)]
  unfold kernelRun0_A
  dsimp only
  sl_unfold_words
  rw [View.canon_cons_unit_zero (S := S1x8192) hz, View.readCov_unit_zero (S := S1x8192) _ hz]
  simp only [View.readAt_eq_ld, harg1.read_unread, harg4.read_unread, View.ld_unit_zero (S := S64x8192) hz]

/-! ### Middle points: each accumulator is loaded and updated -/

/-- A middle point, concentration sum: what the point before left plus the block's contribution. -/
private theorem mid_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : ¬cond0_1 i) (x0 x1 x2 x3 x4 : Vec F S64x8192 .f32) (x5 : Vec F S64x1 .f32) (s0 s1 s2 s3 : Vec F S1x1 .f32) (s4 : Vec F S1x8192 .f32) :
    sout0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay13 x0 s0 := by
  unfold sout0_B_0
  rw [View.read_writes_eq_canon _ _ _ (scover0_B_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_B
  dsimp only
  sl_unfold_words
  rw [View.canon_unit_zero (S := S1x1) hz]
  simp only [View.readAt_eq_ld, harg1.read_unread, harg8.read_unread, View.ld_unit_zero (S := S64x8192) hz, View.ld_unit_zero (S := S1x1) hz]

/-- A middle point, confidence sum: what the point before left plus the block's contribution. -/
private theorem mid_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : ¬cond0_1 i) (x0 x1 x2 x3 x4 : Vec F S64x8192 .f32) (x5 : Vec F S64x1 .f32) (s0 s1 s2 s3 : Vec F S1x1 .f32) (s4 : Vec F S1x8192 .f32) :
    sout0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay15 (k0_pay12 x5) (k0_pay14 x0 x1 x3) s1 := by
  unfold sout0_B_1
  rw [View.read_writes_eq_canon _ _ _ (scover0_B_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_B
  dsimp only
  sl_unfold_words
  rw [View.canon_unit_zero (S := S1x1) hz]
  simp only [View.readAt_eq_ld, harg6.read_unread, harg1.read_unread, harg2.read_unread, harg4.read_unread, harg9.read_unread, View.ld_unit_zero (S := S64x1) hz, View.ld_unit_zero (S := S64x8192) hz, View.ld_unit_zero (S := S1x1) hz]

/-- A middle point, ranking sum: what the point before left plus the block's contribution. -/
private theorem mid_2 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : ¬cond0_1 i) (x0 x1 x2 x3 x4 : Vec F S64x8192 .f32) (x5 : Vec F S64x1 .f32) (s0 s1 s2 s3 : Vec F S1x1 .f32) (s4 : Vec F S1x8192 .f32) :
    sout0_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay1 (k0_pay21 x2 x4 (k0_pay17 x3) (k0_pay18 x3) k0_pay19 s2) := by
  unfold sout0_B_2
  rw [View.read_writes_eq_canon _ _ _ (scover0_B_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_B
  dsimp only
  sl_unfold_words
  rw [View.canon_unit_zero (S := S1x1) hz]
  simp only [View.readAt_eq_ld, harg3.read_unread, harg5.read_unread, harg4.read_unread, harg10.read_unread, View.ld_unit_zero (S := S64x8192) hz, View.ld_unit_zero (S := S1x1) hz]

/-- A middle point, count of counted rows: what the point before left plus the block's contribution. -/
private theorem mid_3 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : ¬cond0_1 i) (x0 x1 x2 x3 x4 : Vec F S64x8192 .f32) (x5 : Vec F S64x1 .f32) (s0 s1 s2 s3 : Vec F S1x1 .f32) (s4 : Vec F S1x8192 .f32) :
    sout0_B_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay2 (k0_pay20 (k0_pay18 x3)) s3 := by
  unfold sout0_B_3
  rw [View.read_writes_eq_canon _ _ _ (scover0_B_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_B
  dsimp only
  sl_unfold_words
  rw [View.canon_unit_zero (S := S1x1) hz]
  simp only [View.readAt_eq_ld, harg4.read_unread, harg11.read_unread, View.ld_unit_zero (S := S64x8192) hz, View.ld_unit_zero (S := S1x1) hz]

/-- A middle point, column sums: what the point before left plus the block's contribution. -/
private theorem mid_4 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : ¬cond0_1 i) (x0 x1 x2 x3 x4 : Vec F S64x8192 .f32) (x5 : Vec F S64x1 .f32) (s0 s1 s2 s3 : Vec F S1x1 .f32) (s4 : Vec F S1x8192 .f32) :
    sout0_B_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay16 x0 x3 s4 := by
  unfold sout0_B_4
  rw [View.read_writes_eq_canon _ _ _ (scover0_B_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_B
  dsimp only
  sl_unfold_words
  rw [View.canon_unit_zero (S := S1x8192) hz]
  simp only [View.readAt_eq_ld, harg1.read_unread, harg4.read_unread, harg12.read_unread, View.ld_unit_zero (S := S64x8192) hz, View.ld_unit_zero (S := S1x8192) hz]

/-! ### Last point: the same updates, then the output from the updated accumulators -/

/-- The last point, concentration sum: what the point before left plus the block's contribution. -/
private theorem last_0 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    sout0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay13 x0 s0 := by
  unfold sout0_C_0
  rw [View.read_writes_eq_canon _ _ _ (scover0_C_0 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x1) hz]
  simp only [View.readAt_eq_ld, harg1.read_unread, harg8.read_unread, View.ld_unit_zero (S := S64x8192) hz, View.ld_unit_zero (S := S1x1) hz]

/-- The last point, confidence sum: what the point before left plus the block's contribution. -/
private theorem last_1 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    sout0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay15 (k0_pay12 x5) (k0_pay14 x0 x1 x3) s1 := by
  unfold sout0_C_1
  rw [View.read_writes_eq_canon _ _ _ (scover0_C_1 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x1) hz]
  simp only [View.readAt_eq_ld, harg6.read_unread, harg1.read_unread, harg2.read_unread, harg4.read_unread, harg9.read_unread, View.ld_unit_zero (S := S64x1) hz, View.ld_unit_zero (S := S64x8192) hz, View.ld_unit_zero (S := S1x1) hz]

/-- The last point, ranking sum: what the point before left plus the block's contribution. -/
private theorem last_2 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    sout0_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay1 (k0_pay21 x2 x4 (k0_pay17 x3) (k0_pay18 x3) k0_pay19 s2) := by
  unfold sout0_C_2
  rw [View.read_writes_eq_canon _ _ _ (scover0_C_2 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x1) hz]
  simp only [View.readAt_eq_ld, harg3.read_unread, harg5.read_unread, harg4.read_unread, harg10.read_unread, View.ld_unit_zero (S := S64x8192) hz, View.ld_unit_zero (S := S1x1) hz]

/-- The last point, count of counted rows: what the point before left plus the block's contribution. -/
private theorem last_3 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    sout0_C_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay2 (k0_pay20 (k0_pay18 x3)) s3 := by
  unfold sout0_C_3
  rw [View.read_writes_eq_canon _ _ _ (scover0_C_3 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x1) hz]
  simp only [View.readAt_eq_ld, harg4.read_unread, harg11.read_unread, View.ld_unit_zero (S := S64x8192) hz, View.ld_unit_zero (S := S1x1) hz]

/-- The last point, column sums: what the point before left plus the block's contribution. -/
private theorem last_4 (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    sout0_C_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4 = k0_pay16 x0 x3 s4 := by
  unfold sout0_C_4
  rw [View.read_writes_eq_canon _ _ _ (scover0_C_4 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x8192) hz]
  simp only [View.readAt_eq_ld, harg1.read_unread, harg4.read_unread, harg12.read_unread, View.ld_unit_zero (S := S64x8192) hz, View.ld_unit_zero (S := S1x8192) hz]

/-- The last point's output block: computed from the five accumulators as just updated (each read back after its store). -/
private theorem last_out (c : Dev nD) (i : grid0.Coords) (arg1 : Memref sig .tc .vmem S64x8192 .f32) (harg1 : arg1.IsWhole) (arg2 : Memref sig .tc .vmem S64x8192 .f32) (harg2 : arg2.IsWhole) (arg3 : Memref sig .tc .vmem S64x8192 .f32) (harg3 : arg3.IsWhole) (arg4 : Memref sig .tc .vmem S64x8192 .f32) (harg4 : arg4.IsWhole) (arg5 : Memref sig .tc .vmem S64x8192 .f32) (harg5 : arg5.IsWhole) (arg6 : Memref sig .tc .vmem S64x1 .f32) (harg6 : arg6.IsWhole) (arg7 : Memref sig .tc .vmem S1x1 .f32) (harg7 : arg7.IsWhole) (arg8 : Memref sig .tc .vmem S1x1 .f32) (harg8 : arg8.IsWhole) (arg9 : Memref sig .tc .vmem S1x1 .f32) (harg9 : arg9.IsWhole) (arg10 : Memref sig .tc .vmem S1x1 .f32) (harg10 : arg10.IsWhole) (arg11 : Memref sig .tc .vmem S1x1 .f32) (harg11 : arg11.IsWhole) (arg12 : Memref sig .tc .vmem S1x8192 .f32) (harg12 : arg12.IsWhole) (hc0 : ¬cond0_0 i) (hc1 : cond0_1 i) (x0 x1 x2 x3 x4 : Vec F S64x8192 .f32) (x5 : Vec F S64x1 .f32) (s0 s1 s2 s3 : Vec F S1x1 .f32) (s4 : Vec F S1x8192 .f32) :
    out0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4
      = k0_pay3 (k0_pay4 (k0_pay16 x0 x3 s4)) (k0_pay5 (k0_pay2 (k0_pay20 (k0_pay18 x3)) s3) (k0_pay1 (k0_pay21 x2 x4 (k0_pay17 x3) (k0_pay18 x3) k0_pay19 s2))) (k0_pay6 (k0_pay13 x0 s0) (k0_pay15 (k0_pay12 x5) (k0_pay14 x0 x1 x3) s1)) := by
  unfold out0_C_6
  rw [View.read_writes_eq_canon _ _ _ (cover0_C_6 c i arg1 harg1 arg2 harg2 arg3 harg3 arg4 harg4 arg5 harg5 arg6 harg6 arg7 harg7 arg8 harg8 arg9 harg9 arg10 harg10 arg11 harg11 arg12 harg12 hc0 hc1 x0 x1 x2 x3 x4 x5 s0 s1 s2 s3 s4)]
  unfold kernelRun0_C
  dsimp only
  sl_unfold_words
  rw [View.canon_unit_zero (S := S1x1) hz]
  simp only [View.readAt_eq_ld, harg1.read_unread, harg2.read_unread, harg3.read_unread, harg4.read_unread, harg5.read_unread, harg6.read_unread, harg8.read_unread, harg9.read_unread, harg10.read_unread, harg11.read_unread, harg12.read_unread, View.ld_unit_zero (S := S64x8192) hz, View.ld_unit_zero (S := S64x1) hz, View.ld_unit_zero (S := S1x1) hz, View.ld_unit_zero (S := S1x8192) hz, View.readCov_unit_zero (S := S1x1) _ hz, View.readCov_unit_zero (S := S1x8192) _ hz]

variable (m : (ℓ : Loc nD τ sig) → Buf (Elt F) ℓ)

/-- The step at grid point t's input blocks. -/
def stepAt (c : Dev nD) (t : Fin cfg0.N) (s : Scr F) : Scr F :=
  step (iblk m c 0 t) (iblk m c 1 t) (iblk m c 2 t) (iblk m c 3 t) (iblk m c 4 t) (iblk m c 5 t) s

/-- At the first grid point the accumulators are one step from zero. -/
theorem scr_first (c : Dev nD) (t : Fin cfg0.N) (h0 : t.val % 64 = 0) (h1 : ¬t.val % 64 = 63) :
    (outsAt0 m c t.val t.isLt).2 = stepAt m c t zeros := by
  rw [outsAt0_A m c t h0 h1]
  dsimp only
  unfold stepAt step zeros
  dsimp only
  exact congrArg₂ Prod.mk (first_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (congrArg₂ Prod.mk (first_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (congrArg₂ Prod.mk (first_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (congrArg₂ Prod.mk (first_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t))
    (first_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) ((hcond0_0 t).mpr h0) (fun h => h1 ((hcond0_1 t).mp h)) (iblk m c 0 t) (iblk m c 1 t) (iblk m c 2 t) (iblk m c 3 t) (iblk m c 4 t) (iblk m c 5 t)))))

/-- At a middle grid point they are one step from what the point before left. -/
theorem scr_mid (c : Dev nD) (t : Fin cfg0.N) (h0 : ¬t.val % 64 = 0) (h1 : ¬t.val % 64 = 63) :
    (outsAt0 m c t.val t.isLt).2
      = stepAt m c t (outsAt0 m c (t.val - 1) (Nat.lt_of_le_of_lt (Nat.sub_le _ _) t.isLt)).2 := by
  rw [outsAt0_B m c t h0 h1]
  dsimp only
  unfold stepAt step
  exact congrArg₂ Prod.mk (mid_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (congrArg₂ Prod.mk (mid_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (congrArg₂ Prod.mk (mid_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (congrArg₂ Prod.mk (mid_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
    (mid_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))))

/-- At the last grid point likewise, and the output block is fin of them. -/
theorem scr_last (c : Dev nD) (t : Fin cfg0.N) (h0 : ¬t.val % 64 = 0) (h1 : t.val % 64 = 63) :
    (outsAt0 m c t.val t.isLt).2
        = stepAt m c t (outsAt0 m c (t.val - 1) (Nat.lt_of_le_of_lt (Nat.sub_le _ _) t.isLt)).2
      ∧ (outsAt0 m c t.val t.isLt).1
        = fin (stepAt m c t (outsAt0 m c (t.val - 1) (Nat.lt_of_le_of_lt (Nat.sub_le _ _) t.isLt)).2) := by
  rw [outsAt0_C m c t h0 h1]
  dsimp only
  refine ⟨?_, ?_⟩
  · unfold stepAt step
    exact congrArg₂ Prod.mk (last_0 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (congrArg₂ Prod.mk (last_1 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (congrArg₂ Prod.mk (last_2 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (congrArg₂ Prod.mk (last_3 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2)
      (last_4 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2))))
  · unfold fin stepAt step
    exact last_out c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) scM0_0 (Memref.isWhole_whole _) scM0_1 (Memref.isWhole_whole _) scM0_2 (Memref.isWhole_whole _) scM0_3 (Memref.isWhole_whole _) scM0_4 (Memref.isWhole_whole _) (fun h => h0 ((hcond0_0 t).mp h)) ((hcond0_1 t).mpr h1) (iblk m c 0 t) (iblk m c 1 t) (iblk m c 2 t) (iblk m c 3 t) (iblk m c 4 t) (iblk m c 5 t) (outsAt0 m c (t.val - 1) (Nat.lt_of_le_of_lt (Nat.sub_le _ _) t.isLt)).2.1 (outsAt0 m c (t.val - 1) (Nat.lt_of_le_of_lt (Nat.sub_le _ _) t.isLt)).2.2.1 (outsAt0 m c (t.val - 1) (Nat.lt_of_le_of_lt (Nat.sub_le _ _) t.isLt)).2.2.2.1 (outsAt0 m c (t.val - 1) (Nat.lt_of_le_of_lt (Nat.sub_le _ _) t.isLt)).2.2.2.2.1 (outsAt0 m c (t.val - 1) (Nat.lt_of_le_of_lt (Nat.sub_le _ _) t.isLt)).2.2.2.2.2

end Cert.KernelIdeal.Acc

end
-- ==== Proof.Spec.lean ====
/-
  The loss this certificate is about, as ONE function of the six argument arrays, over the extended reals.

  A sample is a row r of the [4096, 8192] arrays: weights w, confidences cf, realised returns rt, a mask mk, scores sc,
  and the sample's portfolio return p. Four of the loss's six terms are sums over the samples of a quantity of the row:
    * concentration: Σ_k w k · log (w k + ε);
    * confidence: the square of (Σ_k w k · cf k · mk k) / (Σ_k w k · mk k + ε) − 1 / (1 + exp (0 − 50 p));
    * ranking (ListNet): over the entries whose mask is positive, the cross entropy of the softmax of 20·rt against
      the log-softmax of sc (masked entries at the finite stand-in −1e30), divided by max (n, 1) with n the number of
      positive mask entries, counted only when n ≥ 2; and the number of rows so counted;
    * the batch entropy needs, per column k, Σ_r (w r k / (Σ_j w r j + ε)) · mk r k.
  The remaining two terms (mean return, Sharpe ratio) are host operations on p alone, the same text in both programs:
  they are kept as one opaque chain, the function head below.
-/
import Idealize.ShloMosaic.PureOps.Ideal.Laws
import Idealize.ShloMosaic.Lib.ValueIdx

noncomputable section

namespace Cert.Loss

open Idealize.ShloMosaic Idealize.ShloMosaic.ValueIdx

/-! ## The literals, by their words -/

abbrev eps : EReal := Ideal.ofBits .f32 0x322BCC77#32
abbrev big : EReal := Ideal.ofBits .f32 0xF149F2CA#32
abbrev ninf : EReal := Ideal.ofBits .f32 0xFF800000#32
abbrev c50 : EReal := Ideal.ofBits .f32 0x42480000#32
abbrev c20 : EReal := Ideal.ofBits .f32 0x41A00000#32
abbrev one : EReal := Ideal.ofBits .f32 0x3F800000#32
abbrev two : EReal := Ideal.ofBits .f32 0x40000000#32
abbrev nB : EReal := Ideal.ofBits .f32 0x45800000#32
abbrev k001 : EReal := Ideal.ofBits .f32 0x3C23D70A#32
abbrev k01 : EReal := Ideal.ofBits .f32 0x3DCCCCCD#32

/-- A one-bit word widened to 32 bits and read as a number: 1 or 0. -/
def ind (b : BitVec 1) : EReal := (((b.setWidth 32).toInt : ℝ) : EReal)

/-- The maximum of a row, from −∞. -/
def rmax (f : Fin 8192 → EReal) : EReal := (Finset.univ : Finset (Fin 8192)).fold max ninf f

/-- Row p of a [64, 8192] block: the function k ↦ x (p, k). -/
abbrev brow (x : (⟨2, ![64, 8192]⟩ : Shape).Idx → EReal) (p : Fin 64) : Fin 8192 → EReal := fun k => x (ix2 p k)

/-! ## One sample -/

section Row
variable (w cf rt mk sc : Fin 8192 → EReal) (p : EReal)

def concRow : EReal := ∑ k, w k * Ideal.log (w k + eps)

def confRow : EReal := Ideal.div (∑ k, w k * cf k * mk k) ((∑ k, w k * mk k) + eps)
def tgtRow : EReal := Ideal.div one (one + Ideal.exp (0 - p * c50))
def confSq : EReal := (confRow w cf mk - tgtRow p) * (confRow w cf mk - tgtRow p)

/-- The row's share of column k of the selection frequencies. -/
def colTerm (k : Fin 8192) : EReal := Ideal.div (w k) ((∑ j, w j) + eps) * mk k

def vld (k : Fin 8192) : BitVec 1 := Ideal.cmp .ogt (mk k) 0
def nValid : EReal := ∑ k, ind (vld mk k)

def mret (k : Fin 8192) : EReal := Scalar.select (vld mk k) (rt k * c20) big
def eret (k : Fin 8192) : EReal := Ideal.exp (mret rt mk k - rmax (mret rt mk))
def tgt (k : Fin 8192) : EReal := Ideal.div (eret rt mk k) (∑ j, eret rt mk j)

def msc (k : Fin 8192) : EReal := Scalar.select (vld mk k) (sc k) big
def shsc (k : Fin 8192) : EReal := msc mk sc k - rmax (msc mk sc)
def lsm (k : Fin 8192) : EReal := shsc mk sc k - Ideal.log (∑ j, Ideal.exp (shsc mk sc j))

def perRow : EReal :=
  Ideal.div (0 - ∑ k, tgt rt mk k * Scalar.select (vld mk k) (lsm mk sc k) 0) (max (nValid mk) one)
def okRow : EReal := ind (Ideal.cmp .oge (nValid mk) two)
def rankRow : EReal := okRow mk * perRow rt mk sc

end Row

/-! ## All samples -/

section All
variable (P : Fin 4096 → EReal) (W CF RT MK SC : Fin 4096 → Fin 8192 → EReal)

def concSum : EReal := ∑ r, concRow (W r)
def confSum : EReal := ∑ r, confSq (W r) (CF r) (MK r) (P r)
def rankSum : EReal := ∑ r, rankRow (RT r) (MK r) (SC r)
def okSum : EReal := ∑ r, okRow (MK r)
def colSum (k : Fin 8192) : EReal := ∑ r, colTerm (W r) (MK r) k

/-! What the accumulated quantities are combined into. -/

def concLoss (conc : EReal) : EReal := Ideal.div (0 - conc) nB
def confLoss (conf : EReal) : EReal := Ideal.div conf nB
/-- The mean selection frequency of column k. -/
def avgSel (col : Fin 8192 → EReal) (k : Fin 8192) : EReal := Ideal.div (col k) nB
/-- … normalised over the columns. -/
def avgNorm (col : Fin 8192 → EReal) (k : Fin 8192) : EReal := Ideal.div (avgSel col k) ((∑ j, avgSel col j) + eps)
def bentLoss (col : Fin 8192 → EReal) : EReal := ∑ k, avgNorm col k * Ideal.log (avgNorm col k + eps)
def auxLoss (rank ok : EReal) : EReal := Scalar.select (Ideal.cmp .ogt ok 0) (Ideal.div rank (max ok one)) 0

def combine (conc conf rank ok : EReal) (col : Fin 8192 → EReal) : EReal :=
  ((k001 * concLoss conc + k01 * confLoss conf) + k001 * bentLoss col) + k01 * auxLoss rank ok

def partialLoss : EReal :=
  combine (concSum W) (confSum P W CF MK) (rankSum RT MK SC) (okSum MK) (colSum W MK)

end All

/-! ## The host chain on the portfolio returns alone -/

abbrev SV : Shape := ⟨1, ![4096]⟩
abbrev S0 : Shape := ⟨0, ![]⟩
abbrev S1 : Shape := ⟨1, ![1]⟩

/-- The shape facts the chain's operations cite (each program states them among its own facts). -/
structure HeadFacts : Prop where
  hR : SV.ReducesTo [0] S0
  h0 : 0 < S0.numel
  hb1 : S0.BroadcastsInDim S1 (![] : Fin 0 → Fin S1.rank)
  hb2 : S1.BroadcastsInDim SV (![0] : Fin 1 → Fin SV.rank)

/-- 1.0 · (− mean p) + 0.1 · clip (− mean p / (std p + 0.01), −10, 10), operation by operation as both programs
    print it (the standard deviation with its divisor 4096 − 1 and its guard). Never opened. -/
def head {F : FTy → Type} [FloatOps F] (h : HeadFacts) (a0 : FVec F SV .f32) : FVec F S0 .f32 :=
  let v4 : FVec F S0 .f32 := Host.divf (Host.reduceAdd a0 (constant S0 .f32 0x00000000#32) h.hR h.h0) (constant S0 .f32 0x45800000#32)
  let v5 : FVec F S0 .f32 := Host.negf v4
  let s3 : FVec F S1 .f32 := Host.divf (broadcastInDim S1 ![] h.hb1 (Host.reduceAdd a0 (constant S0 .f32 0x00000000#32) h.hR h.h0))
    (broadcastInDim S1 ![] h.hb1 (constant S0 .f32 0x45800000#32))
  let s5 : FVec F SV .f32 := subf a0 (broadcastInDim SV ![0] h.hb2 s3)
  let s6 : FVec F SV .f32 := mulf s5 s5
  let s8 : FVec F S0 .f32 := subf (constant S0 .f32 0x45800000#32) (sitofp .f32 (constantI S0 32 1#32))
  let s10 : FVec F S0 .f32 := Host.divf (Host.reduceAdd s6 (constant S0 .f32 0x00000000#32) h.hR h.h0) s8
  let s12 : FVec F S0 .f32 := select (cmpf .ogt s8 (constant S0 .f32 0x00000000#32)) s10 (id (constant S0 .f32 0x7FC00000#32))
  let v6 : FVec F S0 .f32 := Host.sqrt s12
  let v9 : FVec F S0 .f32 := Host.divf (Host.negf v4) (addf v6 (constant S0 .f32 0x3C23D70A#32))
  let v10 : FVec F S0 .f32 := minimumf (id (constant S0 .f32 0x41200000#32)) (maximumf (id (constant S0 .f32 0xC1200000#32)) v9)
  addf (mulf (constant S0 .f32 0x3F800000#32) v5) (mulf (constant S0 .f32 0x3DCCCCCD#32) v10)

/-! ## The whole loss -/

abbrev SM : Shape := ⟨2, ![4096, 8192]⟩

/-- The loss of the six argument arrays: a scalar array. -/
def total (h : HeadFacts) (a0 : FVec Ideal SV .f32) (a1 a2 a3 a4 a5 : FVec Ideal SM .f32) : FVec Ideal S0 .f32 :=
  fun _ => head h a0 ix0 +
    partialLoss (fun r => a0 (ix1 r)) (fun r k => a1 (ix2 r k)) (fun r k => a2 (ix2 r k)) (fun r k => a3 (ix2 r k))
      (fun r k => a4 (ix2 r k)) (fun r k => a5 (ix2 r k))

end Cert.Loss

end
-- ==== Proof.LibRowOps.lean ====
/-
  General lemmas: a row-wise kernel's vector operations read at an index, at the ideal instance.

  * a plain matrix product `[M,K]·[K,N]` into a zero accumulator, at `(p, c)`, is `Σ k, lhs (p, k) · rhs (k, c)`;
  * a sum over the lanes of a `[a,b]` vector, at `p`, is `Σ k, src (p, k)`;
  * a column kept as `[a,1]` (a shape cast of `[a]`) and spread over `[a,b]` reads the entry of its row.
-/
import Idealize.ShloMosaic.PureOps.Ideal.Laws
import Idealize.ShloMosaic.Lib.ValueIdx
import Idealize.ShloMosaic.Lib.ValueLayout
import Idealize.ShloMosaic.Lib.Pipeline.Value

noncomputable section

namespace Cert.RowOps

open Idealize.ShloMosaic Idealize.ShloMosaic.ValueIdx

variable {α : Type}

/-- An `[a]` array cast to the column `[a, 1]` reads, at `(i, u)`, the operand at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A sum over the lanes (axis 1) of an `[a, b]` vector, read at row `p`: the sum of that row. -/
theorem laneSum_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) := by
  rw [Ideal.multiReduction_add_single]
  refine Finset.sum_congr rfl fun k _ => congrArg src (funext fun ax => Fin.ext ?_)
  match ax with
  | ⟨0, _⟩ => rfl
  | ⟨1, _⟩ => rfl

/-- A row's lane sum kept as a column and spread over `[a, c]`: at `(p, k)` it is the sum of row `p`. -/
theorem rowSum_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .add [1] ⟨1, ![a]⟩ src acc h hφ hacc) hs) hb (ix2 p k)
      = ∑ i : Fin b, src (ix2 p i) := by
  rw [broadcastTo_a1_ab_apply, shapeCast_a_a1_apply, laneSum_apply]

/-- A one-row parameter `[1, b]` (shape-cast to itself) spread over `[a, b]`: at `(p, k)` it is the row's entry `k`. -/
theorem rowParam_spread_apply {a b : ℕ} (v : (⟨2, ![1, b]⟩ : Shape).Idx → α) (hs : (⟨2, ![1, b]⟩ : Shape).ShapeCasts ⟨2, ![1, b]⟩)
    (hb : (⟨2, ![1, b]⟩ : Shape).Broadcasts ⟨2, ![a, b]⟩) (p : Fin a) (k : Fin b) :
    broadcastTo ⟨2, ![a, b]⟩ (shapeCast ⟨2, ![1, b]⟩ v hs) hb (ix2 p k) = v (ix2 (0 : Fin 1) k) := by
  rw [broadcastTo_1b_ab_apply, shapeCast_self]

/-- A plain matrix product `[M,K]·[K,N]` (contracting the left operand's columns with the right operand's rows) into
    the zero accumulator, read at `(p, c)`: the sum over `k` of `lhs (p, k) · rhs (k, c)`. -/
theorem matmul_apply {M K N : ℕ} {φ₁ φ₂ : FTy}
    (wf : DotDims.WF ⟨2, ![M, K]⟩ ⟨2, ![K, N]⟩ ⟨2, ![M, N]⟩ [1] [0] [0] [1] [] [])
    (prec : Option ContractPrecision) (lhs : FVec Ideal ⟨2, ![M, K]⟩ φ₁) (rhs : FVec Ideal ⟨2, ![K, N]⟩ φ₂)
    (p : Fin M) (c : Fin N) :
    FloatOps.matmul (⟨[1], [0], [0], [1], [], [], wf⟩ : DotDims ⟨2, ![M, K]⟩ ⟨2, ![K, N]⟩ ⟨2, ![M, N]⟩) prec lhs rhs
        (constant ⟨2, ![M, N]⟩ .f32 0x00000000#32) (ix2 p c)
      = ∑ k : Fin K, lhs (ix2 p k) * rhs (ix2 k c) := by
  set D : DotDims ⟨2, ![M, K]⟩ ⟨2, ![K, N]⟩ ⟨2, ![M, N]⟩ := ⟨[1], [0], [0], [1], [], [], wf⟩ with hD
  have l0 : ∀ (i : (⟨2, ![M, N]⟩ : Shape).Idx) (q : D.contr.Idx), (D.lhsIdx i q 0).val = (i 0).val := by
    intro i q
    unfold DotDims.lhsIdx
    rw [dif_neg (show ¬(0 : Fin 2) ∈ D.lhsBatch from List.not_mem_nil), dif_pos (show (0 : Fin 2) ∈ D.lhsNonContracting from List.mem_singleton.mpr rfl)]
    rfl
  have l1 : ∀ (i : (⟨2, ![M, N]⟩ : Shape).Idx) (q : D.contr.Idx), (D.lhsIdx i q 1).val = (q ⟨0, Nat.one_pos⟩).val :=
    fun i q => D.lhsIdx_val_of_single rfl i q
  have r0 : ∀ (i : (⟨2, ![M, N]⟩ : Shape).Idx) (q : D.contr.Idx), (D.rhsIdx i q 0).val = (q ⟨0, Nat.one_pos⟩).val :=
    fun i q => D.rhsIdx_val_of_single rfl i q
  have r1 : ∀ (i : (⟨2, ![M, N]⟩ : Shape).Idx) (q : D.contr.Idx), (D.rhsIdx i q 1).val = (i 1).val := by
    intro i q
    unfold DotDims.rhsIdx
    rw [dif_neg (show ¬(1 : Fin 2) ∈ D.rhsBatch from List.not_mem_nil), dif_pos (show (1 : Fin 2) ∈ D.rhsNonContracting from List.mem_singleton.mpr rfl)]
    rfl
  rw [Ideal.matmul_constant_zero_apply, ← Equiv.sum_comp (contrEquiv1 D K rfl rfl).symm]
  refine Finset.sum_congr rfl fun k _ => ?_
  have hk := contrEquiv1_symm_val D K rfl rfl k
  have el : D.lhsIdx (ix2 p c) ((contrEquiv1 D K rfl rfl).symm k) = ix2 p k := funext fun ax => Fin.ext (by
    match ax with
    | ⟨0, _⟩ => exact l0 _ _
    | ⟨1, _⟩ => exact (l1 _ _).trans hk)
  have er : D.rhsIdx (ix2 p c) ((contrEquiv1 D K rfl rfl).symm k) = ix2 k c := funext fun ax => Fin.ext (by
    match ax with
    | ⟨0, _⟩ => exact (r0 _ _).trans hk
    | ⟨1, _⟩ => exact r1 _ _)
  rw [el, er]

end Cert.RowOps

end
-- ==== Proof.KPayA.lean ====
/-
  The accumulator step read at the ideal values, entry by entry: each accumulator after a grid point is the accumulator
  before it plus the sum, over the block's 64 rows, of the row quantity of the specification; the reset value is zero;
  and the last point's output is the specification's combination of the five accumulators.
  A block's row p is the function k ↦ x (p, k).
-/
import proofs.«153510_j16621523435816_1_alg».proof.Proof.KStep
import proofs.«153510_j16621523435816_1_alg».proof.Proof.Spec
import proofs.«153510_j16621523435816_1_alg».proof.Proof.LibRowOps

noncomputable section

namespace Cert.KernelIdeal.Acc

open Cert.KernelIdeal Cert.KernelIdeal.Gen Idealize.ShloMosaic Idealize.ShloMosaic.ValueIdx Cert.Loss

/-- A sum over the rows (axis 0) of an `[a, b]` vector, read at column `k`: the sum of that column. -/
private theorem colSum_apply {a b : ℕ} {φ : FTy} (src : FVec Ideal ⟨2, ![a, b]⟩ φ) (acc : BitVec φ.bits)
    (h : (⟨2, ![a, b]⟩ : Shape).Reduces [0] ⟨1, ![b]⟩) (hφ : FKind.Formats φ) (hacc : acc = FKind.add.neutral φ hφ) (k : Fin b) :
    multiReduction .add [0] ⟨1, ![b]⟩ src acc h hφ hacc (ix1 k) = ∑ p : Fin a, src (ix2 p k) := by
  rw [Ideal.multiReduction_add_single]
  refine Finset.sum_congr rfl fun p _ => congrArg src (funext fun ax => Fin.ext ?_)
  match ax with
  | ⟨0, _⟩ => rfl
  | ⟨1, _⟩ => rfl

theorem zeros_apply :
    (zeros (F := Ideal)).1 (ix2 0 0) = 0 ∧ (zeros (F := Ideal)).2.1 (ix2 0 0) = 0 ∧ (zeros (F := Ideal)).2.2.1 (ix2 0 0) = 0
      ∧ (zeros (F := Ideal)).2.2.2.1 (ix2 0 0) = 0 ∧ ∀ k : Fin 8192, (zeros (F := Ideal)).2.2.2.2 (ix2 0 k) = 0 := by
  refine ⟨?_, ?_, ?_, ?_, fun k => ?_⟩
  · show k0_pay7 (F := Ideal) (ix2 0 0) = 0
    unfold k0_pay7
    refine (congrFun (shapeCast_self _ _) _).trans ?_
    exact Ideal.ofBits_zero_f32
  · show k0_pay8 (F := Ideal) (ix2 0 0) = 0
    unfold k0_pay8
    refine (congrFun (shapeCast_self _ _) _).trans ?_
    exact Ideal.ofBits_zero_f32
  · show k0_pay9 (F := Ideal) (ix2 0 0) = 0
    unfold k0_pay9
    refine (congrFun (shapeCast_self _ _) _).trans ?_
    exact Ideal.ofBits_zero_f32
  · show k0_pay10 (F := Ideal) (ix2 0 0) = 0
    unfold k0_pay10
    refine (congrFun (shapeCast_self _ _) _).trans ?_
    exact Ideal.ofBits_zero_f32
  · show k0_pay11 (F := Ideal) (ix2 0 k) = 0
    unfold k0_pay11
    refine (congrFun (shapeCast_self _ _) _).trans ?_
    exact Ideal.ofBits_zero_f32

/-- Concentration: the accumulator plus the block's rows' Σ_k w·log(w+ε). -/
theorem step_conc (x0 x1 x2 x3 x4 : Vec Ideal S64x8192 .f32) (x5 : Vec Ideal S64x1 .f32) (s : Scr Ideal) :
    (step x0 x1 x2 x3 x4 x5 s).1 (ix2 0 0) = s.1 (ix2 0 0) + ∑ p : Fin 64, concRow (brow x0 p) := by
  show k0_pay13 x0 s.1 (ix2 0 0) = _
  unfold k0_pay13
  refine (congrFun (shapeCast_self _ _) _).trans ?_
  refine congrArg (s.1 (ix2 0 0) + ·) ?_
  refine (Cert.RowOps.shapeCast_a_a1_apply _ _ 0 0).trans ?_
  refine (colSum_apply _ _ _ _ _ 0).trans ?_
  refine Finset.sum_congr rfl fun p _ => ?_
  refine (Cert.RowOps.shapeCast_a_a1_apply _ _ p 0).trans ?_
  refine (Cert.RowOps.laneSum_apply _ _ _ _ _ p).trans ?_
  exact Finset.sum_congr rfl fun k _ => rfl

/-- The row quotient of the confidence term: Σ_k w·cf·mk over Σ_k w·mk + ε, row by row. -/
private theorem pay14_apply (x0 x1 x3 : Vec Ideal S64x8192 .f32) (p : Fin 64) :
    k0_pay14 x0 x1 x3 (ix2 p 0) = confRow (brow x0 p) (brow x1 p) (brow x3 p) := by
  unfold k0_pay14 confRow
  refine (divf_apply _ _ _).trans ?_
  refine congrArg₂ Ideal.div ?_ ?_
  · refine (Cert.RowOps.shapeCast_a_a1_apply _ _ p 0).trans ?_
    refine (Cert.RowOps.laneSum_apply _ _ _ _ _ p).trans ?_
    exact Finset.sum_congr rfl fun k _ => rfl
  · refine (addf_apply _ _ _).trans ?_
    refine congrArg (· + eps) ?_
    refine (Cert.RowOps.shapeCast_a_a1_apply _ _ p 0).trans ?_
    refine (Cert.RowOps.laneSum_apply _ _ _ _ _ p).trans ?_
    exact Finset.sum_congr rfl fun k _ => rfl

/-- Confidence: plus the block's rows' squared differences. -/
theorem step_conf (x0 x1 x2 x3 x4 : Vec Ideal S64x8192 .f32) (x5 : Vec Ideal S64x1 .f32) (s : Scr Ideal) :
    (step x0 x1 x2 x3 x4 x5 s).2.1 (ix2 0 0)
      = s.2.1 (ix2 0 0) + ∑ p : Fin 64, confSq (brow x0 p) (brow x1 p) (brow x3 p) (x5 (ix2 p 0)) := by
  show k0_pay15 (k0_pay12 x5) (k0_pay14 x0 x1 x3) s.2.1 (ix2 0 0) = _
  unfold k0_pay15
  refine (congrFun (shapeCast_self _ _) _).trans ?_
  refine congrArg (s.2.1 (ix2 0 0) + ·) ?_
  refine (Cert.RowOps.shapeCast_a_a1_apply _ _ 0 0).trans ?_
  refine (colSum_apply _ _ _ _ _ 0).trans ?_
  refine Finset.sum_congr rfl fun p _ => ?_
  have h12 : k0_pay12 x5 (ix2 p 0) = x5 (ix2 p 0) := congrFun (shapeCast_self _ _) _
  unfold confSq tgtRow
  show (k0_pay14 x0 x1 x3 (ix2 p 0) - Ideal.div one (one + Ideal.exp (Ideal.ofBits .f32 0x00000000#32 - k0_pay12 x5 (ix2 p 0) * c50)))
      * (k0_pay14 x0 x1 x3 (ix2 p 0) - Ideal.div one (one + Ideal.exp (Ideal.ofBits .f32 0x00000000#32 - k0_pay12 x5 (ix2 p 0) * c50))) = _
  rw [pay14_apply, h12, Ideal.ofBits_zero_f32]

/-- The number of positive mask entries of a row, as the kernel counts it. -/
private theorem pay18_apply (x3 : Vec Ideal S64x8192 .f32) (p : Fin 64) :
    k0_pay18 x3 (ix2 p 0) = nValid (brow x3 p) := by
  unfold k0_pay18 k0_pay17 nValid
  refine (Cert.RowOps.shapeCast_a_a1_apply _ _ p 0).trans ?_
  refine (Cert.RowOps.laneSum_apply _ _ _ _ _ p).trans ?_
  refine Finset.sum_congr rfl fun k _ => ?_
  show ind (Ideal.cmp .ogt (x3 (ix2 p k)) (Ideal.ofBits .f32 0x00000000#32)) = ind (Ideal.cmp .ogt (x3 (ix2 p k)) 0)
  rw [Ideal.ofBits_zero_f32]

/-- Counted rows: plus the number of the block's rows with two or more positive mask entries. -/
theorem step_ok (x0 x1 x2 x3 x4 : Vec Ideal S64x8192 .f32) (x5 : Vec Ideal S64x1 .f32) (s : Scr Ideal) :
    (step x0 x1 x2 x3 x4 x5 s).2.2.2.1 (ix2 0 0) = s.2.2.2.1 (ix2 0 0) + ∑ p : Fin 64, okRow (brow x3 p) := by
  show k0_pay2 (k0_pay20 (k0_pay18 x3)) s.2.2.2.1 (ix2 0 0) = _
  unfold k0_pay2
  refine (congrFun (shapeCast_self _ _) _).trans ?_
  refine congrArg (s.2.2.2.1 (ix2 0 0) + ·) ?_
  refine (Cert.RowOps.shapeCast_a_a1_apply _ _ 0 0).trans ?_
  refine (colSum_apply _ _ _ _ _ 0).trans ?_
  refine Finset.sum_congr rfl fun p _ => ?_
  unfold k0_pay20 okRow
  show ind (Ideal.cmp .oge (k0_pay18 x3 (ix2 p 0)) two) = _
  rw [pay18_apply]

/-- Column sums: plus, per column, the block's rows' normalised masked weights. -/
theorem step_col (x0 x1 x2 x3 x4 : Vec Ideal S64x8192 .f32) (x5 : Vec Ideal S64x1 .f32) (s : Scr Ideal) (k : Fin 8192) :
    (step x0 x1 x2 x3 x4 x5 s).2.2.2.2 (ix2 0 k)
      = s.2.2.2.2 (ix2 0 k) + ∑ p : Fin 64, colTerm (brow x0 p) (brow x3 p) k := by
  show k0_pay16 x0 x3 s.2.2.2.2 (ix2 0 k) = _
  unfold k0_pay16
  refine (congrFun (shapeCast_self _ _) _).trans ?_
  refine congrArg (s.2.2.2.2 (ix2 0 k) + ·) ?_
  refine (shapeCast_a_1a_apply _ _ 0 k).trans ?_
  refine (colSum_apply _ _ _ _ _ k).trans ?_
  refine Finset.sum_congr rfl fun p _ => ?_
  unfold colTerm
  refine (mulf_apply _ _ _).trans ?_
  refine congrArg (· * x3 (ix2 p k)) ?_
  refine (divf_apply _ _ _).trans ?_
  refine congrArg (Ideal.div (x0 (ix2 p k))) ?_
  refine (Cert.RowOps.broadcastTo_a1_ab_apply _ _ p k).trans ?_
  refine (addf_apply _ _ _).trans ?_
  refine congrArg (· + eps) ?_
  refine (Cert.RowOps.shapeCast_a_a1_apply _ _ p 0).trans ?_
  exact Cert.RowOps.laneSum_apply _ _ _ _ _ p

end Cert.KernelIdeal.Acc

end
-- ==== Proof.KPayB.lean ====
/-
  The accumulator step read at the ideal values, entry by entry: each accumulator after a grid point is the accumulator
  before it plus the sum, over the block's 64 rows, of the row quantity of the specification; the reset value is zero;
  and the last point's output is the specification's combination of the five accumulators.
  A block's row p is the function k ↦ x (p, k).
-/
import proofs.«153510_j16621523435816_1_alg».proof.Proof.KStep
import proofs.«153510_j16621523435816_1_alg».proof.Proof.Spec
import proofs.«153510_j16621523435816_1_alg».proof.Proof.LibRowOps

noncomputable section

namespace Cert.KernelIdeal.Acc

open Cert.KernelIdeal Cert.KernelIdeal.Gen Idealize.ShloMosaic Idealize.ShloMosaic.ValueIdx Cert.Loss

/-! ## Reductions of a block read at an index -/

/-- The maximum over the lanes (axis 1) of an `[a, b]` vector, read at row `p`: the fold of `max`, from the value of the
    starting word, over that row. -/
private theorem laneMax_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ) (p : Fin a) :
    multiReduction .maximumf [1] ⟨1, ![a]⟩ src acc h hφ hacc (ix1 p)
      = (Finset.univ : Finset (Fin b)).fold max (Ideal.ofBits φ acc) (fun k => src (ix2 p k)) := by
  rw [Ideal.multiReduction_maximumf_single]
  refine congrArg (fun f => (Finset.univ : Finset (Fin b)).fold max (Ideal.ofBits φ acc) f) (funext fun k => ?_)
  refine congrArg src (funext fun ax => Fin.ext ?_)
  match ax with
  | ⟨0, _⟩ => rfl
  | ⟨1, _⟩ => rfl

/-- A sum over the rows (axis 0) of a column `[a, 1]`, read at its one index: the sum of the column. -/
private theorem colSum_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ) :
    multiReduction .add [0] ⟨1, ![1]⟩ src acc h hφ hacc (ix1 (0 : Fin 1)) = ∑ p : Fin a, src (ix2 p (0 : Fin 1)) := by
  rw [Ideal.multiReduction_add_single]
  refine Finset.sum_congr rfl fun p _ => congrArg src (funext fun ax => Fin.ext ?_)
  match ax with
  | ⟨0, _⟩ => rfl
  | ⟨1, _⟩ => rfl

/-- A row's maximum kept as a column and spread over `[a, c]`: at `(p, k)` it is the maximum of row `p`. -/
private theorem rowMax_spread_apply {a b c : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (hs : (⟨1, ![a]⟩ : Shape).ShapeCasts ⟨2, ![a, 1]⟩) (hb : (⟨2, ![a, 1]⟩ : Shape).Broadcasts ⟨2, ![a, c]⟩) (p : Fin a) (k : Fin c) :
    broadcastTo ⟨2, ![a, c]⟩ (shapeCast ⟨2, ![a, 1]⟩ (multiReduction .maximumf [1] ⟨1, ![a]⟩ src acc h hφ hacc) hs) hb (ix2 p k)
      = (Finset.univ : Finset (Fin b)).fold max (Ideal.ofBits φ acc) (fun i => src (ix2 p i)) := by
  rw [Cert.RowOps.broadcastTo_a1_ab_apply, Cert.RowOps.shapeCast_a_a1_apply, laneMax_apply]

/-- A row's lane sum kept as a column: at `(p, 0)` it is the sum of row `p`. -/
private theorem rowSum_col_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (hs : (⟨1, ![a]⟩ : Shape).ShapeCasts ⟨2, ![a, 1]⟩) (p : Fin a) (u : Fin 1) :
    shapeCast ⟨2, ![a, 1]⟩ (multiReduction .add [1] ⟨1, ![a]⟩ src acc h hφ hacc) hs (ix2 p u) = ∑ k : Fin b, src (ix2 p k) := by
  rw [Cert.RowOps.shapeCast_a_a1_apply, Cert.RowOps.laneSum_apply]

/-- A column's sum over the rows kept as `[1, 1]`: at `(0, 0)` it is the sum of the column. -/
private theorem colSum_11_apply {a : ℕ} {φ : FTy} (src : FVec Ideal ⟨2, ![a, 1]⟩ φ) (acc : BitVec φ.bits)
    (h : (⟨2, ![a, 1]⟩ : Shape).Reduces [0] ⟨1, ![1]⟩) (hφ : FKind.Formats φ) (hacc : acc = FKind.add.neutral φ hφ)
    (hs : (⟨1, ![1]⟩ : Shape).ShapeCasts ⟨2, ![1, 1]⟩) :
    shapeCast ⟨2, ![1, 1]⟩ (multiReduction .add [0] ⟨1, ![1]⟩ src acc h hφ hacc) hs (ix2 (0 : Fin 1) (0 : Fin 1))
      = ∑ p : Fin a, src (ix2 p (0 : Fin 1)) := by
  rw [Cert.RowOps.shapeCast_a_a1_apply, colSum_apply]

/-! ## The ranking term's row stages, over any block -/

/-- The softmax of a row: exp of the entry less the row's maximum, over the sum of those. -/
private def smRow (f : Fin 8192 → EReal) (k : Fin 8192) : EReal :=
  Ideal.div (Ideal.exp (f k - rmax f)) (∑ j, Ideal.exp (f j - rmax f))

/-- The log-softmax of a row: the entry less the row's maximum, less the log of the sum of the exps of those. -/
private def lsmRow (f : Fin 8192 → EReal) (k : Fin 8192) : EReal :=
  (f k - rmax f) - Ideal.log (∑ j, Ideal.exp (f j - rmax f))

section Stages
variable (v : FVec Ideal ⟨2, ![64, 8192]⟩ .f32)
  (h : (⟨2, ![64, 8192]⟩ : Shape).Reduces [1] ⟨1, ![64]⟩) (hφ : FKind.Formats .f32)
  (hm : (0xFF800000#32 : BitVec FTy.f32.bits) = FKind.maximumf.neutral .f32 hφ)
  (ha : (0x00000000#32 : BitVec FTy.f32.bits) = FKind.add.neutral .f32 hφ)
  (hs : (⟨1, ![64]⟩ : Shape).ShapeCasts ⟨2, ![64, 1]⟩) (hb : (⟨2, ![64, 1]⟩ : Shape).Broadcasts ⟨2, ![64, 8192]⟩)
  (p : Fin 64) (k : Fin 8192)

/-- A block less its rows' maxima, at `(p, k)`. -/
private theorem shift_apply :
    subf v (broadcastTo ⟨2, ![64, 8192]⟩ (shapeCast ⟨2, ![64, 1]⟩ (multiReduction .maximumf [1] ⟨1, ![64]⟩ v 0xFF800000#32 h hφ hm) hs) hb)
        (ix2 p k)
      = brow v p k - rmax (brow v p) := by
  refine (subf_apply _ _ _).trans ?_
  exact congrArg (v (ix2 p k) - ·) (rowMax_spread_apply v _ h hφ hm hs hb p k)

/-- … and its exp. -/
private theorem expShift_apply :
    exp (subf v (broadcastTo ⟨2, ![64, 8192]⟩ (shapeCast ⟨2, ![64, 1]⟩ (multiReduction .maximumf [1] ⟨1, ![64]⟩ v 0xFF800000#32 h hφ hm) hs) hb))
        (ix2 p k)
      = Ideal.exp (brow v p k - rmax (brow v p)) :=
  congrArg Ideal.exp (shift_apply v h hφ hm hs hb p k)

/-- The rows' softmax, at `(p, k)`. -/
private theorem softmax_apply :
    divf (exp (subf v (broadcastTo ⟨2, ![64, 8192]⟩ (shapeCast ⟨2, ![64, 1]⟩ (multiReduction .maximumf [1] ⟨1, ![64]⟩ v 0xFF800000#32 h hφ hm) hs) hb)))
        (broadcastTo ⟨2, ![64, 8192]⟩ (shapeCast ⟨2, ![64, 1]⟩ (multiReduction .add [1] ⟨1, ![64]⟩
          (exp (subf v (broadcastTo ⟨2, ![64, 8192]⟩ (shapeCast ⟨2, ![64, 1]⟩ (multiReduction .maximumf [1] ⟨1, ![64]⟩ v 0xFF800000#32 h hφ hm) hs) hb)))
          0x00000000#32 h hφ ha) hs) hb)
        (ix2 p k)
      = smRow (brow v p) k := by
  refine (divf_apply _ _ _).trans ?_
  refine congrArg₂ Ideal.div (expShift_apply v h hφ hm hs hb p k) ?_
  refine (Cert.RowOps.rowSum_spread_apply _ _ h hφ ha hs hb p k).trans ?_
  exact Finset.sum_congr rfl fun j _ => expShift_apply v h hφ hm hs hb p j

/-- The rows' log-softmax, at `(p, k)`. -/
private theorem logSoftmax_apply :
    subf (subf v (broadcastTo ⟨2, ![64, 8192]⟩ (shapeCast ⟨2, ![64, 1]⟩ (multiReduction .maximumf [1] ⟨1, ![64]⟩ v 0xFF800000#32 h hφ hm) hs) hb))
        (broadcastTo ⟨2, ![64, 8192]⟩ (log (shapeCast ⟨2, ![64, 1]⟩ (multiReduction .add [1] ⟨1, ![64]⟩
          (exp (subf v (broadcastTo ⟨2, ![64, 8192]⟩ (shapeCast ⟨2, ![64, 1]⟩ (multiReduction .maximumf [1] ⟨1, ![64]⟩ v 0xFF800000#32 h hφ hm) hs) hb)))
          0x00000000#32 h hφ ha) hs)) hb)
        (ix2 p k)
      = lsmRow (brow v p) k := by
  refine (subf_apply _ _ _).trans ?_
  refine congrArg₂ (· - ·) (shift_apply v h hφ hm hs hb p k) ?_
  refine (Cert.RowOps.broadcastTo_a1_ab_apply _ hb p k).trans ?_
  refine congrArg Ideal.log ?_
  refine (rowSum_col_apply _ _ h hφ ha hs p 0).trans ?_
  exact Finset.sum_congr rfl fun j _ => expShift_apply v h hφ hm hs hb p j

end Stages

/-! ## The block's mask, counts and masked inputs -/

/-- The mask comparison at `(p, k)`: the row's validity bit. -/
private theorem mask_apply (x3 : Vec Ideal S64x8192 .f32) (p : Fin 64) (k : Fin 8192) :
    k0_pay17 x3 (ix2 p k) = vld (brow x3 p) k := by
  show Ideal.cmp .ogt (x3 (ix2 p k)) (Ideal.ofBits .f32 0x00000000#32) = Ideal.cmp .ogt (x3 (ix2 p k)) 0
  rw [Ideal.ofBits_zero_f32]

/-- The count of a row's positive mask entries, kept as a column. -/
private theorem nvalid_apply (x3 : Vec Ideal S64x8192 .f32) (p : Fin 64) (u : Fin 1) :
    k0_pay18 x3 (ix2 p u) = nValid (brow x3 p) := by
  unfold k0_pay18
  refine (rowSum_col_apply _ _ _ _ _ _ p u).trans ?_
  refine Finset.sum_congr rfl fun k _ => ?_
  show ind (k0_pay17 x3 (ix2 p k)) = ind (vld (brow x3 p) k)
  rw [mask_apply]

/-- Whether a row is counted: two or more positive mask entries. -/
private theorem ok_apply (x3 : Vec Ideal S64x8192 .f32) (p : Fin 64) (u : Fin 1) :
    k0_pay20 (k0_pay18 x3) (ix2 p u) = okRow (brow x3 p) := by
  show ind (Ideal.cmp .oge (k0_pay18 x3 (ix2 p u)) two) = ind (Ideal.cmp .oge (nValid (brow x3 p)) two)
  rw [nvalid_apply]

/-- The scaled returns, masked entries at the stand-in. -/
private theorem mret_apply (x2 x3 : Vec Ideal S64x8192 .f32) (p : Fin 64) :
    brow (select (k0_pay17 x3) (mulf (F := Ideal) x2 k0_pay19) (broadcast S64x8192 (FloatOps.ofBits (F := Ideal) .f32 0xF149F2CA#32))) p
      = mret (brow x2 p) (brow x3 p) := by
  funext k
  show Scalar.select (k0_pay17 x3 (ix2 p k)) (x2 (ix2 p k) * c20) big = Scalar.select (vld (brow x3 p) k) (x2 (ix2 p k) * c20) big
  rw [mask_apply]

/-- The scores, masked entries at the stand-in. -/
private theorem msc_apply (x3 x4 : Vec Ideal S64x8192 .f32) (p : Fin 64) :
    brow (select (k0_pay17 x3) x4 (broadcast S64x8192 (FloatOps.ofBits (F := Ideal) .f32 0xF149F2CA#32))) p
      = msc (brow x3 p) (brow x4 p) := by
  funext k
  show Scalar.select (k0_pay17 x3 (ix2 p k)) (x4 (ix2 p k)) big = Scalar.select (vld (brow x3 p) k) (x4 (ix2 p k)) big
  rw [mask_apply]

/-- Ranking: plus the block's rows' counted ListNet losses. -/
theorem step_rank (x0 x1 x2 x3 x4 : Vec Ideal S64x8192 .f32) (x5 : Vec Ideal S64x1 .f32) (s : Scr Ideal) :
    (step x0 x1 x2 x3 x4 x5 s).2.2.1 (ix2 0 0)
      = s.2.2.1 (ix2 0 0) + ∑ p : Fin 64, rankRow (brow x2 p) (brow x3 p) (brow x4 p) := by
  show k0_pay1 (k0_pay21 x2 x4 (k0_pay17 x3) (k0_pay18 x3) k0_pay19 s.2.2.1) (ix2 0 0) = _
  unfold k0_pay1
  rw [shapeCast_self]
  unfold k0_pay21
  refine (addf_apply _ _ _).trans ?_
  refine congrArg (s.2.2.1 (ix2 0 0) + ·) ?_
  refine (colSum_11_apply _ _ _ _ _ _).trans ?_
  refine Finset.sum_congr rfl fun p _ => ?_
  refine (mulf_apply _ _ _).trans ?_
  refine congrArg₂ (· * ·) (ok_apply x3 p 0) ?_
  refine (divf_apply _ _ _).trans ?_
  refine congrArg₂ Ideal.div ?_ ?_
  · refine (subf_apply _ _ _).trans ?_
    refine congrArg₂ (· - ·) Ideal.ofBits_zero_f32 ?_
    refine (rowSum_col_apply _ _ _ _ _ _ p 0).trans ?_
    refine Finset.sum_congr rfl fun k _ => ?_
    refine (mulf_apply _ _ _).trans ?_
    refine congrArg₂ (· * ·) ?_ ?_
    · refine (softmax_apply _ _ _ _ _ _ _ p k).trans ?_
      exact congrArg (fun f => smRow f k) (mret_apply x2 x3 p)
    · refine (select_apply _ _ _ _).trans ?_
      refine congr (congrArg₂ Scalar.select (mask_apply x3 p k) ?_) Ideal.ofBits_zero_f32
      refine (logSoftmax_apply _ _ _ _ _ _ _ p k).trans ?_
      exact congrArg (fun f => lsmRow f k) (msc_apply x3 x4 p)
  · refine (maximumf_apply _ _ _).trans ?_
    exact congrArg (max · one) (nvalid_apply x3 p 0)

/-! ## The last point's combination -/

/-- The concentration and confidence terms, scaled. -/
private theorem head_apply (a b : Vec Ideal S1x1 .f32) :
    k0_pay6 a b (ix2 0 0) = k001 * concLoss (a (ix2 0 0)) + k01 * confLoss (b (ix2 0 0)) := by
  show k001 * Ideal.div (Ideal.ofBits .f32 0x00000000#32 - a (ix2 0 0)) nB + k01 * Ideal.div (b (ix2 0 0)) nB
      = k001 * Ideal.div (0 - a (ix2 0 0)) nB + k01 * Ideal.div (b (ix2 0 0)) nB
  rw [Ideal.ofBits_zero_f32]

/-- The ranking term: the accumulated losses over the counted rows, when there are any. -/
private theorem aux_apply (ok rank : Vec Ideal S1x1 .f32) :
    k0_pay5 ok rank (ix2 0 0) = auxLoss (rank (ix2 0 0)) (ok (ix2 0 0)) := by
  show Scalar.select (Ideal.cmp .ogt (ok (ix2 0 0)) (Ideal.ofBits .f32 0x00000000#32))
        (Ideal.div (rank (ix2 0 0)) (max (ok (ix2 0 0)) one)) (Ideal.ofBits .f32 0x00000000#32)
      = Scalar.select (Ideal.cmp .ogt (ok (ix2 0 0)) 0) (Ideal.div (rank (ix2 0 0)) (max (ok (ix2 0 0)) one)) 0
  rw [Ideal.ofBits_zero_f32]

/-- A one-row vector over its lane sum plus ε, at `(0, k)`. -/
private theorem norm_apply (w : FVec Ideal ⟨2, ![1, 8192]⟩ .f32)
    (h : (⟨2, ![1, 8192]⟩ : Shape).Reduces [1] ⟨1, ![1]⟩) (hφ : FKind.Formats .f32)
    (ha : (0x00000000#32 : BitVec FTy.f32.bits) = FKind.add.neutral .f32 hφ)
    (hs : (⟨1, ![1]⟩ : Shape).ShapeCasts ⟨2, ![1, 1]⟩) (hb : (⟨2, ![1, 1]⟩ : Shape).Broadcasts ⟨2, ![1, 8192]⟩) (k : Fin 8192) :
    divf w (broadcastTo ⟨2, ![1, 8192]⟩ (addf (shapeCast ⟨2, ![1, 1]⟩ (multiReduction .add [1] ⟨1, ![1]⟩ w 0x00000000#32 h hφ ha) hs)
        (broadcast ⟨2, ![1, 1]⟩ (FloatOps.ofBits (F := Ideal) .f32 0x322BCC77#32))) hb) (ix2 (0 : Fin 1) k)
      = Ideal.div (w (ix2 (0 : Fin 1) k)) ((∑ j : Fin 8192, w (ix2 (0 : Fin 1) j)) + eps) := by
  refine (divf_apply _ _ _).trans ?_
  refine congrArg (Ideal.div (w (ix2 (0 : Fin 1) k))) ?_
  refine (Cert.RowOps.broadcastTo_a1_ab_apply _ hb 0 k).trans ?_
  refine (addf_apply _ _ _).trans ?_
  exact congrArg (· + eps) (rowSum_col_apply w _ h hφ ha hs 0 0)

/-- The entropy of the normalised mean selection frequencies. -/
private theorem bent_apply (col : Vec Ideal S1x8192 .f32) :
    k0_pay4 col (ix2 0 0) = bentLoss (fun k => col (ix2 0 k)) := by
  unfold k0_pay4
  refine (rowSum_col_apply _ _ _ _ _ _ 0 0).trans ?_
  refine Finset.sum_congr rfl fun k _ => ?_
  have hN := norm_apply (divf col (broadcast S1x8192 (FloatOps.ofBits (F := Ideal) .f32 0x45800000#32)))
    reduces_S1x8192_S1 (.inl rfl) rfl shapeCasts_S1_S1x1 broadcasts_S1x1_S1x8192 k
  refine (mulf_apply _ _ _).trans ?_
  exact congrArg₂ (· * ·) hN (congrArg (fun t => Ideal.log (t + eps)) hN)

/-- The last point's output is the specification's combination of the accumulators. -/
theorem fin_apply (s : Scr Ideal) :
    fin s (ix2 0 0)
      = combine (s.1 (ix2 0 0)) (s.2.1 (ix2 0 0)) (s.2.2.1 (ix2 0 0)) (s.2.2.2.1 (ix2 0 0)) (fun k => s.2.2.2.2 (ix2 0 k)) := by
  show k0_pay3 (k0_pay4 s.2.2.2.2) (k0_pay5 s.2.2.2.1 s.2.2.1) (k0_pay6 s.1 s.2.1) (ix2 0 0) = _
  unfold k0_pay3
  show (k0_pay6 s.1 s.2.1 (ix2 0 0) + k001 * k0_pay4 s.2.2.2.2 (ix2 0 0)) + k01 * k0_pay5 s.2.2.2.1 s.2.2.1 (ix2 0 0) = _
  rw [head_apply, bent_apply, aux_apply]
  rfl

end Cert.KernelIdeal.Acc

end
-- ==== Proof.KRows.lean ====
/-
  The kernel program's argument arrays as its one region finds them, by row and column; the grid has 64 points, the last
  is point 63; and the shape facts the host chain on the portfolio returns cites.
-/
import proofs.«153510_j16621523435816_1_alg».proof.Proof.Gen.KernelIdeal.Frame
import proofs.«153510_j16621523435816_1_alg».proof.Proof.Spec

noncomputable section

namespace Cert.KernelIdeal.Acc

open Cert.KernelIdeal Cert.KernelIdeal.Gen Idealize.ShloMosaic Idealize.ShloMosaic.ValueIdx Idealize.ShloMosaic.TcCoe
  Idealize.SL.Sem Cert.Loss

variable (m : (ℓ : Loc nD τ sig) → Buf (Elt Ideal) ℓ)

/-- The arrays as the region finds them, by row and column. -/
abbrev rW (c : Dev nD) : Fin 4096 → Fin 8192 → EReal := fun r k => (V m c main_arg1 : Vec Ideal S4096x8192 .f32) (ix2 r k)
abbrev rCF (c : Dev nD) : Fin 4096 → Fin 8192 → EReal := fun r k => (V m c main_arg2 : Vec Ideal S4096x8192 .f32) (ix2 r k)
abbrev rRT (c : Dev nD) : Fin 4096 → Fin 8192 → EReal := fun r k => (V m c main_arg3 : Vec Ideal S4096x8192 .f32) (ix2 r k)
abbrev rMK (c : Dev nD) : Fin 4096 → Fin 8192 → EReal := fun r k => (V m c main_arg4 : Vec Ideal S4096x8192 .f32) (ix2 r k)
abbrev rSC (c : Dev nD) : Fin 4096 → Fin 8192 → EReal := fun r k => (V m c main_arg5 : Vec Ideal S4096x8192 .f32) (ix2 r k)
/-- The portfolio returns as the region finds them: the column [4096, 1] a host reshape made. -/
abbrev rP (c : Dev nD) : Fin 4096 → EReal := fun r => (V m c main_v0 : Vec Ideal S4096x1 .f32) (ix2 r 0)

theorem hN : cfg0.N = 64 := N_0

theorem h63 : 63 < cfg0.N := by rw [hN]; decide

/-- The last grid point. -/
abbrev tLast : Fin cfg0.N := ⟨63, h63⟩

/-- The shape facts of the chain on the portfolio returns, from the kernel program's own. -/
theorem headFacts : Cert.Loss.HeadFacts := ⟨reducesTo_S4096_S_d0, h_S_, bcast_S_S1, bcast_S1_S4096_0⟩

end Cert.KernelIdeal.Acc

end
-- ==== Proof.KInv.lean ====
/-
  The accumulators, grid point by grid point. Grid point t stages rows 64 t … 64 t + 63 of the five [4096, 8192] arrays
  (and of the portfolio returns kept as a column), so a block's row p is row 64 t + p of the array. By induction on the
  grid point each accumulator after point n holds the sum, over the tiles 0 … n, of the tile's rows' quantities; after the
  last point that is the sum over all 4096 rows, and the output block holds the specification's combination of them.
-/
import proofs.«153510_j16621523435816_1_alg».proof.Proof.KPayA
import proofs.«153510_j16621523435816_1_alg».proof.Proof.KPayB
import proofs.«153510_j16621523435816_1_alg».proof.Proof.KRows

noncomputable section

namespace Cert.KernelIdeal.Acc

open Cert.KernelIdeal Cert.KernelIdeal.Gen Idealize.ShloMosaic Idealize.ShloMosaic.ValueIdx Idealize.ShloMosaic.TcCoe
  Idealize.SL.Sem Cert.Loss

variable (m : (ℓ : Loc nD τ sig) → Buf (Elt Ideal) ℓ)

/-! ## Rows of the blocks -/

/-- Row p of tile t. -/
def grow (t : Fin cfg0.N) (p : Fin 64) : Fin 4096 := ⟨64 * t.val + p.val, by have := t.isLt; have := p.isLt; have := hN; omega⟩

/-- Every window's block index at point t is (t, 0). -/
theorem idx0 : ∀ t : Fin cfg0.N, win0_0.index t 0 = t.val ∧ win0_0.index t 1 = 0 := (by decide +kernel : ∀ t : Fin grid0.N, _)
theorem idx1 : ∀ t : Fin cfg0.N, win0_1.index t 0 = t.val ∧ win0_1.index t 1 = 0 := (by decide +kernel : ∀ t : Fin grid0.N, _)
theorem idx2 : ∀ t : Fin cfg0.N, win0_2.index t 0 = t.val ∧ win0_2.index t 1 = 0 := (by decide +kernel : ∀ t : Fin grid0.N, _)
theorem idx3 : ∀ t : Fin cfg0.N, win0_3.index t 0 = t.val ∧ win0_3.index t 1 = 0 := (by decide +kernel : ∀ t : Fin grid0.N, _)
theorem idx4 : ∀ t : Fin cfg0.N, win0_4.index t 0 = t.val ∧ win0_4.index t 1 = 0 := (by decide +kernel : ∀ t : Fin grid0.N, _)
theorem idx5 : ∀ t : Fin cfg0.N, win0_5.index t 0 = t.val ∧ win0_5.index t 1 = 0 := (by decide +kernel : ∀ t : Fin grid0.N, _)

/-- A block's row p is row 64 t + p of its array. -/
theorem blk0 (c : Dev nD) (t : Fin cfg0.N) (p : Fin 64) : brow (iblk m c 0 t) p = rW m c (grow t p) := by
  funext k
  show (iblk m c 0 t : Vec Ideal S64x8192 .f32) (ix2 p k) = _
  unfold iblk
  rw [View.read_apply]
  show V m c main_arg1 _ = V m c main_arg1 _
  congr 1
  funext a
  apply Fin.ext
  match a with
  | ⟨0, _⟩ => show win0_0.index t 0 * 64 + 1 * p.val = 64 * t.val + p.val; rw [(idx0 t).1]; omega
  | ⟨1, _⟩ => show win0_0.index t 1 * 8192 + 1 * k.val = k.val; rw [(idx0 t).2]; omega

theorem blk1 (c : Dev nD) (t : Fin cfg0.N) (p : Fin 64) : brow (iblk m c 1 t) p = rCF m c (grow t p) := by
  funext k
  show (iblk m c 1 t : Vec Ideal S64x8192 .f32) (ix2 p k) = _
  unfold iblk
  rw [View.read_apply]
  show V m c main_arg2 _ = V m c main_arg2 _
  congr 1
  funext a
  apply Fin.ext
  match a with
  | ⟨0, _⟩ => show win0_1.index t 0 * 64 + 1 * p.val = 64 * t.val + p.val; rw [(idx1 t).1]; omega
  | ⟨1, _⟩ => show win0_1.index t 1 * 8192 + 1 * k.val = k.val; rw [(idx1 t).2]; omega

theorem blk2 (c : Dev nD) (t : Fin cfg0.N) (p : Fin 64) : brow (iblk m c 2 t) p = rRT m c (grow t p) := by
  funext k
  show (iblk m c 2 t : Vec Ideal S64x8192 .f32) (ix2 p k) = _
  unfold iblk
  rw [View.read_apply]
  show V m c main_arg3 _ = V m c main_arg3 _
  congr 1
  funext a
  apply Fin.ext
  match a with
  | ⟨0, _⟩ => show win0_2.index t 0 * 64 + 1 * p.val = 64 * t.val + p.val; rw [(idx2 t).1]; omega
  | ⟨1, _⟩ => show win0_2.index t 1 * 8192 + 1 * k.val = k.val; rw [(idx2 t).2]; omega

theorem blk3 (c : Dev nD) (t : Fin cfg0.N) (p : Fin 64) : brow (iblk m c 3 t) p = rMK m c (grow t p) := by
  funext k
  show (iblk m c 3 t : Vec Ideal S64x8192 .f32) (ix2 p k) = _
  unfold iblk
  rw [View.read_apply]
  show V m c main_arg4 _ = V m c main_arg4 _
  congr 1
  funext a
  apply Fin.ext
  match a with
  | ⟨0, _⟩ => show win0_3.index t 0 * 64 + 1 * p.val = 64 * t.val + p.val; rw [(idx3 t).1]; omega
  | ⟨1, _⟩ => show win0_3.index t 1 * 8192 + 1 * k.val = k.val; rw [(idx3 t).2]; omega

theorem blk4 (c : Dev nD) (t : Fin cfg0.N) (p : Fin 64) : brow (iblk m c 4 t) p = rSC m c (grow t p) := by
  funext k
  show (iblk m c 4 t : Vec Ideal S64x8192 .f32) (ix2 p k) = _
  unfold iblk
  rw [View.read_apply]
  show V m c main_arg5 _ = V m c main_arg5 _
  congr 1
  funext a
  apply Fin.ext
  match a with
  | ⟨0, _⟩ => show win0_4.index t 0 * 64 + 1 * p.val = 64 * t.val + p.val; rw [(idx4 t).1]; omega
  | ⟨1, _⟩ => show win0_4.index t 1 * 8192 + 1 * k.val = k.val; rw [(idx4 t).2]; omega

/-- The returns' block: entry p of tile t is entry 64 t + p of the column. -/
theorem blk5 (c : Dev nD) (t : Fin cfg0.N) (p : Fin 64) :
    (iblk m c 5 t : Vec Ideal S64x1 .f32) (ix2 p 0) = rP m c (grow t p) := by
  unfold iblk
  rw [View.read_apply]
  show V m c main_v0 _ = V m c main_v0 _
  congr 1
  funext a
  apply Fin.ext
  match a with
  | ⟨0, _⟩ => show win0_5.index t 0 * 64 + 1 * p.val = 64 * t.val + p.val; rw [(idx5 t).1]; omega
  | ⟨1, _⟩ => show win0_5.index t 1 * 1 + 1 * 0 = 0; rw [(idx5 t).2]

/-! ## Sums over tiles -/

/-- The sum of a tile quantity over the tiles 0 … n. -/
def psum (g : Fin cfg0.N → EReal) (n : ℕ) : EReal :=
  ∑ s ∈ Finset.range (n + 1), if h : s < cfg0.N then g ⟨s, h⟩ else 0

theorem psum_zero (g : Fin cfg0.N → EReal) (h : 0 < cfg0.N) : psum g 0 = g ⟨0, h⟩ := by
  unfold psum
  rw [Finset.sum_range_one, dif_pos h]

theorem psum_succ (g : Fin cfg0.N → EReal) (n : ℕ) (h : n + 1 < cfg0.N) : psum g (n + 1) = psum g n + g ⟨n + 1, h⟩ := by
  unfold psum
  rw [Finset.sum_range_succ, dif_pos h]

/-- Over all 64 tiles of 64 rows: the sum over the 4096 rows. -/
theorem psum_all (f : Fin 4096 → EReal) : psum (fun t => ∑ p : Fin 64, f (grow t p)) 63 = ∑ r : Fin 4096, f r := by
  have e : (fun t : Fin cfg0.N => ∑ p : Fin 64, f (grow t p))
      = fun t : Fin cfg0.N => ∑ p : Fin 64, f (grow t p) := rfl
  unfold psum
  have h64 : ∀ s ∈ Finset.range (63 + 1), (if h : s < cfg0.N then ∑ p : Fin 64, f (grow ⟨s, h⟩ p) else 0)
      = if h : s < 64 then ∑ p : Fin 64, f ⟨64 * s + p.val, by have := p.isLt; omega⟩ else 0 := by
    intro s hs
    have hs' : s < 64 := Finset.mem_range.mp hs
    rw [dif_pos (by rw [hN]; exact hs'), dif_pos hs']
    rfl
  rw [Finset.sum_congr rfl h64]
  rw [← Fin.sum_univ_eq_sum_range (fun s => if h : s < 64 then ∑ p : Fin 64, f ⟨64 * s + p.val, by have := p.isLt; omega⟩ else 0) 64]
  have h2 : ∀ t : Fin 64, (if h : t.val < 64 then ∑ p : Fin 64, f ⟨64 * t.val + p.val, by have := p.isLt; omega⟩ else 0)
      = ∑ p : Fin 64, f (finProdFinEquiv (t, p)) := by
    intro t
    rw [dif_pos t.isLt]
    refine Finset.sum_congr rfl fun p _ => congrArg f (Fin.ext ?_)
    show 64 * t.val + p.val = p.val + 64 * t.val
    omega
  rw [Finset.sum_congr rfl fun t _ => h2 t, ← Finset.sum_product', Finset.univ_product_univ]
  exact (finProdFinEquiv (m := 64) (n := 64)).sum_comp f

/-! ## One step at a grid point's blocks -/

/-- What tile t adds to each accumulator. -/
abbrev tConc (c : Dev nD) : Fin cfg0.N → EReal := fun t => ∑ p : Fin 64, (fun r => concRow (rW m c r)) (grow t p)
abbrev tConf (c : Dev nD) : Fin cfg0.N → EReal :=
  fun t => ∑ p : Fin 64, (fun r => confSq (rW m c r) (rCF m c r) (rMK m c r) (rP m c r)) (grow t p)
abbrev tRank (c : Dev nD) : Fin cfg0.N → EReal :=
  fun t => ∑ p : Fin 64, (fun r => rankRow (rRT m c r) (rMK m c r) (rSC m c r)) (grow t p)
abbrev tOk (c : Dev nD) : Fin cfg0.N → EReal := fun t => ∑ p : Fin 64, (fun r => okRow (rMK m c r)) (grow t p)
abbrev tCol (c : Dev nD) (k : Fin 8192) : Fin cfg0.N → EReal :=
  fun t => ∑ p : Fin 64, (fun r => colTerm (rW m c r) (rMK m c r) k) (grow t p)

theorem stepAt_conc (c : Dev nD) (t : Fin cfg0.N) (s : Scr Ideal) :
    (stepAt m c t s).1 (ix2 0 0) = s.1 (ix2 0 0) + tConc m c t := by
  refine (step_conc _ _ _ _ _ _ s).trans (congrArg (s.1 (ix2 0 0) + ·) (Finset.sum_congr rfl fun p _ => ?_))
  rw [blk0]

theorem stepAt_conf (c : Dev nD) (t : Fin cfg0.N) (s : Scr Ideal) :
    (stepAt m c t s).2.1 (ix2 0 0) = s.2.1 (ix2 0 0) + tConf m c t := by
  refine (step_conf _ _ _ _ _ _ s).trans (congrArg (s.2.1 (ix2 0 0) + ·) (Finset.sum_congr rfl fun p _ => ?_))
  rw [blk0, blk1, blk3, blk5]

theorem stepAt_rank (c : Dev nD) (t : Fin cfg0.N) (s : Scr Ideal) :
    (stepAt m c t s).2.2.1 (ix2 0 0) = s.2.2.1 (ix2 0 0) + tRank m c t := by
  refine (step_rank _ _ _ _ _ _ s).trans (congrArg (s.2.2.1 (ix2 0 0) + ·) (Finset.sum_congr rfl fun p _ => ?_))
  rw [blk2, blk3, blk4]

theorem stepAt_ok (c : Dev nD) (t : Fin cfg0.N) (s : Scr Ideal) :
    (stepAt m c t s).2.2.2.1 (ix2 0 0) = s.2.2.2.1 (ix2 0 0) + tOk m c t := by
  refine (step_ok _ _ _ _ _ _ s).trans (congrArg (s.2.2.2.1 (ix2 0 0) + ·) (Finset.sum_congr rfl fun p _ => ?_))
  rw [blk3]

theorem stepAt_col (c : Dev nD) (t : Fin cfg0.N) (s : Scr Ideal) (k : Fin 8192) :
    (stepAt m c t s).2.2.2.2 (ix2 0 k) = s.2.2.2.2 (ix2 0 k) + tCol m c k t := by
  refine (step_col _ _ _ _ _ _ s k).trans (congrArg (s.2.2.2.2 (ix2 0 k) + ·) (Finset.sum_congr rfl fun p _ => ?_))
  rw [blk0, blk3]

/-! ## The accumulators after each grid point -/

/-- After any point but the first the accumulators are one step from what the point before left. -/
theorem scr_succ (c : Dev nD) (n : ℕ) (h : n + 1 < cfg0.N) :
    (outsAt0 m c (n + 1) h).2 = stepAt m c ⟨n + 1, h⟩ (outsAt0 m c n (Nat.lt_of_succ_lt h)).2 := by
  have h0 : ¬(⟨n + 1, h⟩ : Fin cfg0.N).val % 64 = 0 := by have := hN; dsimp only; omega
  by_cases h1 : (⟨n + 1, h⟩ : Fin cfg0.N).val % 64 = 63
  · exact (scr_last m c ⟨n + 1, h⟩ h0 h1).1
  · exact scr_mid m c ⟨n + 1, h⟩ h0 h1

/-- Each accumulator holds the sum of its tile quantity over the tiles so far. -/
structure Inv (c : Dev nD) (n : ℕ) (s : Scr Ideal) : Prop where
  conc : s.1 (ix2 0 0) = psum (tConc m c) n
  conf : s.2.1 (ix2 0 0) = psum (tConf m c) n
  rank : s.2.2.1 (ix2 0 0) = psum (tRank m c) n
  ok : s.2.2.2.1 (ix2 0 0) = psum (tOk m c) n
  col : ∀ k : Fin 8192, s.2.2.2.2 (ix2 0 k) = psum (tCol m c k) n

theorem inv (c : Dev nD) : ∀ (n : ℕ) (h : n < cfg0.N), Inv m c n (outsAt0 m c n h).2
  | 0, h => by
    have e : (outsAt0 m c 0 h).2 = stepAt m c ⟨0, h⟩ zeros := scr_first m c ⟨0, h⟩ rfl (by show ¬0 % 64 = 63; decide)
    rw [e]
    obtain ⟨z0, z1, z2, z3, z4⟩ := zeros_apply
    exact ⟨by rw [stepAt_conc, z0, zero_add, psum_zero], by rw [stepAt_conf, z1, zero_add, psum_zero],
      by rw [stepAt_rank, z2, zero_add, psum_zero], by rw [stepAt_ok, z3, zero_add, psum_zero],
      fun k => by rw [stepAt_col, z4 k, zero_add, psum_zero]⟩
  | n + 1, h => by
    rw [scr_succ m c n h]
    have ih := inv c n (Nat.lt_of_succ_lt h)
    exact ⟨by rw [stepAt_conc, ih.conc, psum_succ], by rw [stepAt_conf, ih.conf, psum_succ],
      by rw [stepAt_rank, ih.rank, psum_succ], by rw [stepAt_ok, ih.ok, psum_succ],
      fun k => by rw [stepAt_col, ih.col k, psum_succ]⟩

/-- After the last point the output block holds the specification's partial loss of the arrays. -/
theorem out_last (c : Dev nD) (h : 63 < cfg0.N) :
    (outsAt0 m c 63 h).1 (ix2 0 0) = partialLoss (rP m c) (rW m c) (rCF m c) (rRT m c) (rMK m c) (rSC m c) := by
  have e := scr_last m c ⟨63, h⟩ (by show ¬63 % 64 = 0; decide) rfl
  have i := inv m c 63 h
  have e1 : (outsAt0 m c 63 h).1 = fin (outsAt0 m c 63 h).2 := e.2.trans (congrArg fin e.1.symm)
  rw [e1, fin_apply, i.conc, i.conf, i.rank, i.ok, funext i.col]
  have a1 : psum (tConc m c) 63 = ∑ r, concRow (rW m c r) := psum_all fun r => concRow (rW m c r)
  have a2 : psum (tConf m c) 63 = ∑ r, confSq (rW m c r) (rCF m c r) (rMK m c r) (rP m c r) :=
    psum_all fun r => confSq (rW m c r) (rCF m c r) (rMK m c r) (rP m c r)
  have a3 : psum (tRank m c) 63 = ∑ r, rankRow (rRT m c r) (rMK m c r) (rSC m c r) :=
    psum_all fun r => rankRow (rRT m c r) (rMK m c r) (rSC m c r)
  have a4 : psum (tOk m c) 63 = ∑ r, okRow (rMK m c r) := psum_all fun r => okRow (rMK m c r)
  have a5 : (fun k => psum (tCol m c k) 63) = fun k => ∑ r, colTerm (rW m c r) (rMK m c r) k :=
    funext fun k => psum_all fun r => colTerm (rW m c r) (rMK m c r) k
  rw [a1, a2, a3, a4, a5]
  rfl

end Cert.KernelIdeal.Acc

end
-- ==== Proof.KFinal.lean ====
/-
  From the last grid point's output block to the program's result. The output window's one write-back, at the last
  point, writes the whole [1, 1] result array; the host operations after the region read it as a scalar and add the chain
  on the portfolio returns; the returns' column the region was given is the returns array reshaped. So, given that the
  last point's output block holds the specification's partial loss of the arrays, every run of the program ends with the
  result at the specification's total and the arguments unchanged.
-/
import proofs.«153510_j16621523435816_1_alg».proof.Proof.KRows
import Idealize.ShloMosaic.Lib.Pipeline.Value
import Idealize.ShloMosaic.Lib.StableHlo.Run

noncomputable section

namespace Cert.KernelIdeal.Acc

open Cert.KernelIdeal Cert.KernelIdeal.Gen Idealize.ShloMosaic Idealize.ShloMosaic.ValueIdx Idealize.ShloMosaic.TcCoe
  Idealize.SL.Sem Cert.Loss

variable (m : (ℓ : Loc nD τ sig) → Buf (Elt Ideal) ℓ)

/-! ## The result array and the host operations after the region -/

/-- What the one write-back writes: the output block after the last point, as contents of the [1, 1] result array. -/
abbrev result (c : Dev nD) : Buf (Elt Ideal) ((c : Thread nD τ).loc main_v1) := (outsAt0 m c 63 h63).1

/-- At the last point the window's block is the whole [1, 1] array at zero offsets: cutting any contents to the block
    is reading them through the block's view. Stated for arbitrary contents. -/
private theorem cut_last (c : Dev nD) (X : Buf (Elt Ideal) ((c : Thread nD τ).loc main_v1)) :
    (cfg0.win 6).cut (grid0.coords tLast) X = ((cfg0.win 6).blk tLast).view.read (Elt Ideal) X := by
  have hz' : (fun a => win0_6.index tLast a * main_v1.ty.shape.size a) = fun _ => 0 :=
    funext fun a => by fin_cases a <;> decide +kernel
  exact (Memref.read_access_unit_zero (Elt Ideal) main_v1 hz' (fun a => by rw [congrFun hz' a]; simp) X).symm

/-- The contents after a point depend on the point's number only, not on how it is written. -/
private theorem outsAt_congr (c : Dev nD) {n₁ n₂ : ℕ} (h : n₁ = n₂) (p₁ : n₁ < cfg0.N) (p₂ : n₂ < cfg0.N) :
    outsAt0 m c n₁ p₁ = outsAt0 m c n₂ p₂ := by subst h; rfl

/-- The write-back, at the last point: block (0, 0) of the [1, 1] array read through zero offsets is the array. -/
theorem flushed_eq (c : Dev nD) (t : Fin cfg0.N) (hf : (cfg0.win 6).flush t = true) :
    (dats m 0 c).flushed 6 t = ((cfg0.win 6).blk t).view.read (Elt Ideal) (result m c) := by
  have ht : t.val = 63 := by have := (flush0_6 t).mp hf; have := t.isLt; have := hN; omega
  obtain rfl : t = tLast := Fin.ext ht
  show (cfg0.win 6).cut (grid0.coords tLast) ((dats m 0 c).after 6 tLast) = _
  rw [after0_6, outsAt_congr m c ht tLast.isLt h63]
  exact cut_last c _

/-- So the result array ends holding the output block of the last point: that point's block is the whole array. -/
theorem final_o (c : Dev nD) : (dats m 0 c).arrAt 6 cfg0.N = result m c :=
  (dats m 0 c).arrAt_eq_of_cover 6 (result m c) (flushed_eq m c) fun i =>
    ⟨tLast, (flush0_6 tLast).mpr rfl, by
      show i ∈ ((View.whole main_v1).slice (win0_6.rect tLast)).set
      rw [View.set_slice_whole, Rect.mem_set_unit]
      intro a
      have h0 : (i 0 : Nat) < 1 := (i 0).isLt
      have h1 : (i 1 : Nat) < 1 := (i 1).isLt
      match a with
      | ⟨0, _⟩ =>
        show win0_6.index tLast 0 * win0_6.size 0 ≤ (i 0 : Nat)
          ∧ (i 0 : Nat) < win0_6.index tLast 0 * win0_6.size 0 + win0_6.xsize (grid0.coords tLast) 0
        rw [show win0_6.index tLast 0 * win0_6.size 0 = 0 from by decide +kernel,
          show win0_6.xsize (grid0.coords tLast) 0 = 1 from by decide +kernel]; omega
      | ⟨1, _⟩ =>
        show win0_6.index tLast 1 * win0_6.size 1 ≤ (i 1 : Nat)
          ∧ (i 1 : Nat) < win0_6.index tLast 1 * win0_6.size 1 + win0_6.xsize (grid0.coords tLast) 1
        rw [show win0_6.index tLast 1 * win0_6.size 1 = 0 from by decide +kernel,
          show win0_6.xsize (grid0.coords tLast) 1 = 1 from by decide +kernel]; omega⟩

section Tail
variable {F : FTy → Type} [FloatOps F]

/-- The host operations after the region, from any contents: the loss is the chain on the portfolio returns plus the
    region's [1, 1] result read as a scalar. -/
theorem tail_fold (W : Valuation τ sig (Elt F)) :
    StableHlo.after (List.flatten [(hostOps1 : List (HloOp τ sig (Elt F))), hostOps1_1, hostOps1_2, hostOps1_3, hostOps1_4]) W
        (Proc.devRef .tc main_v14)
      = addf (Cert.Loss.head headFacts (W (Proc.devRef .tc main_arg0)))
          (shapeCast S_ (W (Proc.devRef .tc main_v1)) shapeCasts_S1x1_S_) := by
  simp only [hostOps1, hostOps1_1, hostOps1_2, hostOps1_3, hostOps1_4, List.flatten_cons, List.flatten_nil, List.append_nil,
    List.cons_append, List.nil_append]
  after_results_simp
  rfl

end Tail

/-- The returns' column the region is given is the returns array: entry (r, 0) is entry r. -/
theorem rP_eq (c : Dev nD) (r : Fin 4096) :
    rP m c r = (m ((c.tc : Thread nD τ).loc main_arg0) : Vec Ideal S4096 .f32) (ix1 r) := by
  have h : V m c main_v0 = shapeCast S4096x1 (m ((c.tc : Thread nD τ).loc main_arg0)) shapeCasts_S4096_S4096x1 := by
    show StableHlo.after hostOps0 (fun b => m (c, b)) (Proc.devRef .tc main_v0) = _
    after_results
    rfl
  show (V m c main_v0 : Vec Ideal S4096x1 .f32) (ix2 r 0) = _
  rw [h]
  exact shapeCast_apply _ _ (ix2 r 0) (ix1 r) (by
    rw [Shape.rowMajor_val_one, Shape.rowMajor_val_two]
    show r.val = r.val * 1 + 0
    omega)

/-- After the host operations that follow the region, the result buffer holds the specification's total. -/
theorem tail_eq (c : Dev nD)
    (hout : (outsAt0 m c 63 h63).1 (ix2 0 0) = partialLoss (rP m c) (rW m c) (rCF m c) (rRT m c) (rMK m c) (rSC m c)) :
    Pipeline.afterTail₀ cfgs (dats m) 0 (V0 m) [hostOps1, hostOps1_1, hostOps1_2, hostOps1_3, hostOps1_4] c main_v14
      = Cert.Loss.total headFacts (m ((c.tc : Thread nD τ).loc main_arg0)) (m ((c.tc : Thread nD τ).loc main_arg1))
          (m ((c.tc : Thread nD τ).loc main_arg2)) (m ((c.tc : Thread nD τ).loc main_arg3))
          (m ((c.tc : Thread nD τ).loc main_arg4)) (m ((c.tc : Thread nD τ).loc main_arg5)) := by
  unfold Pipeline.afterTail₀
  rw [tail_fold]
  rw [Pipeline.withArrays_of_ne _ c (V0 m c) _ main_arg0 (by exact (by decide : ∀ w, Pipeline.arrRef spec0 w ≠ main_arg0))]
  rw [show V0 m c (Proc.devRef .tc main_arg0) = m ((c : Thread nD τ).loc main_arg0) from V_main_arg0 m c]
  rw [show Pipeline.withArrays (cfgs 0).spec c (V0 m c) (fun w => (dats m 0 c).arrAt w (cfgs 0).N) (Proc.devRef .tc main_v1)
        = result m c from (Pipeline.withArrays_arr spec0 launch0.win.arr_inj c _ _ 6).trans (final_o m c)]
  funext i
  rw [eq_ix0 i]
  unfold Cert.Loss.total
  have hk : (S1x1.rowMajor (ix2 0 0)).val = (S_.rowMajor ix0).val := by
    rw [Shape.rowMajor_val_two]
    exact (Shape.rowMajorPi_zero _ _).symm
  rw [addf_apply, shapeCast_apply (result m c) shapeCasts_S1x1_S_ ix0 (ix2 0 0) hk]
  show _ + (outsAt0 m c 63 h63).1 (ix2 0 0) = _
  rw [hout]
  have hP : rP m c = fun r => (m ((c.tc : Thread nD τ).loc main_arg0) : Vec Ideal S4096 .f32) (ix1 r) :=
    funext (rP_eq m c)
  have hW : rW m c = fun r k => (m ((c.tc : Thread nD τ).loc main_arg1) : Vec Ideal S4096x8192 .f32) (ix2 r k) := by
    funext r k; show (V m c main_arg1 : Vec Ideal S4096x8192 .f32) (ix2 r k) = _; rw [V_main_arg1]
  have hCF : rCF m c = fun r k => (m ((c.tc : Thread nD τ).loc main_arg2) : Vec Ideal S4096x8192 .f32) (ix2 r k) := by
    funext r k; show (V m c main_arg2 : Vec Ideal S4096x8192 .f32) (ix2 r k) = _; rw [V_main_arg2]
  have hRT : rRT m c = fun r k => (m ((c.tc : Thread nD τ).loc main_arg3) : Vec Ideal S4096x8192 .f32) (ix2 r k) := by
    funext r k; show (V m c main_arg3 : Vec Ideal S4096x8192 .f32) (ix2 r k) = _; rw [V_main_arg3]
  have hMK : rMK m c = fun r k => (m ((c.tc : Thread nD τ).loc main_arg4) : Vec Ideal S4096x8192 .f32) (ix2 r k) := by
    funext r k; show (V m c main_arg4 : Vec Ideal S4096x8192 .f32) (ix2 r k) = _; rw [V_main_arg4]
  have hSC : rSC m c = fun r k => (m ((c.tc : Thread nD τ).loc main_arg5) : Vec Ideal S4096x8192 .f32) (ix2 r k) := by
    funext r k; show (V m c main_arg5 : Vec Ideal S4096x8192 .f32) (ix2 r k) = _; rw [V_main_arg5]
  rw [hP, hW, hCF, hRT, hMK, hSC]

/-- The run, read: the result at the specification's total, the arguments unchanged. -/
theorem run (ρ : Dev nD → PrngReg)
    (hout : ∀ c : Dev nD, (outsAt0 m c 63 h63).1 (ix2 0 0)
      = partialLoss (rP m c) (rW m c) (rCF m c) (rRT m c) (rMK m c) (rSC m c)) :
    θ_run defs (onTc (τ := τ) (main (F := Ideal))) ⟨m, fun _ => 0, ρ⟩ fun r => ∀ c : Dev nD,
      r.2.mem ((c.tc : Thread nD τ).loc main_v14)
          = Cert.Loss.total headFacts (m ((c.tc : Thread nD τ).loc main_arg0)) (m ((c.tc : Thread nD τ).loc main_arg1))
              (m ((c.tc : Thread nD τ).loc main_arg2)) (m ((c.tc : Thread nD τ).loc main_arg3))
              (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  exact (θ_run defs _ _).mono (fun _ h c =>
    ⟨((h c).2 main_v14 (Pipeline.mem_restRefs_of main_v14 (by decide) (by decide))).trans (tail_eq m c (hout c)),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).1 1).trans (((dats m 0 c).arrAt_in 1 rfl _).trans ((A_eq m c 1).trans (V_main_arg2 m c))),
      ((h c).1 2).trans (((dats m 0 c).arrAt_in 2 rfl _).trans ((A_eq m c 2).trans (V_main_arg3 m c))),
      ((h c).1 3).trans (((dats m 0 c).arrAt_in 3 rfl _).trans ((A_eq m c 3).trans (V_main_arg4 m c))),
      ((h c).1 4).trans (((dats m 0 c).arrAt_in 4 rfl _).trans ((A_eq m c 4).trans (V_main_arg5 m c)))⟩)
    (run_main m ρ)

end Cert.KernelIdeal.Acc

end
-- ==== Proof.RefOps.lean ====
import proofs.«153510_j16621523435816_1_alg».proof.Proof.Gen.ReferenceIdeal
import Idealize.ShloMosaic.Lib.StableHlo.Run

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-- @main's 203 operations, in order. -/
abbrev ops : List (HloOp τ sig (Elt F)) :=
  [ nullary main_cst (constant S_ .f32 0x00000000#32),
    binary main_arg0 main_cst main_v0 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_0 (constant S_ .f32 0x45800000#32),
    binary main_v0 main_cst_0 main_v1 (Host.divf : (⟨S_, .f32⟩ : BufTy).Contents (Elt F) → (⟨S_, .f32⟩ : BufTy).Contents (Elt F) → (⟨S_, .f32⟩ : BufTy).Contents (Elt F)),
    unary main_v1 main_v2 (Host.negf : (⟨S_, .f32⟩ : BufTy).Contents (Elt F) → (⟨S_, .f32⟩ : BufTy).Contents (Elt F)),
    nullary main_c (constantI S_ 32 1#32),
    TRef.nullary main_call0.call0.cst (constant S_ .f32 0x00000000#32),
    TRef.binary ((.of main_arg0) : StableHlo.TRef sig ⟨S4096, .f32⟩) main_call0.call0.cst main_call0.call0.v0 (fun x v => Host.reduceAdd x v reducesTo_S4096_S_d0 h_S_),
    TRef.unary main_call0.call0.v0 main_call0.call0.v1 (broadcastInDim S1 ![] bcast_S_S1),
    TRef.nullary main_call0.call0.cst_0 (constant S_ .f32 0x45800000#32),
    TRef.unary main_call0.call0.cst_0 main_call0.call0.v2 (broadcastInDim S1 ![] bcast_S_S1),
    TRef.binary main_call0.call0.v1 main_call0.call0.v2 main_call0.call0.v3 Host.divf,
    TRef.unary main_call0.call0.v3 main_call0.call0.v4 (broadcastInDim S4096 ![0] bcast_S1_S4096_0),
    TRef.binary ((.of main_arg0) : StableHlo.TRef sig ⟨S4096, .f32⟩) main_call0.call0.v4 main_call0.call0.v5 subf,
    TRef.binary main_call0.call0.v5 main_call0.call0.v5 main_call0.call0.v6 mulf,
    TRef.unary ((.of main_c) : StableHlo.TRef sig ⟨S_, .i32⟩) main_call0.call0.v7 (sitofp .f32),
    TRef.nullary main_call0.call0.cst_1 (constant S_ .f32 0x45800000#32),
    TRef.binary main_call0.call0.cst_1 main_call0.call0.v7 main_call0.call0.v8 subf,
    TRef.nullary main_call0.call0.cst_2 (constant S_ .f32 0x00000000#32),
    TRef.binary main_call0.call0.v6 main_call0.call0.cst_2 main_call0.call0.v9 (fun x v => Host.reduceAdd x v reducesTo_S4096_S_d0 h_S_),
    TRef.binary main_call0.call0.v9 main_call0.call0.v8 main_call0.call0.v10 Host.divf,
    TRef.nullary main_call0.call0.cst_3 (constant S_ .f32 0x00000000#32),
    TRef.binary main_call0.call0.v8 main_call0.call0.cst_3 main_call0.call0.v11 (cmpf .ogt),
    TRef.nullary main_call0.call0.cst_4 (constant S_ .f32 0x7FC00000#32),
    TRef.unary main_call0.call0.cst_4 main_call0.call0.call0.v0 id,
    TRef.ternary main_call0.call0.v11 main_call0.call0.v10 main_call0.call0.call0.v0 main_call0.call0.call0.v1 select,
    TRef.unary main_call0.call0.call0.v1 main_call0.v1 Host.sqrt,
    unary main_v1 main_v4 (Host.negf : (⟨S_, .f32⟩ : BufTy).Contents (Elt F) → (⟨S_, .f32⟩ : BufTy).Contents (Elt F)),
    nullary main_cst_1 (constant S_ .f32 0x3C23D70A#32),
    binary main_v3 main_cst_1 main_v5 (addf : (⟨S_, .f32⟩ : BufTy).Contents (Elt F) → (⟨S_, .f32⟩ : BufTy).Contents (Elt F) → (⟨S_, .f32⟩ : BufTy).Contents (Elt F)),
    binary main_v4 main_v5 main_v6 (Host.divf : (⟨S_, .f32⟩ : BufTy).Contents (Elt F) → (⟨S_, .f32⟩ : BufTy).Contents (Elt F) → (⟨S_, .f32⟩ : BufTy).Contents (Elt F)),
    nullary main_cst_2 (constant S_ .f32 0xC1200000#32),
    nullary main_cst_3 (constant S_ .f32 0x41200000#32),
    TRef.unary ((.of main_cst_2) : StableHlo.TRef sig ⟨S_, .f32⟩) main_call1.v0 id,
    TRef.binary main_call1.v0 ((.of main_v6) : StableHlo.TRef sig ⟨S_, .f32⟩) main_call1.v1 maximumf,
    TRef.unary ((.of main_cst_3) : StableHlo.TRef sig ⟨S_, .f32⟩) main_call1.v2 id,
    TRef.binary main_call1.v2 main_call1.v1 main_call1.v3 minimumf,
    nullary main_cst_4 (constant S_ .f32 0x322BCC77#32),
    unary main_cst_4 main_v8 (broadcastInDim S4096x8192 ![] bcast_S_S4096x8192 : (⟨S_, .f32⟩ : BufTy).Contents (Elt F) → (⟨S4096x8192, .f32⟩ : BufTy).Contents (Elt F)),
    binary main_arg1 main_v8 main_v9 (addf : (⟨S4096x8192, .f32⟩ : BufTy).Contents (Elt F) → (⟨S4096x8192, .f32⟩ : BufTy).Contents (Elt F) → (⟨S4096x8192, .f32⟩ : BufTy).Contents (Elt F)),
    unary main_v9 main_v10 (Host.log : (⟨S4096x8192, .f32⟩ : BufTy).Contents (Elt F) → (⟨S4096x8192, .f32⟩ : BufTy).Contents (Elt F)),
    binary main_arg1 main_v10 main_v11 (mulf : (⟨S4096x8192, .f32⟩ : BufTy).Contents (Elt F) → (⟨S4096x8192, .f32⟩ : BufTy).Contents (Elt F) → (⟨S4096x8192, .f32⟩ : BufTy).Contents (Elt F)),
    nullary main_cst_5 (constant S_ .f32 0x00000000#32),
    binary main_v11 main_cst_5 main_v12 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_6 (constant S_ .f32 0x00000000#32),
    binary main_v12 main_cst_6 main_v13 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_7 (constant S_ .f32 0x45800000#32),
    binary main_v13 main_cst_7 main_v14 (Host.divf : (⟨S_, .f32⟩ : BufTy).Contents (Elt F) → (⟨S_, .f32⟩ : BufTy).Contents (Elt F) → (⟨S_, .f32⟩ : BufTy).Contents (Elt F)),
    unary main_v14 main_v15 (Host.negf : (⟨S_, .f32⟩ : BufTy).Contents (Elt F) → (⟨S_, .f32⟩ : BufTy).Contents (Elt F)),
    binary main_arg1 main_arg2 main_v16 (mulf : (⟨S4096x8192, .f32⟩ : BufTy).Contents (Elt F) → (⟨S4096x8192, .f32⟩ : BufTy).Contents (Elt F) → (⟨S4096x8192, .f32⟩ : BufTy).Contents (Elt F)),
    binary main_v16 main_arg4 main_v17 (mulf : (⟨S4096x8192, .f32⟩ : BufTy).Contents (Elt F) → (⟨S4096x8192, .f32⟩ : BufTy).Contents (Elt F) → (⟨S4096x8192, .f32⟩ : BufTy).Contents (Elt F)),
    nullary main_cst_8 (constant S_ .f32 0x00000000#32),
    binary main_v17 main_cst_8 main_v18 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    binary main_arg1 main_arg4 main_v19 (mulf : (⟨S4096x8192, .f32⟩ : BufTy).Contents (Elt F) → (⟨S4096x8192, .f32⟩ : BufTy).Contents (Elt F) → (⟨S4096x8192, .f32⟩ : BufTy).Contents (Elt F)),
    nullary main_cst_9 (constant S_ .f32 0x00000000#32),
    binary main_v19 main_cst_9 main_v20 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_10 (constant S_ .f32 0x322BCC77#32),
    unary main_cst_10 main_v21 (broadcastInDim S4096 ![] bcast_S_S4096 : (⟨S_, .f32⟩ : BufTy).Contents (Elt F) → (⟨S4096, .f32⟩ : BufTy).Contents (Elt F)),
    binary main_v20 main_v21 main_v22 (addf : (⟨S4096, .f32⟩ : BufTy).Contents (Elt F) → (⟨S4096, .f32⟩ : BufTy).Contents (Elt F) → (⟨S4096, .f32⟩ : BufTy).Contents (Elt F)),
    binary main_v18 main_v22 main_v23 (Host.divf : (⟨S4096, .f32⟩ : BufTy).Contents (Elt F) → (⟨S4096, .f32⟩ : BufTy).Contents (Elt F) → (⟨S4096, .f32⟩ : BufTy).Contents (Elt F)),
    nullary main_cst_11 (constant S_ .f32 0x42480000#32),
    unary main_cst_11 main_v24 (broadcastInDim S4096 ![] bcast_S_S4096 : (⟨S_, .f32⟩ : BufTy).Contents (Elt F) → (⟨S4096, .f32⟩ : BufTy).Contents (Elt F)),
    binary main_arg0 main_v24 main_v25 (mulf : (⟨S4096, .f32⟩ : BufTy).Contents (Elt F) → (⟨S4096, .f32⟩ : BufTy).Contents (Elt F) → (⟨S4096, .f32⟩ : BufTy).Contents (Elt F)),
    unary main_v25 main_v26 (Host.negf : (⟨S4096, .f32⟩ : BufTy).Contents (Elt F) → (⟨S4096, .f32⟩ : BufTy).Contents (Elt F)),
    unary main_v26 main_v27 (Host.exp : (⟨S4096, .f32⟩ : BufTy).Contents (Elt F) → (⟨S4096, .f32⟩ : BufTy).Contents (Elt F)),
    nullary main_cst_12 (constant S_ .f32 0x3F800000#32),
    unary main_cst_12 main_v28 (broadcastInDim S4096 ![] bcast_S_S4096 : (⟨S_, .f32⟩ : BufTy).Contents (Elt F) → (⟨S4096, .f32⟩ : BufTy).Contents (Elt F)),
    binary main_v28 main_v27 main_v29 (addf : (⟨S4096, .f32⟩ : BufTy).Contents (Elt F) → (⟨S4096, .f32⟩ : BufTy).Contents (Elt F) → (⟨S4096, .f32⟩ : BufTy).Contents (Elt F)),
    nullary main_cst_13 (constant S_ .f32 0x3F800000#32),
    unary main_cst_13 main_v30 (broadcastInDim S4096 ![] bcast_S_S4096 : (⟨S_, .f32⟩ : BufTy).Contents (Elt F) → (⟨S4096, .f32⟩ : BufTy).Contents (Elt F)),
    binary main_v30 main_v29 main_v31 (Host.divf : (⟨S4096, .f32⟩ : BufTy).Contents (Elt F) → (⟨S4096, .f32⟩ : BufTy).Contents (Elt F) → (⟨S4096, .f32⟩ : BufTy).Contents (Elt F)),
    binary main_v23 main_v31 main_v32 (subf : (⟨S4096, .f32⟩ : BufTy).Contents (Elt F) → (⟨S4096, .f32⟩ : BufTy).Contents (Elt F) → (⟨S4096, .f32⟩ : BufTy).Contents (Elt F)),
    binary main_v32 main_v32 main_v33 (mulf : (⟨S4096, .f32⟩ : BufTy).Contents (Elt F) → (⟨S4096, .f32⟩ : BufTy).Contents (Elt F) → (⟨S4096, .f32⟩ : BufTy).Contents (Elt F)),
    nullary main_cst_14 (constant S_ .f32 0x00000000#32),
    binary main_v33 main_cst_14 main_v34 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_cst_15 (constant S_ .f32 0x45800000#32),
    binary main_v34 main_cst_15 main_v35 (Host.divf : (⟨S_, .f32⟩ : BufTy).Contents (Elt F) → (⟨S_, .f32⟩ : BufTy).Contents (Elt F) → (⟨S_, .f32⟩ : BufTy).Contents (Elt F)),
    nullary main_cst_16 (constant S_ .f32 0x00000000#32),
    binary main_arg1 main_cst_16 main_v36 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v36 main_v37 (broadcastInDim S4096x1 ![0] bcast_S4096_S4096x1_0 : (⟨S4096, .f32⟩ : BufTy).Contents (Elt F) → (⟨S4096x1, .f32⟩ : BufTy).Contents (Elt F)),
    nullary main_cst_17 (constant S_ .f32 0x322BCC77#32),
    unary main_cst_17 main_v38 (broadcastInDim S4096x1 ![] bcast_S_S4096x1 : (⟨S_, .f32⟩ : BufTy).Contents (Elt F) → (⟨S4096x1, .f32⟩ : BufTy).Contents (Elt F)),
    binary main_v37 main_v38 main_v39 (addf : (⟨S4096x1, .f32⟩ : BufTy).Contents (Elt F) → (⟨S4096x1, .f32⟩ : BufTy).Contents (Elt F) → (⟨S4096x1, .f32⟩ : BufTy).Contents (Elt F)),
    unary main_v39 main_v40 (broadcastInDim S4096x8192 ![0, 1] bcast_S4096x1_S4096x8192_0_1 : (⟨S4096x1, .f32⟩ : BufTy).Contents (Elt F) → (⟨S4096x8192, .f32⟩ : BufTy).Contents (Elt F)),
    binary main_arg1 main_v40 main_v41 (Host.divf : (⟨S4096x8192, .f32⟩ : BufTy).Contents (Elt F) → (⟨S4096x8192, .f32⟩ : BufTy).Contents (Elt F) → (⟨S4096x8192, .f32⟩ : BufTy).Contents (Elt F)),
    binary main_v41 main_arg4 main_v42 (mulf : (⟨S4096x8192, .f32⟩ : BufTy).Contents (Elt F) → (⟨S4096x8192, .f32⟩ : BufTy).Contents (Elt F) → (⟨S4096x8192, .f32⟩ : BufTy).Contents (Elt F)),
    nullary main_cst_18 (constant S_ .f32 0x00000000#32),
    binary main_v42 main_cst_18 main_v43 ((fun x v => Host.reduceAdd x v reducesTo_S4096x8192_S8192_d0 h_S_) : (⟨S4096x8192, .f32⟩ : BufTy).Contents (Elt F) → (⟨S_, .f32⟩ : BufTy).Contents (Elt F) → (⟨S8192, .f32⟩ : BufTy).Contents (Elt F)),
    nullary main_cst_19 (constant S_ .f32 0x45800000#32),
    unary main_cst_19 main_v44 (broadcastInDim S8192 ![] bcast_S_S8192 : (⟨S_, .f32⟩ : BufTy).Contents (Elt F) → (⟨S8192, .f32⟩ : BufTy).Contents (Elt F)),
    binary main_v43 main_v44 main_v45 (Host.divf : (⟨S8192, .f32⟩ : BufTy).Contents (Elt F) → (⟨S8192, .f32⟩ : BufTy).Contents (Elt F) → (⟨S8192, .f32⟩ : BufTy).Contents (Elt F)),
    nullary main_cst_20 (constant S_ .f32 0x00000000#32),
    binary main_v45 main_cst_20 main_v46 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    nullary main_cst_21 (constant S_ .f32 0x322BCC77#32),
    binary main_v46 main_cst_21 main_v47 (addf : (⟨S_, .f32⟩ : BufTy).Contents (Elt F) → (⟨S_, .f32⟩ : BufTy).Contents (Elt F) → (⟨S_, .f32⟩ : BufTy).Contents (Elt F)),
    unary main_v47 main_v48 (broadcastInDim S8192 ![] bcast_S_S8192 : (⟨S_, .f32⟩ : BufTy).Contents (Elt F) → (⟨S8192, .f32⟩ : BufTy).Contents (Elt F)),
    binary main_v45 main_v48 main_v49 (Host.divf : (⟨S8192, .f32⟩ : BufTy).Contents (Elt F) → (⟨S8192, .f32⟩ : BufTy).Contents (Elt F) → (⟨S8192, .f32⟩ : BufTy).Contents (Elt F)),
    nullary main_cst_22 (constant S_ .f32 0x322BCC77#32),
    unary main_cst_22 main_v50 (broadcastInDim S8192 ![] bcast_S_S8192 : (⟨S_, .f32⟩ : BufTy).Contents (Elt F) → (⟨S8192, .f32⟩ : BufTy).Contents (Elt F)),
    binary main_v49 main_v50 main_v51 (addf : (⟨S8192, .f32⟩ : BufTy).Contents (Elt F) → (⟨S8192, .f32⟩ : BufTy).Contents (Elt F) → (⟨S8192, .f32⟩ : BufTy).Contents (Elt F)),
    unary main_v51 main_v52 (Host.log : (⟨S8192, .f32⟩ : BufTy).Contents (Elt F) → (⟨S8192, .f32⟩ : BufTy).Contents (Elt F)),
    binary main_v49 main_v52 main_v53 (mulf : (⟨S8192, .f32⟩ : BufTy).Contents (Elt F) → (⟨S8192, .f32⟩ : BufTy).Contents (Elt F) → (⟨S8192, .f32⟩ : BufTy).Contents (Elt F)),
    nullary main_cst_23 (constant S_ .f32 0x00000000#32),
    binary main_v53 main_cst_23 main_v54 ((fun x v => Host.reduceAdd x v reducesTo_S8192_S_d0 h_S_) : (⟨S8192, .f32⟩ : BufTy).Contents (Elt F) → (⟨S_, .f32⟩ : BufTy).Contents (Elt F) → (⟨S_, .f32⟩ : BufTy).Contents (Elt F)),
    unary main_v54 main_v55 (Host.negf : (⟨S_, .f32⟩ : BufTy).Contents (Elt F) → (⟨S_, .f32⟩ : BufTy).Contents (Elt F)),
    unary main_v55 main_v56 (Host.negf : (⟨S_, .f32⟩ : BufTy).Contents (Elt F) → (⟨S_, .f32⟩ : BufTy).Contents (Elt F)),
    nullary main_cst_24 (constant S_ .f32 0x00000000#32),
    unary main_cst_24 main_v57 (broadcastInDim S4096x8192 ![] bcast_S_S4096x8192 : (⟨S_, .f32⟩ : BufTy).Contents (Elt F) → (⟨S4096x8192, .f32⟩ : BufTy).Contents (Elt F)),
    binary main_arg4 main_v57 main_v58 (cmpf .ogt : (⟨S4096x8192, .f32⟩ : BufTy).Contents (Elt F) → (⟨S4096x8192, .f32⟩ : BufTy).Contents (Elt F) → (⟨S4096x8192, .i1⟩ : BufTy).Contents (Elt F)),
    unary main_v58 main_v59 ((extui 32 · natLt_1_32) : (⟨S4096x8192, .i1⟩ : BufTy).Contents (Elt F) → (⟨S4096x8192, .i32⟩ : BufTy).Contents (Elt F)),
    nullary main_c_25 (constantI S_ 32 0#32),
    binary main_v59 main_c_25 main_v60 ((fun x v => Host.reduce IntOp.addi x v reducesTo_S4096x8192_S4096_d1 h_S_) : (⟨S4096x8192, .i32⟩ : BufTy).Contents (Elt F) → (⟨S_, .i32⟩ : BufTy).Contents (Elt F) → (⟨S4096, .i32⟩ : BufTy).Contents (Elt F)),
    nullary main_cst_26 (constant S_ .f32 0x41A00000#32),
    unary main_cst_26 main_v61 (broadcastInDim S4096x8192 ![] bcast_S_S4096x8192 : (⟨S_, .f32⟩ : BufTy).Contents (Elt F) → (⟨S4096x8192, .f32⟩ : BufTy).Contents (Elt F)),
    binary main_arg3 main_v61 main_v62 (mulf : (⟨S4096x8192, .f32⟩ : BufTy).Contents (Elt F) → (⟨S4096x8192, .f32⟩ : BufTy).Contents (Elt F) → (⟨S4096x8192, .f32⟩ : BufTy).Contents (Elt F)),
    nullary main_cst_27 (constant S_ .f32 0xF149F2CA#32),
    TRef.unary ((.of main_cst_27) : StableHlo.TRef sig ⟨S_, .f32⟩) main_call2.v0 id,
    TRef.unary main_call2.v0 main_call2.v1 (broadcastInDim S4096x8192 ![] bcast_S_S4096x8192),
    TRef.ternary ((.of main_v58) : StableHlo.TRef sig ⟨S4096x8192, .i1⟩) ((.of main_v62) : StableHlo.TRef sig ⟨S4096x8192, .f32⟩) main_call2.v1 main_call2.v2 select,
    nullary main_cst_28 (constant S_ .f32 0xFF800000#32),
    binary main_v63 main_cst_28 main_v64 ((fun x v => Host.reduce FloatOps.maximumf x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    nullary main_cst_29 (constant S_ .f32 0xFF800000#32),
    unary main_cst_29 main_v65 (broadcastInDim S4096 ![] bcast_S_S4096 : (⟨S_, .f32⟩ : BufTy).Contents (Elt F) → (⟨S4096, .f32⟩ : BufTy).Contents (Elt F)),
    binary main_v65 main_v64 main_v66 (maximumf : (⟨S4096, .f32⟩ : BufTy).Contents (Elt F) → (⟨S4096, .f32⟩ : BufTy).Contents (Elt F) → (⟨S4096, .f32⟩ : BufTy).Contents (Elt F)),
    unary main_v66 main_v67 (broadcastInDim S4096x1 ![0] bcast_S4096_S4096x1_0 : (⟨S4096, .f32⟩ : BufTy).Contents (Elt F) → (⟨S4096x1, .f32⟩ : BufTy).Contents (Elt F)),
    unary main_v67 main_v68 (broadcastInDim S4096x8192 ![0, 1] bcast_S4096x1_S4096x8192_0_1 : (⟨S4096x1, .f32⟩ : BufTy).Contents (Elt F) → (⟨S4096x8192, .f32⟩ : BufTy).Contents (Elt F)),
    binary main_v63 main_v68 main_v69 (subf : (⟨S4096x8192, .f32⟩ : BufTy).Contents (Elt F) → (⟨S4096x8192, .f32⟩ : BufTy).Contents (Elt F) → (⟨S4096x8192, .f32⟩ : BufTy).Contents (Elt F)),
    unary main_v69 main_v70 (Host.exp : (⟨S4096x8192, .f32⟩ : BufTy).Contents (Elt F) → (⟨S4096x8192, .f32⟩ : BufTy).Contents (Elt F)),
    nullary main_cst_30 (constant S_ .f32 0x00000000#32),
    binary main_v70 main_cst_30 main_v71 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v71 main_v72 (broadcastInDim S4096x1 ![0] bcast_S4096_S4096x1_0 : (⟨S4096, .f32⟩ : BufTy).Contents (Elt F) → (⟨S4096x1, .f32⟩ : BufTy).Contents (Elt F)),
    unary main_v72 main_v73 (broadcastInDim S4096x8192 ![0, 1] bcast_S4096x1_S4096x8192_0_1 : (⟨S4096x1, .f32⟩ : BufTy).Contents (Elt F) → (⟨S4096x8192, .f32⟩ : BufTy).Contents (Elt F)),
    binary main_v70 main_v73 main_v74 (Host.divf : (⟨S4096x8192, .f32⟩ : BufTy).Contents (Elt F) → (⟨S4096x8192, .f32⟩ : BufTy).Contents (Elt F) → (⟨S4096x8192, .f32⟩ : BufTy).Contents (Elt F)),
    nullary main_cst_31 (constant S_ .f32 0xF149F2CA#32),
    TRef.unary ((.of main_cst_31) : StableHlo.TRef sig ⟨S_, .f32⟩) main_call3.v0 id,
    TRef.unary main_call3.v0 main_call3.v1 (broadcastInDim S4096x8192 ![] bcast_S_S4096x8192),
    TRef.ternary ((.of main_v58) : StableHlo.TRef sig ⟨S4096x8192, .i1⟩) ((.of main_arg5) : StableHlo.TRef sig ⟨S4096x8192, .f32⟩) main_call3.v1 main_call3.v2 select,
    TRef.nullary main_call4.cst (constant S_ .f32 0xFF800000#32),
    TRef.binary ((.of main_v75) : StableHlo.TRef sig ⟨S4096x8192, .f32⟩) main_call4.cst main_call4.v0 (fun x v => Host.reduce FloatOps.maximumf x v reducesTo_S4096x8192_S4096_d1 h_S_),
    TRef.nullary main_call4.cst_0 (constant S_ .f32 0xFF800000#32),
    TRef.unary main_call4.cst_0 main_call4.v1 (broadcastInDim S4096 ![] bcast_S_S4096),
    TRef.binary main_call4.v1 main_call4.v0 main_call4.v2 maximumf,
    TRef.unary main_call4.v2 main_call4.v3 (broadcastInDim S4096x1 ![0] bcast_S4096_S4096x1_0),
    TRef.unary main_call4.v3 main_call4.v4 (broadcastInDim S4096x8192 ![0, 1] bcast_S4096x1_S4096x8192_0_1),
    TRef.binary ((.of main_v75) : StableHlo.TRef sig ⟨S4096x8192, .f32⟩) main_call4.v4 main_call4.v5 subf,
    TRef.unary main_call4.v5 main_call4.v6 Host.exp,
    TRef.nullary main_call4.cst_1 (constant S_ .f32 0x00000000#32),
    TRef.binary main_call4.v6 main_call4.cst_1 main_call4.v7 (fun x v => Host.reduceAdd x v reducesTo_S4096x8192_S4096_d1 h_S_),
    TRef.unary main_call4.v7 main_call4.v8 (broadcastInDim S4096x1 ![0] bcast_S4096_S4096x1_0),
    TRef.unary main_call4.v8 main_call4.v9 Host.log,
    TRef.unary main_call4.v9 main_call4.v10 (broadcastInDim S4096x8192 ![0, 1] bcast_S4096x1_S4096x8192_0_1),
    TRef.binary main_call4.v5 main_call4.v10 main_call4.v11 subf,
    nullary main_cst_32 (constant S_ .f32 0x00000000#32),
    TRef.unary ((.of main_cst_32) : StableHlo.TRef sig ⟨S_, .f32⟩) main_call5.v0 id,
    TRef.unary main_call5.v0 main_call5.v1 (broadcastInDim S4096x8192 ![] bcast_S_S4096x8192),
    TRef.ternary ((.of main_v58) : StableHlo.TRef sig ⟨S4096x8192, .i1⟩) ((.of main_v76) : StableHlo.TRef sig ⟨S4096x8192, .f32⟩) main_call5.v1 main_call5.v2 select,
    binary main_v74 main_v77 main_v78 (mulf : (⟨S4096x8192, .f32⟩ : BufTy).Contents (Elt F) → (⟨S4096x8192, .f32⟩ : BufTy).Contents (Elt F) → (⟨S4096x8192, .f32⟩ : BufTy).Contents (Elt F)),
    nullary main_cst_33 (constant S_ .f32 0x00000000#32),
    binary main_v78 main_cst_33 main_v79 ((fun x v => Host.reduceAdd x v reducesTo_S4096x8192_S4096_d1 h_S_) : (⟨S4096x8192, .f32⟩ : BufTy).Contents (Elt F) → (⟨S_, .f32⟩ : BufTy).Contents (Elt F) → (⟨S4096, .f32⟩ : BufTy).Contents (Elt F)),
    unary main_v79 main_v80 (Host.negf : (⟨S4096, .f32⟩ : BufTy).Contents (Elt F) → (⟨S4096, .f32⟩ : BufTy).Contents (Elt F)),
    nullary main_c_34 (constantI S_ 32 1#32),
    unary main_c_34 main_v81 (broadcastInDim S4096 ![] bcast_S_S4096 : (⟨S_, .i32⟩ : BufTy).Contents (Elt F) → (⟨S4096, .i32⟩ : BufTy).Contents (Elt F)),
    binary main_v60 main_v81 main_v82 (maxsi : (⟨S4096, .i32⟩ : BufTy).Contents (Elt F) → (⟨S4096, .i32⟩ : BufTy).Contents (Elt F) → (⟨S4096, .i32⟩ : BufTy).Contents (Elt F)),
    unary main_v82 main_v83 (sitofp .f32 : (⟨S4096, .i32⟩ : BufTy).Contents (Elt F) → (⟨S4096, .f32⟩ : BufTy).Contents (Elt F)),
    binary main_v80 main_v83 main_v84 (Host.divf : (⟨S4096, .f32⟩ : BufTy).Contents (Elt F) → (⟨S4096, .f32⟩ : BufTy).Contents (Elt F) → (⟨S4096, .f32⟩ : BufTy).Contents (Elt F)),
    nullary main_c_35 (constantI S_ 32 2#32),
    unary main_c_35 main_v85 (broadcastInDim S4096 ![] bcast_S_S4096 : (⟨S_, .i32⟩ : BufTy).Contents (Elt F) → (⟨S4096, .i32⟩ : BufTy).Contents (Elt F)),
    binary main_v60 main_v85 main_v86 (cmpi .sge : (⟨S4096, .i32⟩ : BufTy).Contents (Elt F) → (⟨S4096, .i32⟩ : BufTy).Contents (Elt F) → (⟨S4096, .i1⟩ : BufTy).Contents (Elt F)),
    unary main_v86 main_v87 ((extui 32 · natLt_1_32) : (⟨S4096, .i1⟩ : BufTy).Contents (Elt F) → (⟨S4096, .i32⟩ : BufTy).Contents (Elt F)),
    nullary main_c_36 (constantI S_ 32 0#32),
    binary main_v87 main_c_36 main_v88 ((fun x v => Host.reduce IntOp.addi x v reducesTo_S4096_S_d0 h_S_) : (⟨S4096, .i32⟩ : BufTy).Contents (Elt F) → (⟨S_, .i32⟩ : BufTy).Contents (Elt F) → (⟨S_, .i32⟩ : BufTy).Contents (Elt F)),
    nullary main_cst_37 (constant S_ .f32 0x00000000#32),
    TRef.unary ((.of main_cst_37) : StableHlo.TRef sig ⟨S_, .f32⟩) main_call6.v0 id,
    TRef.unary main_call6.v0 main_call6.v1 (broadcastInDim S4096 ![] bcast_S_S4096),
    TRef.ternary ((.of main_v86) : StableHlo.TRef sig ⟨S4096, .i1⟩) ((.of main_v84) : StableHlo.TRef sig ⟨S4096, .f32⟩) main_call6.v1 main_call6.v2 select,
    nullary main_cst_38 (constant S_ .f32 0x00000000#32),
    binary main_v89 main_cst_38 main_v90 ((fun x v => Host.reduceAdd x v reducesTo_S4096_S_d0 h_S_) : (⟨S4096, .f32⟩ : BufTy).Contents (Elt F) → (⟨S_, .f32⟩ : BufTy).Contents (Elt F) → (⟨S_, .f32⟩ : BufTy).Contents (Elt F)),
    nullary main_c_39 (constantI S_ 32 0#32),
    binary main_v88 main_c_39 main_v91 (cmpi .sgt : (⟨S_, .i32⟩ : BufTy).Contents (Elt F) → (⟨S_, .i32⟩ : BufTy).Contents (Elt F) → (⟨S_, .i1⟩ : BufTy).Contents (Elt F)),
    nullary main_c_40 (constantI S_ 32 1#32),
    binary main_v88 main_c_40 main_v92 (maxsi : (⟨S_, .i32⟩ : BufTy).Contents (Elt F) → (⟨S_, .i32⟩ : BufTy).Contents (Elt F) → (⟨S_, .i32⟩ : BufTy).Contents (Elt F)),
    unary main_v92 main_v93 (sitofp .f32 : (⟨S_, .i32⟩ : BufTy).Contents (Elt F) → (⟨S_, .f32⟩ : BufTy).Contents (Elt F)),
    binary main_v90 main_v93 main_v94 (Host.divf : (⟨S_, .f32⟩ : BufTy).Contents (Elt F) → (⟨S_, .f32⟩ : BufTy).Contents (Elt F) → (⟨S_, .f32⟩ : BufTy).Contents (Elt F)),
    nullary main_cst_41 (constant S_ .f32 0x00000000#32),
    TRef.unary ((.of main_cst_41) : StableHlo.TRef sig ⟨S_, .f32⟩) main_call7.v0 id,
    TRef.ternary ((.of main_v91) : StableHlo.TRef sig ⟨S_, .i1⟩) ((.of main_v94) : StableHlo.TRef sig ⟨S_, .f32⟩) main_call7.v0 main_call7.v1 select,
    nullary main_cst_42 (constant S_ .f32 0x3F800000#32),
    binary main_cst_42 main_v2 main_v96 (mulf : (⟨S_, .f32⟩ : BufTy).Contents (Elt F) → (⟨S_, .f32⟩ : BufTy).Contents (Elt F) → (⟨S_, .f32⟩ : BufTy).Contents (Elt F)),
    nullary main_cst_43 (constant S_ .f32 0x3DCCCCCD#32),
    binary main_cst_43 main_v7 main_v97 (mulf : (⟨S_, .f32⟩ : BufTy).Contents (Elt F) → (⟨S_, .f32⟩ : BufTy).Contents (Elt F) → (⟨S_, .f32⟩ : BufTy).Contents (Elt F)),
    binary main_v96 main_v97 main_v98 (addf : (⟨S_, .f32⟩ : BufTy).Contents (Elt F) → (⟨S_, .f32⟩ : BufTy).Contents (Elt F) → (⟨S_, .f32⟩ : BufTy).Contents (Elt F)),
    nullary main_cst_44 (constant S_ .f32 0x3C23D70A#32),
    binary main_cst_44 main_v15 main_v99 (mulf : (⟨S_, .f32⟩ : BufTy).Contents (Elt F) → (⟨S_, .f32⟩ : BufTy).Contents (Elt F) → (⟨S_, .f32⟩ : BufTy).Contents (Elt F)),
    binary main_v98 main_v99 main_v100 (addf : (⟨S_, .f32⟩ : BufTy).Contents (Elt F) → (⟨S_, .f32⟩ : BufTy).Contents (Elt F) → (⟨S_, .f32⟩ : BufTy).Contents (Elt F)),
    nullary main_cst_45 (constant S_ .f32 0x3DCCCCCD#32),
    binary main_cst_45 main_v35 main_v101 (mulf : (⟨S_, .f32⟩ : BufTy).Contents (Elt F) → (⟨S_, .f32⟩ : BufTy).Contents (Elt F) → (⟨S_, .f32⟩ : BufTy).Contents (Elt F)),
    binary main_v100 main_v101 main_v102 (addf : (⟨S_, .f32⟩ : BufTy).Contents (Elt F) → (⟨S_, .f32⟩ : BufTy).Contents (Elt F) → (⟨S_, .f32⟩ : BufTy).Contents (Elt F)),
    nullary main_cst_46 (constant S_ .f32 0x3C23D70A#32),
    binary main_cst_46 main_v56 main_v103 (mulf : (⟨S_, .f32⟩ : BufTy).Contents (Elt F) → (⟨S_, .f32⟩ : BufTy).Contents (Elt F) → (⟨S_, .f32⟩ : BufTy).Contents (Elt F)),
    binary main_v102 main_v103 main_v104 (addf : (⟨S_, .f32⟩ : BufTy).Contents (Elt F) → (⟨S_, .f32⟩ : BufTy).Contents (Elt F) → (⟨S_, .f32⟩ : BufTy).Contents (Elt F)),
    nullary main_cst_47 (constant S_ .f32 0x3DCCCCCD#32),
    binary main_cst_47 main_v95 main_v105 (mulf : (⟨S_, .f32⟩ : BufTy).Contents (Elt F) → (⟨S_, .f32⟩ : BufTy).Contents (Elt F) → (⟨S_, .f32⟩ : BufTy).Contents (Elt F)),
    binary main_v104 main_v105 main_v106 (addf : (⟨S_, .f32⟩ : BufTy).Contents (Elt F) → (⟨S_, .f32⟩ : BufTy).Contents (Elt F) → (⟨S_, .f32⟩ : BufTy).Contents (Elt F)) ]

theorem ops_sub : (ops : List (HloOp τ sig (Elt F))).Forall fun op => op.bufs ⊆ tcRefs τ sig :=
  ⟨nullary_bufs_sub .., binary_bufs_sub .., nullary_bufs_sub .., binary_bufs_sub .., unary_bufs_sub .., nullary_bufs_sub .., nullary_bufs_sub .., binary_bufs_sub .., unary_bufs_sub .., nullary_bufs_sub .., unary_bufs_sub .., binary_bufs_sub .., unary_bufs_sub .., binary_bufs_sub .., binary_bufs_sub .., unary_bufs_sub .., nullary_bufs_sub .., binary_bufs_sub .., nullary_bufs_sub .., binary_bufs_sub .., binary_bufs_sub .., nullary_bufs_sub .., binary_bufs_sub .., nullary_bufs_sub .., unary_bufs_sub .., ternary_bufs_sub .., unary_bufs_sub .., unary_bufs_sub .., nullary_bufs_sub .., binary_bufs_sub .., binary_bufs_sub .., nullary_bufs_sub .., nullary_bufs_sub .., unary_bufs_sub .., binary_bufs_sub .., unary_bufs_sub .., binary_bufs_sub .., nullary_bufs_sub .., unary_bufs_sub .., binary_bufs_sub .., unary_bufs_sub .., binary_bufs_sub .., nullary_bufs_sub .., binary_bufs_sub .., nullary_bufs_sub .., binary_bufs_sub .., nullary_bufs_sub .., binary_bufs_sub .., unary_bufs_sub .., binary_bufs_sub .., binary_bufs_sub .., nullary_bufs_sub .., binary_bufs_sub .., binary_bufs_sub .., nullary_bufs_sub .., binary_bufs_sub .., nullary_bufs_sub .., unary_bufs_sub .., binary_bufs_sub .., binary_bufs_sub .., nullary_bufs_sub .., unary_bufs_sub .., binary_bufs_sub .., unary_bufs_sub .., unary_bufs_sub .., nullary_bufs_sub .., unary_bufs_sub .., binary_bufs_sub .., nullary_bufs_sub .., unary_bufs_sub .., binary_bufs_sub .., binary_bufs_sub .., binary_bufs_sub .., nullary_bufs_sub .., binary_bufs_sub .., nullary_bufs_sub .., binary_bufs_sub .., nullary_bufs_sub .., binary_bufs_sub .., unary_bufs_sub .., nullary_bufs_sub .., unary_bufs_sub .., binary_bufs_sub .., unary_bufs_sub .., binary_bufs_sub .., binary_bufs_sub .., nullary_bufs_sub .., binary_bufs_sub .., nullary_bufs_sub .., unary_bufs_sub .., binary_bufs_sub .., nullary_bufs_sub .., binary_bufs_sub .., nullary_bufs_sub .., binary_bufs_sub .., unary_bufs_sub .., binary_bufs_sub .., nullary_bufs_sub .., unary_bufs_sub .., binary_bufs_sub .., unary_bufs_sub .., binary_bufs_sub .., nullary_bufs_sub .., binary_bufs_sub .., unary_bufs_sub .., unary_bufs_sub .., nullary_bufs_sub .., unary_bufs_sub .., binary_bufs_sub .., unary_bufs_sub .., nullary_bufs_sub .., binary_bufs_sub .., nullary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., binary_bufs_sub .., nullary_bufs_sub .., unary_bufs_sub .., unary_bufs_sub .., ternary_bufs_sub .., nullary_bufs_sub .., binary_bufs_sub .., nullary_bufs_sub .., unary_bufs_sub .., binary_bufs_sub .., unary_bufs_sub .., unary_bufs_sub .., binary_bufs_sub .., unary_bufs_sub .., nullary_bufs_sub .., binary_bufs_sub .., unary_bufs_sub .., unary_bufs_sub .., unary_bufs_sub .., binary_bufs_sub .., nullary_bufs_sub .., unary_bufs_sub .., unary_bufs_sub .., ternary_bufs_sub .., binary_bufs_sub .., nullary_bufs_sub .., binary_bufs_sub .., unary_bufs_sub .., nullary_bufs_sub .., unary_bufs_sub .., binary_bufs_sub .., unary_bufs_sub .., binary_bufs_sub .., nullary_bufs_sub .., unary_bufs_sub .., binary_bufs_sub .., unary_bufs_sub .., nullary_bufs_sub .., binary_bufs_sub .., nullary_bufs_sub .., unary_bufs_sub .., unary_bufs_sub .., ternary_bufs_sub .., nullary_bufs_sub .., binary_bufs_sub .., nullary_bufs_sub .., binary_bufs_sub .., nullary_bufs_sub .., binary_bufs_sub .., unary_bufs_sub .., binary_bufs_sub .., nullary_bufs_sub .., unary_bufs_sub .., ternary_bufs_sub .., nullary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub .., nullary_bufs_sub .., binary_bufs_sub .., binary_bufs_sub ..⟩

end Cert.ReferenceIdeal.Ops

end
-- ==== Proof.RefTerm.lean ====
/-
  The reference's result as a composed function of the six argument arrays, stage by stage, at any float family:
  the concentration term (v15), the confidence term (v35), the batch-entropy term (v56), the ranking term (v95) and
  the chain on the portfolio returns (Loss.head), added up in the reference's order (refOut).
-/
import proofs.«153510_j16621523435816_1_alg».proof.Proof.RefOps
import proofs.«153510_j16621523435816_1_alg».proof.Proof.Spec

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

/-! ## Small pieces the stages share -/

/-- A scalar literal. -/
def kc (b : BitVec 32) : FVec F S_ .f32 := constant S_ .f32 b
/-- A row-wise sum: [4096, 8192] to [4096]. -/
def sumRows (x : FVec F S4096x8192 .f32) : FVec F S4096 .f32 :=
  Host.reduceAdd x (kc 0x00000000#32) reducesTo_S4096x8192_S4096_d1 h_S_
/-- The sum of a [4096] array. -/
def sumAll (x : FVec F S4096 .f32) : FVec F S_ .f32 := Host.reduceAdd x (kc 0x00000000#32) reducesTo_S4096_S_d0 h_S_
/-- The sum of a [8192] array. -/
def sumCols (x : FVec F S8192 .f32) : FVec F S_ .f32 := Host.reduceAdd x (kc 0x00000000#32) reducesTo_S8192_S_d0 h_S_
def bM (v : FVec F S_ .f32) : FVec F S4096x8192 .f32 := broadcastInDim S4096x8192 ![] bcast_S_S4096x8192 v
def bV (v : FVec F S_ .f32) : FVec F S4096 .f32 := broadcastInDim S4096 ![] bcast_S_S4096 v
def bC (v : FVec F S_ .f32) : FVec F S8192 .f32 := broadcastInDim S8192 ![] bcast_S_S8192 v
/-- A [4096] array kept as a column [4096, 1]. -/
def col (v : FVec F S4096 .f32) : FVec F S4096x1 .f32 := broadcastInDim S4096x1 ![0] bcast_S4096_S4096x1_0 v
/-- A column spread over the 8192 lanes. -/
def spread (v : FVec F S4096x1 .f32) : FVec F S4096x8192 .f32 := broadcastInDim S4096x8192 ![0, 1] bcast_S4096x1_S4096x8192_0_1 v
/-- A row-wise maximum from −∞ (jax takes the maximum of −∞ and the reduce's result). -/
def rowMax (x : FVec F S4096x8192 .f32) : FVec F S4096 .f32 :=
  maximumf (bV (kc 0xFF800000#32)) (Host.reduce FloatOps.maximumf x (kc 0xFF800000#32) reducesTo_S4096x8192_S4096_d1 h_S_)

/-! ## Concentration -/

def v15 (a1 : FVec F S4096x8192 .f32) : FVec F S_ .f32 :=
  Host.negf (Host.divf (sumAll (sumRows (mulf a1 (Host.log (addf a1 (bM (kc 0x322BCC77#32))))))) (kc 0x45800000#32))

/-! ## Confidence -/

def v23 (a1 a2 a4 : FVec F S4096x8192 .f32) : FVec F S4096 .f32 :=
  Host.divf (sumRows (mulf (mulf a1 a2) a4)) (addf (sumRows (mulf a1 a4)) (bV (kc 0x322BCC77#32)))
def v31 (a0 : FVec F S4096 .f32) : FVec F S4096 .f32 :=
  Host.divf (bV (kc 0x3F800000#32)) (addf (bV (kc 0x3F800000#32)) (Host.exp (Host.negf (mulf a0 (bV (kc 0x42480000#32))))))
def v35 (a0 : FVec F S4096 .f32) (a1 a2 a4 : FVec F S4096x8192 .f32) : FVec F S_ .f32 :=
  Host.divf (sumAll (mulf (subf (v23 a1 a2 a4) (v31 a0)) (subf (v23 a1 a2 a4) (v31 a0)))) (kc 0x45800000#32)

/-! ## Batch entropy -/

def v41 (a1 : FVec F S4096x8192 .f32) : FVec F S4096x8192 .f32 :=
  Host.divf a1 (spread (addf (col (sumRows a1)) (broadcastInDim S4096x1 ![] bcast_S_S4096x1 (kc 0x322BCC77#32))))
def v45 (a1 a4 : FVec F S4096x8192 .f32) : FVec F S8192 .f32 :=
  Host.divf (Host.reduceAdd (mulf (v41 a1) a4) (kc 0x00000000#32) reducesTo_S4096x8192_S8192_d0 h_S_) (bC (kc 0x45800000#32))
def v49 (a1 a4 : FVec F S4096x8192 .f32) : FVec F S8192 .f32 :=
  Host.divf (v45 a1 a4) (bC (addf (sumCols (v45 a1 a4)) (kc 0x322BCC77#32)))
def v56 (a1 a4 : FVec F S4096x8192 .f32) : FVec F S_ .f32 :=
  Host.negf (Host.negf (sumCols (mulf (v49 a1 a4) (Host.log (addf (v49 a1 a4) (bC (kc 0x322BCC77#32)))))))

/-! ## Ranking -/

def v58 (a4 : FVec F S4096x8192 .f32) : IVec S4096x8192 1 := cmpf .ogt a4 (bM (kc 0x00000000#32))
/-- The number of positive mask entries of each row, an integer. -/
def v60 (a4 : FVec F S4096x8192 .f32) : IVec S4096 32 :=
  Host.reduce IntOp.addi (extui 32 (v58 a4) natLt_1_32) (constantI S_ 32 0#32) reducesTo_S4096x8192_S4096_d1 h_S_
def v63 (a3 a4 : FVec F S4096x8192 .f32) : FVec F S4096x8192 .f32 :=
  select (v58 a4) (mulf a3 (bM (kc 0x41A00000#32))) (bM (id (kc 0xF149F2CA#32)))
def v70 (a3 a4 : FVec F S4096x8192 .f32) : FVec F S4096x8192 .f32 :=
  Host.exp (subf (v63 a3 a4) (spread (col (rowMax (v63 a3 a4)))))
def v74 (a3 a4 : FVec F S4096x8192 .f32) : FVec F S4096x8192 .f32 :=
  Host.divf (v70 a3 a4) (spread (col (sumRows (v70 a3 a4))))
def v75 (a4 a5 : FVec F S4096x8192 .f32) : FVec F S4096x8192 .f32 := select (v58 a4) a5 (bM (id (kc 0xF149F2CA#32)))
def ls5 (a4 a5 : FVec F S4096x8192 .f32) : FVec F S4096x8192 .f32 := subf (v75 a4 a5) (spread (col (rowMax (v75 a4 a5))))
def v76 (a4 a5 : FVec F S4096x8192 .f32) : FVec F S4096x8192 .f32 :=
  subf (ls5 a4 a5) (spread (Host.log (col (sumRows (Host.exp (ls5 a4 a5))))))
def v77 (a4 a5 : FVec F S4096x8192 .f32) : FVec F S4096x8192 .f32 := select (v58 a4) (v76 a4 a5) (bM (id (kc 0x00000000#32)))
def v80 (a3 a4 a5 : FVec F S4096x8192 .f32) : FVec F S4096 .f32 := Host.negf (sumRows (mulf (v74 a3 a4) (v77 a4 a5)))
def v84 (a3 a4 a5 : FVec F S4096x8192 .f32) : FVec F S4096 .f32 :=
  Host.divf (v80 a3 a4 a5) (sitofp .f32 (maxsi (v60 a4) (broadcastInDim S4096 ![] bcast_S_S4096 (constantI S_ 32 1#32))))
def v86 (a4 : FVec F S4096x8192 .f32) : IVec S4096 1 :=
  cmpi .sge (v60 a4) (broadcastInDim S4096 ![] bcast_S_S4096 (constantI S_ 32 2#32))
/-- The number of rows with two or more positive mask entries, an integer. -/
def v88 (a4 : FVec F S4096x8192 .f32) : IVec S_ 32 :=
  Host.reduce IntOp.addi (extui 32 (v86 a4) natLt_1_32) (constantI S_ 32 0#32) reducesTo_S4096_S_d0 h_S_
def v89 (a3 a4 a5 : FVec F S4096x8192 .f32) : FVec F S4096 .f32 := select (v86 a4) (v84 a3 a4 a5) (bV (id (kc 0x00000000#32)))
def v95 (a3 a4 a5 : FVec F S4096x8192 .f32) : FVec F S_ .f32 :=
  select (cmpi .sgt (v88 a4) (constantI S_ 32 0#32))
    (Host.divf (sumAll (v89 a3 a4 a5)) (sitofp .f32 (maxsi (v88 a4) (constantI S_ 32 1#32)))) (id (kc 0x00000000#32))

/-! ## The sum -/

/-- The shape facts of the chain on the portfolio returns, from the reference's own. -/
theorem headFacts : Cert.Loss.HeadFacts := ⟨reducesTo_S4096_S_d0, h_S_, bcast_S_S1, bcast_S1_S4096_0⟩

def refOut (a0 : FVec F S4096 .f32) (a1 a2 a3 a4 a5 : FVec F S4096x8192 .f32) : FVec F S_ .f32 :=
  addf (addf (addf (addf (Cert.Loss.head headFacts a0) (mulf (kc 0x3C23D70A#32) (v15 a1))) (mulf (kc 0x3DCCCCCD#32) (v35 a0 a1 a2 a4)))
    (mulf (kc 0x3C23D70A#32) (v56 a1 a4))) (mulf (kc 0x3DCCCCCD#32) (v95 a3 a4 a5))

/-! ## The fold over the operations is that function

The fold is computed buffer by buffer. A stage's buffer, read after the whole line, is the stage's function of the
argument buffers: the operations' results are substituted one into the other down to the arguments, and what is left is
the stage's own text. Three things keep each such computation small.
  * An inlined function's value is moved into its buffer's type and back when it is read (two casts along the same
    equation of types): such a pair is the identity, and is removed before the two sides are compared.
  * The reductions, the broadcasts and the host's elementwise functions are never opened: the comparison only looks at
    how they are composed.
  * The last stages (the ranking term from the per-row counts and cross entropies; the final sum from the five terms)
    are computed from a cut of the line: the fold over the whole line is the fold over the operations from the cut on,
    started at the fold over those before it, and the buffers those later operations leave alone hold there what they
    hold at the end. -/

/-- Contents moved into a typed reference's buffer and read back are the contents. -/
private theorem ofBuf_toBuf {T : BufTy} {Val : EltTy → Type} (x : TRef sig T) (v : T.Contents Val) :
    x.ofBuf (x.toBuf v) = v := by
  obtain ⟨r, h, d, u⟩ := x
  subst h
  rfl

/-- The fold over two lines in a row. -/
private theorem after_app : ∀ (l₁ l₂ : List (HloOp τ sig (Elt F))) (V : Valuation τ sig (Elt F)),
    after (l₁ ++ l₂) V = after l₂ (after l₁ V)
  | [], _, _ => rfl
  | op :: l₁, l₂, V => by rw [List.cons_append, after_cons, after_cons, after_app l₁ l₂]

/-- The fold cut at position n: the operations before it, then those from it on. -/
private theorem cut (n : Nat) (V : Valuation τ sig (Elt F)) :
    after ops V = after (ops.drop n) (after (ops.take n) V) := by
  rw [← after_app, List.take_append_drop]

/-- A buffer the operations from position n on leave alone holds at the cut what it holds after the whole line. -/
private theorem at_cut (n : Nat) (V : Valuation τ sig (Elt F)) (b : DevRef τ sig)
    (hk : ∀ W : Valuation τ sig (Elt F), after (ops.drop n) W b = W b) : after (ops.take n) V b = after ops V b := by
  rw [cut n V]; exact (hk _).symm

/-! ### The last two stages as functions of the stages before them -/

/-- The rows that count: two or more positive mask entries, from the per-row count n. -/
private def okRows (n : IVec S4096 32) : IVec S4096 1 :=
  cmpi .sge n (broadcastInDim S4096 ![] bcast_S_S4096 (constantI S_ 32 2#32))
/-- How many rows count. -/
private def okCount (n : IVec S4096 32) : IVec S_ 32 :=
  Host.reduce IntOp.addi (extui 32 (okRows n) natLt_1_32) (constantI S_ 32 0#32) reducesTo_S4096_S_d0 h_S_
/-- The ranking term from the per-row count n and the per-row cross entropy x. -/
private def rankOf (n : IVec S4096 32) (x : FVec F S4096 .f32) : FVec F S_ .f32 :=
  select (cmpi .sgt (okCount n) (constantI S_ 32 0#32))
    (Host.divf (sumAll (select (okRows n) x (bV (id (kc 0x00000000#32))))) (sitofp .f32 (maxsi (okCount n) (constantI S_ 32 1#32))))
    (id (kc 0x00000000#32))
private theorem v95_eq (a3 a4 a5 : FVec F S4096x8192 .f32) : v95 a3 a4 a5 = rankOf (v60 a4) (v84 a3 a4 a5) := rfl

/-- The weighted sum of the five terms, in the reference's order. -/
private def sumOf (h c f b r : FVec F S_ .f32) : FVec F S_ .f32 :=
  addf (addf (addf (addf h (mulf (kc 0x3C23D70A#32) c)) (mulf (kc 0x3DCCCCCD#32) f)) (mulf (kc 0x3C23D70A#32) b))
    (mulf (kc 0x3DCCCCCD#32) r)
private theorem refOut_eq (a0 : FVec F S4096 .f32) (a1 a2 a3 a4 a5 : FVec F S4096x8192 .f32) :
    refOut a0 a1 a2 a3 a4 a5
      = sumOf (Cert.Loss.head headFacts a0) (v15 a1) (v35 a0 a1 a2 a4) (v56 a1 a4) (v95 a3 a4 a5) := rfl

section Stages

attribute [local irreducible] Host.reduce Host.reduceAdd Host.divf Host.negf Host.log Host.exp Host.sqrt broadcastInDim
set_option maxRecDepth 65536
set_option maxHeartbeats 4000000

/-! ### The stages read after the whole line -/

/-- The chain on the portfolio returns: mean, standard deviation, clipped ratio, their weighted sum. -/
private theorem s98 (V : Valuation τ sig (Elt F)) :
    after ops V (main_v98 : DevRef τ sig) = Cert.Loss.head headFacts (V (main_arg0 : DevRef τ sig)) := by
  after_results_simp
  simp only [ofBuf_toBuf]
  rfl

private theorem s15 (V : Valuation τ sig (Elt F)) : after ops V (main_v15 : DevRef τ sig) = v15 (V (main_arg1 : DevRef τ sig)) := by
  after_results_simp
  rfl

private theorem s35 (V : Valuation τ sig (Elt F)) :
    after ops V (main_v35 : DevRef τ sig)
      = v35 (V (main_arg0 : DevRef τ sig)) (V (main_arg1 : DevRef τ sig)) (V (main_arg2 : DevRef τ sig)) (V (main_arg4 : DevRef τ sig)) := by
  after_results_simp
  rfl

private theorem s56 (V : Valuation τ sig (Elt F)) :
    after ops V (main_v56 : DevRef τ sig) = v56 (V (main_arg1 : DevRef τ sig)) (V (main_arg4 : DevRef τ sig)) := by
  after_results_simp
  rfl

private theorem s60 (V : Valuation τ sig (Elt F)) : after ops V (main_v60 : DevRef τ sig) = v60 (V (main_arg4 : DevRef τ sig)) := by
  after_results_simp
  rfl

/-- The per-row cross entropy over the row's count: the two softmaxes, the masked product, its row sum. -/
private theorem s84 (V : Valuation τ sig (Elt F)) :
    after ops V (main_v84 : DevRef τ sig) = v84 (V (main_arg3 : DevRef τ sig)) (V (main_arg4 : DevRef τ sig)) (V (main_arg5 : DevRef τ sig)) := by
  after_results_simp
  simp only [ofBuf_toBuf]
  rfl

/-! ### The ranking term, from the cut after the per-row cross entropy -/

private theorem step95 (W : Valuation τ sig (Elt F)) :
    after (ops.drop 165) W (main_v95 : DevRef τ sig) = rankOf (W (main_v60 : DevRef τ sig)) (W (main_v84 : DevRef τ sig)) := by
  simp only [List.drop_succ_cons, List.drop_zero]
  after_results_simp
  simp only [ofBuf_toBuf]
  rfl

private theorem keep165_v60 (W : Valuation τ sig (Elt F)) : after (ops.drop 165) W (main_v60 : DevRef τ sig) = W (main_v60 : DevRef τ sig) := by
  simp only [List.drop_succ_cons, List.drop_zero]
  after_results_simp

private theorem keep165_v84 (W : Valuation τ sig (Elt F)) : after (ops.drop 165) W (main_v84 : DevRef τ sig) = W (main_v84 : DevRef τ sig) := by
  simp only [List.drop_succ_cons, List.drop_zero]
  after_results_simp

private theorem s95 (V : Valuation τ sig (Elt F)) :
    after ops V (main_v95 : DevRef τ sig) = v95 (V (main_arg3 : DevRef τ sig)) (V (main_arg4 : DevRef τ sig)) (V (main_arg5 : DevRef τ sig)) :=
  calc after ops V (main_v95 : DevRef τ sig)
      = after (ops.drop 165) (after (ops.take 165) V) (main_v95 : DevRef τ sig) := congrFun (cut 165 V) _
    _ = rankOf (after (ops.take 165) V (main_v60 : DevRef τ sig)) (after (ops.take 165) V (main_v84 : DevRef τ sig)) := step95 _
    _ = rankOf (after ops V (main_v60 : DevRef τ sig)) (after ops V (main_v84 : DevRef τ sig)) := by
        rw [at_cut 165 V _ keep165_v60, at_cut 165 V _ keep165_v84]
    _ = rankOf (v60 (V (main_arg4 : DevRef τ sig))) (v84 (V (main_arg3 : DevRef τ sig)) (V (main_arg4 : DevRef τ sig)) (V (main_arg5 : DevRef τ sig))) := by
        rw [s60 V, s84 V]
    _ = v95 (V (main_arg3 : DevRef τ sig)) (V (main_arg4 : DevRef τ sig)) (V (main_arg5 : DevRef τ sig)) := (v95_eq _ _ _).symm

/-! ### The sum, from the cut after the five terms -/

private theorem stepOut (W : Valuation τ sig (Elt F)) :
    after (ops.drop 191) W (main_v106 : DevRef τ sig)
      = sumOf (W (main_v98 : DevRef τ sig)) (W (main_v15 : DevRef τ sig)) (W (main_v35 : DevRef τ sig)) (W (main_v56 : DevRef τ sig)) (W (main_v95 : DevRef τ sig)) := by
  simp only [List.drop_succ_cons, List.drop_zero]
  after_results_simp
  rfl

private theorem keep191_v98 (W : Valuation τ sig (Elt F)) : after (ops.drop 191) W (main_v98 : DevRef τ sig) = W (main_v98 : DevRef τ sig) := by
  simp only [List.drop_succ_cons, List.drop_zero]
  after_results_simp
private theorem keep191_v15 (W : Valuation τ sig (Elt F)) : after (ops.drop 191) W (main_v15 : DevRef τ sig) = W (main_v15 : DevRef τ sig) := by
  simp only [List.drop_succ_cons, List.drop_zero]
  after_results_simp
private theorem keep191_v35 (W : Valuation τ sig (Elt F)) : after (ops.drop 191) W (main_v35 : DevRef τ sig) = W (main_v35 : DevRef τ sig) := by
  simp only [List.drop_succ_cons, List.drop_zero]
  after_results_simp
private theorem keep191_v56 (W : Valuation τ sig (Elt F)) : after (ops.drop 191) W (main_v56 : DevRef τ sig) = W (main_v56 : DevRef τ sig) := by
  simp only [List.drop_succ_cons, List.drop_zero]
  after_results_simp
private theorem keep191_v95 (W : Valuation τ sig (Elt F)) : after (ops.drop 191) W (main_v95 : DevRef τ sig) = W (main_v95 : DevRef τ sig) := by
  simp only [List.drop_succ_cons, List.drop_zero]
  after_results_simp

/-- After @main's operations the result buffer holds refOut of the argument buffers' contents. -/
theorem out_eq (V : Valuation τ sig (Elt F)) :
    after ops V (main_v106 : DevRef τ sig)
      = refOut (V (main_arg0 : DevRef τ sig)) (V (main_arg1 : DevRef τ sig)) (V (main_arg2 : DevRef τ sig))
          (V (main_arg3 : DevRef τ sig)) (V (main_arg4 : DevRef τ sig)) (V (main_arg5 : DevRef τ sig)) :=
  calc after ops V (main_v106 : DevRef τ sig)
      = after (ops.drop 191) (after (ops.take 191) V) (main_v106 : DevRef τ sig) := congrFun (cut 191 V) _
    _ = sumOf (after (ops.take 191) V (main_v98 : DevRef τ sig)) (after (ops.take 191) V (main_v15 : DevRef τ sig))
          (after (ops.take 191) V (main_v35 : DevRef τ sig)) (after (ops.take 191) V (main_v56 : DevRef τ sig))
          (after (ops.take 191) V (main_v95 : DevRef τ sig)) := stepOut _
    _ = sumOf (after ops V (main_v98 : DevRef τ sig)) (after ops V (main_v15 : DevRef τ sig)) (after ops V (main_v35 : DevRef τ sig))
          (after ops V (main_v56 : DevRef τ sig)) (after ops V (main_v95 : DevRef τ sig)) := by
        rw [at_cut 191 V _ keep191_v98, at_cut 191 V _ keep191_v15, at_cut 191 V _ keep191_v35,
          at_cut 191 V _ keep191_v56, at_cut 191 V _ keep191_v95]
    _ = refOut (V (main_arg0 : DevRef τ sig)) (V (main_arg1 : DevRef τ sig)) (V (main_arg2 : DevRef τ sig)) (V (main_arg3 : DevRef τ sig)) (V (main_arg4 : DevRef τ sig))
          (V (main_arg5 : DevRef τ sig)) := by
        rw [s98 V, s15 V, s35 V, s56 V, s95 V, refOut_eq]

/-! ### No operation writes an argument -/

theorem arg0_eq (V : Valuation τ sig (Elt F)) : after ops V (main_arg0 : DevRef τ sig) = V (main_arg0 : DevRef τ sig) := by
  after_results_simp
theorem arg1_eq (V : Valuation τ sig (Elt F)) : after ops V (main_arg1 : DevRef τ sig) = V (main_arg1 : DevRef τ sig) := by
  after_results_simp
theorem arg2_eq (V : Valuation τ sig (Elt F)) : after ops V (main_arg2 : DevRef τ sig) = V (main_arg2 : DevRef τ sig) := by
  after_results_simp
theorem arg3_eq (V : Valuation τ sig (Elt F)) : after ops V (main_arg3 : DevRef τ sig) = V (main_arg3 : DevRef τ sig) := by
  after_results_simp
theorem arg4_eq (V : Valuation τ sig (Elt F)) : after ops V (main_arg4 : DevRef τ sig) = V (main_arg4 : DevRef τ sig) := by
  after_results_simp
theorem arg5_eq (V : Valuation τ sig (Elt F)) : after ops V (main_arg5 : DevRef τ sig) = V (main_arg5 : DevRef τ sig) := by
  after_results_simp

end Stages

end Cert.ReferenceIdeal.Ops

end
-- ==== Proof.RefRun.lean ====
/-
  The reference's run: @main is the straight line of its operations, so every weakly fair execution ends with each
  buffer at the operations' fold over the launch contents; read at the result buffer that fold is refOut of the
  argument arrays, which end unchanged.
-/
import proofs.«153510_j16621523435816_1_alg».proof.Proof.RefTerm

noncomputable section

namespace Cert.ReferenceIdeal.Ops

open Cert.ReferenceIdeal Cert.ReferenceIdeal.Gen Idealize.ShloMosaic Idealize.ShloMosaic.TcCoe Idealize.SL.Sem Idealize.ShloMosaic.StableHlo

variable {F : FTy → Type} [FloatOps F]

-- two hundred and three binds re-associated: the rewrite under the chain recurses once per statement
set_option maxRecDepth 8192 in
/-- @main is the operations in sequence: the outlined functions unfolded at their calls. -/
theorem main_eq (c : Dev nD) : main (F := F) c = seq ops := by
  simp only [main, main_part0, main_part1, main_part2, fn_std.body, fn_var.body, fn_where.body, fn_clip.body,
    fn_where_0.body, fn_where_1.body, fn_log_softmax.body, fn_where_2.body, seq, bind_assoc, pure_bind]

theorem scopedRefs_eq : (Finset.univ.filter fun b : Ref sig .tc => b.isScoped) = ∅ := by decide
theorem scopedSems_eq : (Finset.univ.filter fun sm : SemLoc sig => sm.isScoped .tc) = ∅ := by decide

/-- Every weakly fair execution of @main terminates with every buffer at the fold of the operations. -/
theorem run_fold (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

/-- … so the result buffer ends at refOut of the arguments, and the arguments end unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v106)
          = refOut (m ((c.tc : Thread nD τ).loc main_arg0)) (m ((c.tc : Thread nD τ).loc main_arg1)) (m ((c.tc : Thread nD τ).loc main_arg2))
              (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun _ h c => ⟨(h c main_v106).trans (out_eq _), (h c main_arg0).trans (arg0_eq _),
      (h c main_arg1).trans (arg1_eq _), (h c main_arg2).trans (arg2_eq _), (h c main_arg3).trans (arg3_eq _),
      (h c main_arg4).trans (arg4_eq _), (h c main_arg5).trans (arg5_eq _)⟩) (run_fold m ρ)

end Cert.ReferenceIdeal.Ops

end
-- ==== Proof.RefSum.lean ====
/-
  The reference's result is the specification's total, given its four terms: the reference adds the chain on the
  portfolio returns and the four weighted terms from the left, the specification adds the chain to the sum of the four;
  addition on the extended reals is associative.
-/
import proofs.«153510_j16621523435816_1_alg».proof.Proof.RefTerm

noncomputable section

namespace Cert.ReferenceIdeal.RefValue

open Cert.ReferenceIdeal Cert.ReferenceIdeal.Gen Cert.ReferenceIdeal.Ops Idealize.ShloMosaic Idealize.ShloMosaic.ValueIdx Cert.Loss

/-- The reference's five-term sum of scalar arrays, read at its one index. -/
theorem sum5_apply (w1 w2 : BitVec 32) (h v1 v2 v3 v4 : FVec Ideal S_ .f32) :
    addf (addf (addf (addf h (mulf (kc w1) v1)) (mulf (kc w2) v2)) (mulf (kc w1) v3)) (mulf (kc w2) v4) ix0
      = (((h ix0 + Ideal.ofBits .f32 w1 * v1 ix0) + Ideal.ofBits .f32 w2 * v2 ix0) + Ideal.ofBits .f32 w1 * v3 ix0)
        + Ideal.ofBits .f32 w2 * v4 ix0 := rfl

theorem refOut_eq_of (a0 : FVec Ideal S4096 .f32) (a1 a2 a3 a4 a5 : FVec Ideal S4096x8192 .f32)
    (h15 : v15 (F := Ideal) a1 ix0 = concLoss (concSum fun r k => a1 (ix2 r k)))
    (h35 : v35 (F := Ideal) a0 a1 a2 a4 ix0
      = confLoss (confSum (fun r => a0 (ix1 r)) (fun r k => a1 (ix2 r k)) (fun r k => a2 (ix2 r k)) (fun r k => a4 (ix2 r k))))
    (h56 : v56 (F := Ideal) a1 a4 ix0 = bentLoss (colSum (fun r k => a1 (ix2 r k)) (fun r k => a4 (ix2 r k))))
    (h95 : v95 (F := Ideal) a3 a4 a5 ix0
      = auxLoss (rankSum (fun r k => a3 (ix2 r k)) (fun r k => a4 (ix2 r k)) (fun r k => a5 (ix2 r k))) (okSum fun r k => a4 (ix2 r k))) :
    refOut (F := Ideal) a0 a1 a2 a3 a4 a5 = total headFacts a0 a1 a2 a3 a4 a5 := by
  funext i
  rw [eq_ix0 i]
  unfold refOut
  refine (sum5_apply _ _ _ _ _ _ _).trans ?_
  rw [h15, h35, h56, h95]
  unfold total partialLoss combine
  simp only [add_assoc]

end Cert.ReferenceIdeal.RefValue

end
-- ==== Proof.RefValA.lean ====
/-
  The reference's concentration and confidence terms at the ideal values are the specification's:
  each host reduction is the sum over its axis, each broadcast reads the entry of its row or column, and the host's
  negation of a quotient is the quotient of the difference from zero.
-/
import proofs.«153510_j16621523435816_1_alg».proof.Proof.RefTerm
import proofs.«153510_j16621523435816_1_alg».proof.Proof.LibRowOps
import Idealize.ShloMosaic.Lib.StableHlo.Predicate

noncomputable section

namespace Cert.ReferenceIdeal.RefValue

open Cert.ReferenceIdeal Cert.ReferenceIdeal.Gen Cert.ReferenceIdeal.Ops Idealize.ShloMosaic Idealize.ShloMosaic.ValueIdx Cert.Loss

/-- A [4096, 8192] array by row and column, and a [4096] array by row. -/
private abbrev rows (a : FVec Ideal S4096x8192 .f32) : Fin 4096 → Fin 8192 → EReal := fun r k => a (ix2 r k)
private abbrev ents (a0 : FVec Ideal S4096 .f32) : Fin 4096 → EReal := fun r => a0 (ix1 r)

/-! ## Reading the host operations at an index -/

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

private theorem hdivf_apply {s : Shape} (x y : FVec Ideal s .f32) (i : s.Idx) : Host.divf x y i = Ideal.div (x i) (y i) := rfl
private theorem hnegf_apply {s : Shape} (x : FVec Ideal s .f32) (i : s.Idx) : Host.negf x i = -(x i) := rfl
private theorem hlog_apply {s : Shape} (x : FVec Ideal s .f32) (i : s.Idx) : Host.log x i = Ideal.log (x i) := rfl
private theorem hexp_apply {s : Shape} (x : FVec Ideal s .f32) (i : s.Idx) : Host.exp x i = Ideal.exp (x i) := rfl

/-- A scalar literal reads the extended real of its word. -/
private theorem kc_apply (b : BitVec 32) (j : S_.Idx) : kc (F := Ideal) b j = Ideal.ofBits .f32 b := rfl

/-- The row-wise sum at row r is the sum of that row. -/
private theorem sumRows_apply (x : FVec Ideal S4096x8192 .f32) (r : Fin 4096) :
    sumRows x (ix1 r) = ∑ k : Fin 8192, x (ix2 r k) := by
  have hR : S4096x8192.Reduces [1] S4096 := by decide
  refine (Ideal.hostReduceAdd_single reducesTo_S4096x8192_S4096_d1 hR x _ (ix1 r)).trans ?_
  rw [kc_apply, Ideal.ofBits_zero_f32, zero_add]
  refine Finset.sum_congr rfl fun k _ => congrArg x (funext fun ax => Fin.ext ?_)
  match ax with
  | ⟨0, _⟩ => rfl
  | ⟨1, _⟩ => rfl

/-- The column-wise sum at column k is the sum of that column. -/
private theorem sumAx0_apply (x : FVec Ideal S4096x8192 .f32) (k : Fin 8192) :
    Host.reduceAdd x (kc (F := Ideal) 0x00000000#32) reducesTo_S4096x8192_S8192_d0 h_S_ (ix1 k) = ∑ r : Fin 4096, x (ix2 r k) := by
  have hR : S4096x8192.Reduces [0] S8192 := by decide
  refine (Ideal.hostReduceAdd_single reducesTo_S4096x8192_S8192_d0 hR x _ (ix1 k)).trans ?_
  rw [kc_apply, Ideal.ofBits_zero_f32, zero_add]
  refine Finset.sum_congr rfl fun r _ => congrArg x (funext fun ax => Fin.ext ?_)
  match ax with
  | ⟨0, _⟩ => rfl
  | ⟨1, _⟩ => rfl

/-- The sum of a [4096] array. -/
private theorem sumAll_apply (x : FVec Ideal S4096 .f32) : sumAll x ix0 = ∑ r : Fin 4096, x (ix1 r) := by
  refine (Ideal.hostReduceAdd_total reducesTo_S4096_S_d0 (fun b => b.elim0) x _ ix0).trans ?_
  rw [kc_apply, Ideal.ofBits_zero_f32, zero_add, sum_idx1]

/-- The sum of a [8192] array. -/
private theorem sumCols_apply (x : FVec Ideal S8192 .f32) : sumCols x ix0 = ∑ k : Fin 8192, x (ix1 k) := by
  refine (Ideal.hostReduceAdd_total reducesTo_S8192_S_d0 (fun b => b.elim0) x _ ix0).trans ?_
  rw [kc_apply, Ideal.ofBits_zero_f32, zero_add, sum_idx1]

/-- A broadcast scalar reads the scalar everywhere. -/
private theorem bM_apply (v : FVec Ideal S_ .f32) (j : S4096x8192.Idx) : bM v j = v ix0 := congrArg v (eq_ix0 _)
private theorem bV_apply (v : FVec Ideal S_ .f32) (j : S4096.Idx) : bV v j = v ix0 := congrArg v (eq_ix0 _)
private theorem bC_apply (v : FVec Ideal S_ .f32) (j : S8192.Idx) : bC v j = v ix0 := congrArg v (eq_ix0 _)
private theorem bK_apply (v : FVec Ideal S_ .f32) (j : S4096x1.Idx) :
    broadcastInDim S4096x1 ![] bcast_S_S4096x1 v j = v ix0 := congrArg v (eq_ix0 _)

/-- A [4096] array kept as a column reads the entry of its row. -/
private theorem col_apply (v : FVec Ideal S4096 .f32) (r : Fin 4096) (u : Fin 1) : col v (ix2 r u) = v (ix1 r) := by
  refine congrArg v (funext fun ax => Fin.ext ?_)
  match ax with
  | ⟨0, _⟩ => rfl

/-- A column spread over the lanes reads the column's entry of the row. -/
private theorem spread_apply (w : FVec Ideal S4096x1 .f32) (r : Fin 4096) (k : Fin 8192) :
    spread w (ix2 r k) = w (ix2 r (0 : Fin 1)) := by
  refine congrArg w (funext fun ax => Fin.ext ?_)
  match ax with
  | ⟨0, _⟩ => rfl
  | ⟨1, _⟩ => rfl

/-! ## The literal 4096 and the three algebraic steps -/

/-- The word 0x45800000 denotes 4096. -/
private theorem nB_eq : nB = ((4096 : ℝ) : EReal) := by
  simp [Ideal.ofBits, Ideal.ieee, -EReal.coe_mul]; norm_num

/-- The negation of a quotient by 4096 is the quotient of the difference from zero. -/
private theorem neg_div_nB (x : EReal) : -(Ideal.div x nB) = Ideal.div (0 - x) nB := by
  rw [nB_eq, Ideal.div_coe (by norm_num), Ideal.div_coe (by norm_num), zero_sub, neg_mul]

/-! ## Concentration -/

/-- Concentration: −(Σ_r Σ_k w·log(w+ε)) / 4096. -/
theorem v15_eq (a1 : FVec Ideal S4096x8192 .f32) : v15 (F := Ideal) a1 ix0 = concLoss (concSum (rows a1)) := by
  unfold v15 concLoss
  rw [hnegf_apply, hdivf_apply, kc_apply, sumAll_apply]
  refine (neg_div_nB _).trans ?_
  refine congrArg (fun t => Ideal.div (0 - t) nB) ?_
  unfold concSum
  refine Finset.sum_congr rfl fun r _ => ?_
  rw [sumRows_apply]
  rfl

/-! ## Confidence -/

/-- The confidence quotient of row r. -/
private theorem v23_apply (a1 a2 a4 : FVec Ideal S4096x8192 .f32) (r : Fin 4096) :
    v23 (F := Ideal) a1 a2 a4 (ix1 r) = confRow (rows a1 r) (rows a2 r) (rows a4 r) := by
  unfold v23 confRow
  rw [hdivf_apply, addf_apply, sumRows_apply, sumRows_apply, bV_apply, kc_apply]
  rfl

/-- The target sigmoid of row r: the host's negation is the difference from zero. -/
private theorem v31_apply (a0 : FVec Ideal S4096 .f32) (r : Fin 4096) : v31 (F := Ideal) a0 (ix1 r) = tgtRow (ents a0 r) := by
  unfold v31 tgtRow
  rw [hdivf_apply, addf_apply, hexp_apply, hnegf_apply, mulf_apply, zero_sub]
  simp only [bV_apply, kc_apply]

/-- Confidence: the mean of the rows' squared differences. -/
theorem v35_eq (a0 : FVec Ideal S4096 .f32) (a1 a2 a4 : FVec Ideal S4096x8192 .f32) :
    v35 (F := Ideal) a0 a1 a2 a4 ix0 = confLoss (confSum (ents a0) (rows a1) (rows a2) (rows a4)) := by
  unfold v35 confLoss
  rw [hdivf_apply, kc_apply, sumAll_apply]
  refine congrArg (fun t => Ideal.div t nB) ?_
  unfold confSum
  refine Finset.sum_congr rfl fun r _ => ?_
  rw [mulf_apply, subf_apply, v23_apply, v31_apply]
  rfl

end Cert.ReferenceIdeal.RefValue

end
-- ==== Proof.RefValB.lean ====
/-
  The reference's ranking term at the ideal values is the specification's. The reference counts the positive mask
  entries of a row, and the rows with two or more, in 32-bit integers (at most 8192 and 4096: no wrap) and converts
  the counts; the specification sums the 0/1 indicators as numbers: the same numbers. Where a row is not counted the
  reference selects 0 and the specification multiplies by the indicator 0.
-/
import proofs.«153510_j16621523435816_1_alg».proof.Proof.RefTerm
import proofs.«153510_j16621523435816_1_alg».proof.Proof.LibRowOps
import Idealize.ShloMosaic.Lib.StableHlo.Predicate

noncomputable section

namespace Cert.ReferenceIdeal.RefValue

open Cert.ReferenceIdeal Cert.ReferenceIdeal.Gen Cert.ReferenceIdeal.Ops Idealize.ShloMosaic Idealize.ShloMosaic.ValueIdx Cert.Loss

/-- A [4096, 8192] array by row and column, and a [4096] array by row. -/
private abbrev rows (a : FVec Ideal S4096x8192 .f32) : Fin 4096 → Fin 8192 → EReal := fun r k => a (ix2 r k)
private abbrev ents (a0 : FVec Ideal S4096 .f32) : Fin 4096 → EReal := fun r => a0 (ix1 r)

/-! ## The literals as extended reals -/

private theorem one_eq : (one : EReal) = 1 := by
  simp [Ideal.ofBits, Ideal.ieee, -EReal.coe_mul]; norm_num
private theorem two_eq : (two : EReal) = 2 := by
  simp [Ideal.ofBits, Ideal.ieee, -EReal.coe_mul]; norm_num; norm_cast
private theorem ninf_eq : (ninf : EReal) = ⊥ := by simp [Ideal.ofBits, Ideal.ieee]

/-! ## Broadcasts and reductions read at an index -/

/-- A scalar spread over any shape reads the scalar everywhere. -/
private theorem bcast0_apply {α : Type} {t : Shape} (h : S_.BroadcastsInDim t ![]) (v : S_.Idx → α) (j : t.Idx) :
    broadcastInDim t ![] h v j = v ix0 := congrArg v (funext fun a => a.elim0)

private theorem bM_kc (b : BitVec 32) (j : S4096x8192.Idx) : bM (F := Ideal) (kc b) j = Ideal.ofBits .f32 b := rfl
private theorem bV_kc (b : BitVec 32) (j : S4096.Idx) : bV (F := Ideal) (kc b) j = Ideal.ofBits .f32 b := rfl

/-- A [4096] array kept as a column reads, at (r, 0), the entry of row r. -/
private theorem col_apply {α : Type} (v : S4096.Idx → α) (r : Fin 4096) (u : Fin 1) :
    broadcastInDim S4096x1 ![0] bcast_S4096_S4096x1_0 v (ix2 r u) = v (ix1 r) := by
  refine congrArg v (funext fun a => Fin.ext ?_)
  match a with
  | ⟨0, _⟩ => rfl

/-- A column spread over the lanes reads, at (r, k), the column's entry of row r. -/
private theorem spread_apply {α : Type} (v : S4096x1.Idx → α) (r : Fin 4096) (k : Fin 8192) :
    broadcastInDim S4096x8192 ![0, 1] bcast_S4096x1_S4096x8192_0_1 v (ix2 r k) = v (ix2 r (0 : Fin 1)) := by
  refine congrArg v (funext fun a => Fin.ext ?_)
  match a with
  | ⟨0, _⟩ => rfl
  | ⟨1, _⟩ => rfl

private theorem spread_col_apply (v : FVec Ideal S4096 .f32) (r : Fin 4096) (k : Fin 8192) :
    spread (col v) (ix2 r k) = v (ix1 r) := (spread_apply _ r k).trans (col_apply v r 0)

private theorem red1 : S4096x8192.Reduces [1] S4096 := by decide

/-- Row r of the reduced index with column k put back is (r, k). -/
private theorem lift_row (r : Fin 4096) (k : Fin (S4096x8192.size 1)) : red1.lift (ix1 r) k = ix2 r (⟨k.val, k.isLt⟩ : Fin 8192) := by
  funext c; apply Fin.ext
  match c with
  | ⟨0, _⟩ => rfl
  | ⟨1, _⟩ => rfl

/-- A row-wise sum reads the sum of the row. -/
private theorem sumRows_apply (x : FVec Ideal S4096x8192 .f32) (r : Fin 4096) :
    sumRows x (ix1 r) = ∑ k : Fin 8192, x (ix2 r k) := by
  show Ideal.hostReduceAdd reducesTo_S4096x8192_S4096_d1 x (Ideal.ofBits .f32 0x00000000#32) (ix1 r) = _
  rw [Ideal.hostReduceAdd_single reducesTo_S4096x8192_S4096_d1 red1, Ideal.ofBits_zero_f32, zero_add]
  exact Finset.sum_congr rfl fun k _ => congrArg x (lift_row r k)

/-- The reduce-max from −∞, joined with −∞ once more, is the row's maximum from −∞. -/
private theorem rowMax_apply (x : FVec Ideal S4096x8192 .f32) (r : Fin 4096) :
    rowMax x (ix1 r) = rmax (fun k => x (ix2 r k)) := by
  have e : Host.reduce FloatOps.maximumf x (kc (F := Ideal) 0xFF800000#32) reducesTo_S4096x8192_S4096_d1 h_S_ (ix1 r)
      = rmax (fun k => x (ix2 r k)) := by
    rw [Host.reduce_eq_fold_single FloatOps.maximumf x _ reducesTo_S4096x8192_S4096_d1 red1 h_S_]
    have hf : (x ∘ red1.lift (ix1 r)) = fun k : Fin 8192 => x (ix2 r k) := funext fun k => congrArg x (lift_row r k)
    exact congrArg (fun f => Finset.fold max ninf f (Finset.univ : Finset (Fin 8192))) hf
  unfold rowMax
  rw [maximumf_apply, e, bV_kc]
  exact max_eq_right ((Finset.le_fold_max _).mpr (Or.inl le_rfl))

/-! ## One row's float quantities -/

section Row
variable (a3 a4 a5 : FVec Ideal S4096x8192 .f32) (r : Fin 4096)

private theorem v58_apply (k : Fin 8192) : v58 a4 (ix2 r k) = vld (rows a4 r) k := by
  show Ideal.cmp .ogt (a4 (ix2 r k)) (Ideal.ofBits .f32 0x00000000#32) = Ideal.cmp .ogt (a4 (ix2 r k)) 0
  rw [Ideal.ofBits_zero_f32]

private theorem v63_apply (k : Fin 8192) : v63 a3 a4 (ix2 r k) = mret (rows a3 r) (rows a4 r) k := by
  show Scalar.select (v58 a4 (ix2 r k)) (a3 (ix2 r k) * c20) big = _
  rw [v58_apply]
  rfl

private theorem v70_apply (k : Fin 8192) : v70 a3 a4 (ix2 r k) = eret (rows a3 r) (rows a4 r) k := by
  show Ideal.exp (v63 a3 a4 (ix2 r k) - spread (col (rowMax (v63 a3 a4))) (ix2 r k)) = _
  rw [spread_col_apply, rowMax_apply, v63_apply]
  have hf : (fun k => v63 a3 a4 (ix2 r k)) = mret (rows a3 r) (rows a4 r) := funext fun k => v63_apply a3 a4 r k
  rw [hf]
  rfl

private theorem v74_apply (k : Fin 8192) : v74 a3 a4 (ix2 r k) = tgt (rows a3 r) (rows a4 r) k := by
  show Ideal.div (v70 a3 a4 (ix2 r k)) (spread (col (sumRows (v70 a3 a4))) (ix2 r k)) = _
  rw [spread_col_apply, sumRows_apply, v70_apply]
  have hf : (fun k => v70 a3 a4 (ix2 r k)) = eret (rows a3 r) (rows a4 r) := funext fun k => v70_apply a3 a4 r k
  exact congrArg (fun f : Fin 8192 → EReal => Ideal.div (eret (rows a3 r) (rows a4 r) k) (∑ j, f j)) hf

private theorem v75_apply (k : Fin 8192) : v75 a4 a5 (ix2 r k) = msc (rows a4 r) (rows a5 r) k := by
  show Scalar.select (v58 a4 (ix2 r k)) (a5 (ix2 r k)) big = _
  rw [v58_apply]
  rfl

private theorem ls5_apply (k : Fin 8192) : ls5 a4 a5 (ix2 r k) = shsc (rows a4 r) (rows a5 r) k := by
  show v75 a4 a5 (ix2 r k) - spread (col (rowMax (v75 a4 a5))) (ix2 r k) = _
  rw [spread_col_apply, rowMax_apply, v75_apply]
  have hf : (fun k => v75 a4 a5 (ix2 r k)) = msc (rows a4 r) (rows a5 r) := funext fun k => v75_apply a4 a5 r k
  rw [hf]
  rfl

private theorem v76_apply (k : Fin 8192) : v76 a4 a5 (ix2 r k) = lsm (rows a4 r) (rows a5 r) k := by
  show ls5 a4 a5 (ix2 r k) - broadcastInDim S4096x8192 ![0, 1] bcast_S4096x1_S4096x8192_0_1
      (Host.log (col (sumRows (Host.exp (ls5 a4 a5))))) (ix2 r k) = _
  rw [spread_apply]
  show ls5 a4 a5 (ix2 r k) - Ideal.log (col (sumRows (Host.exp (ls5 a4 a5))) (ix2 r (0 : Fin 1))) = _
  rw [show col (sumRows (Host.exp (ls5 a4 a5))) (ix2 r (0 : Fin 1)) = sumRows (Host.exp (ls5 a4 a5)) (ix1 r) from col_apply _ r 0,
    sumRows_apply, ls5_apply]
  have hf : (fun j => Host.exp (ls5 a4 a5) (ix2 r j)) = fun j => Ideal.exp (shsc (rows a4 r) (rows a5 r) j) :=
    funext fun j => congrArg Ideal.exp (ls5_apply a4 a5 r j)
  exact congrArg (fun f : Fin 8192 → EReal => shsc (rows a4 r) (rows a5 r) k - Ideal.log (∑ j, f j)) hf

private theorem v77_apply (k : Fin 8192) :
    v77 a4 a5 (ix2 r k) = Scalar.select (vld (rows a4 r) k) (lsm (rows a4 r) (rows a5 r) k) 0 := by
  show Scalar.select (v58 a4 (ix2 r k)) (v76 a4 a5 (ix2 r k)) (Ideal.ofBits .f32 0x00000000#32) = _
  rw [v58_apply, v76_apply, Ideal.ofBits_zero_f32]

/-- The negated row sum of target times masked log-softmax. -/
private theorem v80_apply : v80 a3 a4 a5 (ix1 r)
    = 0 - ∑ k, tgt (rows a3 r) (rows a4 r) k * Scalar.select (vld (rows a4 r) k) (lsm (rows a4 r) (rows a5 r) k) 0 := by
  show -(sumRows (mulf (v74 a3 a4) (v77 a4 a5)) (ix1 r)) = _
  rw [sumRows_apply, zero_sub]
  refine congrArg Neg.neg (Finset.sum_congr rfl fun k _ => ?_)
  show v74 a3 a4 (ix2 r k) * v77 a4 a5 (ix2 r k) = _
  rw [v74_apply, v77_apply]

end Row

/-! ## Counting: indicators as numbers, small words as numbers -/

/-- Two one-bit words that are 1 together are equal. -/
private theorem bit_ext {b c : BitVec 1} (h : b = 1#1 ↔ c = 1#1) : b = c := by
  rcases BitVec.eq_zero_or_eq_one b with hb | hb <;> rcases BitVec.eq_zero_or_eq_one c with hc | hc
  · rw [hb, hc]
  · exact absurd (h.mpr hc) (by rw [hb]; decide)
  · exact absurd (h.mp hb) (by rw [hc]; decide)
  · rw [hb, hc]

/-- A widened bit read as a number is 1 or 0. -/
private theorem ind_eq (b : BitVec 1) : ind b = if b = 1#1 then 1 else 0 := by
  rcases BitVec.eq_zero_or_eq_one b with rfl | rfl
  · have h : ((0#1 : BitVec 1).setWidth 32).toInt = 0 := by decide
    simp [ind, h]
  · have h : ((1#1 : BitVec 1).setWidth 32).toInt = 1 := by decide
    simp [ind, h]

/-- A sum of indicators is the number of set bits. -/
private theorem sum_ind {ι : Type} (s : Finset ι) (b : ι → BitVec 1) :
    ∑ i ∈ s, ind (b i) = (((∑ i ∈ s, (if b i = 1#1 then 1 else 0 : ℕ) : ℕ) : ℝ) : EReal) := by
  classical
  induction s using Finset.induction_on with
  | empty => simp
  | insert a s ha ih =>
    rw [Finset.sum_insert ha, Finset.sum_insert ha, ih, ind_eq, Nat.cast_add, EReal.coe_add]
    by_cases h : b a = 1#1 <;> simp [h]

private theorem two_le_cast (n : ℕ) : (2 : EReal) ≤ ((n : ℝ) : EReal) ↔ 2 ≤ n := by
  have e2 : ((2 : ℝ) : EReal) = 2 := by norm_cast
  rw [← e2, EReal.coe_le_coe_iff]; exact Nat.ofNat_le_cast
private theorem zero_lt_cast (n : ℕ) : (0 : EReal) < ((n : ℝ) : EReal) ↔ 0 < n := by
  rw [EReal.coe_pos]; exact Nat.cast_pos
private theorem one_le_cast (n : ℕ) : (1 : EReal) ≤ ((n : ℝ) : EReal) ↔ 1 ≤ n := by
  rw [← EReal.coe_one, EReal.coe_le_coe_iff]; exact Nat.one_le_cast

/-- A small word compared signed with 2 is its value compared with 2 as numbers. -/
private theorem sge_two (x : BitVec 32) (hx : x.toNat < 2 ^ 31) :
    IntOp.cmpi .sge x 2#32 = Ideal.cmp .oge ((x.toNat : ℝ) : EReal) two := by
  have h1 : IntOp.cmpi .sge x 2#32 = 1#1 ↔ 2 ≤ x.toNat := StableHlo.Predicate.sge_iff_toNat hx (by decide)
  have h2 : Ideal.cmp .oge ((x.toNat : ℝ) : EReal) two = 1#1 ↔ 2 ≤ x.toNat := by
    rw [two_eq]
    show BitVec.ofBool (decide ((2 : EReal) ≤ ((x.toNat : ℝ) : EReal))) = 1#1 ↔ _
    rw [StableHlo.Predicate.ofBool_eq_one_iff, decide_eq_true_eq]
    exact two_le_cast _
  exact bit_ext (h1.trans h2.symm)

/-- A small word compared signed with 0 is its value compared with 0 as numbers. -/
private theorem sgt_zero (x : BitVec 32) (hx : x.toNat < 2 ^ 31) :
    IntOp.cmpi .sgt x 0#32 = Ideal.cmp .ogt ((x.toNat : ℝ) : EReal) 0 := by
  have h1 : IntOp.cmpi .sgt x 0#32 = 1#1 ↔ 0 < x.toNat := StableHlo.Predicate.sgt_iff_toNat hx (by decide)
  have h2 : Ideal.cmp .ogt ((x.toNat : ℝ) : EReal) 0 = 1#1 ↔ 0 < x.toNat := by
    show BitVec.ofBool (decide ((0 : EReal) < ((x.toNat : ℝ) : EReal))) = 1#1 ↔ _
    rw [StableHlo.Predicate.ofBool_eq_one_iff, decide_eq_true_eq]
    exact zero_lt_cast _
  exact bit_ext (h1.trans h2.symm)

/-- The signed maximum of a small word and 1, converted, is the maximum of its value and 1 as numbers. -/
private theorem maxsi_one (x : BitVec 32) (hx : x.toNat < 2 ^ 31) :
    (((IntOp.maxsi x 1#32).toInt : ℝ) : EReal) = max ((x.toNat : ℝ) : EReal) one := by
  have hxi : x.toInt = x.toNat := StableHlo.Predicate.toInt_eq_toNat_of_lt hx
  have h1i : (1#32 : BitVec 32).toInt = 1 := by decide
  rw [one_eq]
  unfold IntOp.maxsi
  by_cases h : 1 ≤ x.toNat
  · rw [max_eq_left ((one_le_cast _).mpr h)]
    split
    · rw [hxi, Int.cast_natCast]
    · next hs =>
      have h1 : x.toNat = 1 := by
        simp only [BitVec.slt, hxi, h1i, decide_eq_true_eq] at hs
        omega
      rw [h1i, h1, Int.cast_one, Nat.cast_one]
  · have hle : ((x.toNat : ℝ) : EReal) ≤ 1 := by
      have h0 : x.toNat = 0 := by omega
      rw [h0, Nat.cast_zero, EReal.coe_zero]; exact zero_le_one
    rw [max_eq_right hle]
    split
    · next hs =>
      simp only [BitVec.slt, hxi, h1i, decide_eq_true_eq] at hs
      omega
    · rw [h1i, Int.cast_one, EReal.coe_one]

/-! ## The row count -/

/-- The number of positive mask entries of a row. -/
private def cnt (mk : Fin 8192 → EReal) : ℕ := ∑ k, (if vld mk k = 1#1 then 1 else 0 : ℕ)

private theorem cnt_le (mk : Fin 8192 → EReal) : cnt mk ≤ 8192 := by
  unfold cnt
  refine (Finset.sum_le_sum (g := fun _ => 1) fun k _ => ?_).trans (by simp)
  split <;> omega

private theorem nValid_eq (mk : Fin 8192 → EReal) : nValid mk = ((cnt mk : ℝ) : EReal) := sum_ind Finset.univ (vld mk)

section Row
variable (a3 a4 a5 : FVec Ideal S4096x8192 .f32) (r : Fin 4096)

/-- The reference's 32-bit count of a row is the number of its positive mask entries. -/
private theorem v60_toNat : (v60 a4 (ix1 r)).toNat = cnt (rows a4 r) := by
  refine (StableHlo.Predicate.toNat_reduce_count_cols (n := 4096) (m := 8192) (by norm_num) (v58 a4) natLt_1_32
    reducesTo_S4096x8192_S4096_d1 h_S_ (ix1 r)).trans ?_
  rw [Finset.card_filter]
  refine Finset.sum_congr rfl fun k _ => ?_
  have hk : v58 a4 (StableHlo.Predicate.ij (n := 4096) (m := 8192) r k) = vld (rows a4 r) k :=
    (congrArg (v58 a4) (funext fun c => by match c with | ⟨0, _⟩ => rfl | ⟨1, _⟩ => rfl)).trans (v58_apply a4 r k)
  exact congrArg (fun b : BitVec 1 => if b = 1#1 then 1 else 0) hk

private theorem v60_lt : (v60 a4 (ix1 r)).toNat < 2 ^ 31 := by
  rw [v60_toNat]; have := cnt_le (rows a4 r); omega

private theorem v86_apply : v86 a4 (ix1 r) = Ideal.cmp .oge (nValid (rows a4 r)) two := by
  show IntOp.cmpi .sge (v60 a4 (ix1 r)) 2#32 = _
  rw [sge_two _ (v60_lt a4 r), v60_toNat, nValid_eq]

private theorem v84_apply : v84 a3 a4 a5 (ix1 r) = perRow (rows a3 r) (rows a4 r) (rows a5 r) := by
  show Ideal.div (v80 a3 a4 a5 (ix1 r)) (((IntOp.maxsi (v60 a4 (ix1 r)) 1#32).toInt : ℝ) : EReal) = _
  rw [v80_apply, maxsi_one _ (v60_lt a4 r), v60_toNat, ← nValid_eq]
  rfl

/-- A counted row keeps its loss; the others give 0: the product with the 0/1 indicator. -/
private theorem v89_apply : v89 a3 a4 a5 (ix1 r) = rankRow (rows a3 r) (rows a4 r) (rows a5 r) := by
  show Scalar.select (v86 a4 (ix1 r)) (v84 a3 a4 a5 (ix1 r)) (Ideal.ofBits .f32 0x00000000#32) = _
  rw [v86_apply, v84_apply, Ideal.ofBits_zero_f32]
  unfold rankRow okRow
  rcases BitVec.eq_zero_or_eq_one (Ideal.cmp .oge (nValid (rows a4 r)) two) with h | h
  · rw [h, select_zero, ind_eq, if_neg (by decide), zero_mul]
  · rw [h, select_one, ind_eq, if_pos rfl, one_mul]

end Row

/-! ## All rows -/

/-- A [4096] index set is its coordinate's range. -/
private def idxEquiv1 : S4096.Idx ≃ Fin 4096 where
  toFun i := i 0
  invFun r := ix1 r
  left_inv i := (eq_ix1 i).symm
  right_inv _ := rfl

private theorem sum_idx1 {M : Type} [AddCommMonoid M] (f : S4096.Idx → M) : ∑ i, f i = ∑ r : Fin 4096, f (ix1 r) := by
  rw [← Equiv.sum_comp idxEquiv1.symm f]; rfl

/-- The sum of a [4096] array reads the sum of its entries. -/
private theorem sumAll_apply (x : FVec Ideal S4096 .f32) : sumAll x ix0 = ∑ r : Fin 4096, x (ix1 r) := by
  show Ideal.hostReduceAdd reducesTo_S4096_S_d0 x (Ideal.ofBits .f32 0x00000000#32) ix0 = _
  rw [Ideal.hostReduceAdd_total reducesTo_S4096_S_d0 (fun b => b.elim0), Ideal.ofBits_zero_f32, zero_add, sum_idx1]

/-- The number of counted rows. -/
private def okCnt (a4 : FVec Ideal S4096x8192 .f32) : ℕ := ∑ r : Fin 4096, (if v86 a4 (ix1 r) = 1#1 then 1 else 0 : ℕ)

private theorem okCnt_le (a4 : FVec Ideal S4096x8192 .f32) : okCnt a4 ≤ 4096 := by
  unfold okCnt
  refine (Finset.sum_le_sum (g := fun _ => 1) fun k _ => ?_).trans (by simp)
  split <;> omega

/-- The reference's 32-bit count of the counted rows is their number. -/
private theorem v88_toNat (a4 : FVec Ideal S4096x8192 .f32) : (v88 a4 ix0).toNat = okCnt a4 := by
  unfold v88
  rw [Host.reduce_eq_fold, Finset.filter_true_of_mem fun i _ => funext fun b => b.elim0]
  have hsum : ∑ i : S4096.Idx, (extui 32 (v86 a4) natLt_1_32 i).toNat = okCnt a4 := by
    rw [sum_idx1]
    exact Finset.sum_congr rfl fun r _ => StableHlo.Predicate.toNat_setWidth_bit (v86 a4 (ix1 r))
  exact (StableHlo.Predicate.toNat_fold_addi Finset.univ (extui 32 (v86 a4) natLt_1_32)
    (by rw [hsum]; have := okCnt_le a4; omega)).trans hsum

private theorem okSum_eq (a4 : FVec Ideal S4096x8192 .f32) : okSum (rows a4) = ((okCnt a4 : ℝ) : EReal) := by
  refine (Finset.sum_congr rfl fun r _ => ?_).trans (sum_ind Finset.univ fun r => v86 a4 (ix1 r))
  show ind (Ideal.cmp .oge (nValid (rows a4 r)) two) = ind (v86 a4 (ix1 r))
  rw [v86_apply]

/-- Ranking: the counted rows' ListNet losses over the number of counted rows, when there is one. -/
theorem v95_eq (a3 a4 a5 : FVec Ideal S4096x8192 .f32) :
    v95 (F := Ideal) a3 a4 a5 ix0 = auxLoss (rankSum (rows a3) (rows a4) (rows a5)) (okSum (rows a4)) := by
  have hlt : (v88 a4 ix0).toNat < 2 ^ 31 := by rw [v88_toNat]; have := okCnt_le a4; omega
  have hsum : sumAll (v89 a3 a4 a5) ix0 = rankSum (rows a3) (rows a4) (rows a5) := by
    rw [sumAll_apply]
    exact Finset.sum_congr rfl fun r _ => v89_apply a3 a4 a5 r
  show Scalar.select (IntOp.cmpi .sgt (v88 a4 ix0) 0#32)
      (Ideal.div (sumAll (v89 a3 a4 a5) ix0) (((IntOp.maxsi (v88 a4 ix0) 1#32).toInt : ℝ) : EReal))
      (Ideal.ofBits .f32 0x00000000#32) = _
  rw [sgt_zero _ hlt, maxsi_one _ hlt, hsum, v88_toNat, ← okSum_eq, Ideal.ofBits_zero_f32]
  rfl

end Cert.ReferenceIdeal.RefValue

end
-- ==== Proof.RefValC.lean ====
/-
  The reference's batch-entropy term at the ideal values is the specification's: the column sums over the 4096 rows of
  the normalised masked weights, divided by 4096, normalised over the columns, then Σ_k q_k · log (q_k + ε); the
  reference's two negations cancel.
-/
import proofs.«153510_j16621523435816_1_alg».proof.Proof.RefTerm
import proofs.«153510_j16621523435816_1_alg».proof.Proof.LibRowOps
import Idealize.ShloMosaic.Lib.StableHlo.Predicate

noncomputable section

namespace Cert.ReferenceIdeal.RefValue

open Cert.ReferenceIdeal Cert.ReferenceIdeal.Gen Cert.ReferenceIdeal.Ops Idealize.ShloMosaic Idealize.ShloMosaic.ValueIdx Cert.Loss

/-- A [4096, 8192] array by row and column, and a [4096] array by row. -/
private abbrev rows (a : FVec Ideal S4096x8192 .f32) : Fin 4096 → Fin 8192 → EReal := fun r k => a (ix2 r k)
private abbrev ents (a0 : FVec Ideal S4096 .f32) : Fin 4096 → EReal := fun r => a0 (ix1 r)

/-! ## Reading the host operations at an index -/

/-- A rank-1 index set is its one coordinate's range … -/
private def idxEquiv1 {n : Nat} : (⟨1, ![n]⟩ : Shape).Idx ≃ Fin n where
  toFun i := i 0
  invFun p := ix1 p
  left_inv i := (eq_ix1 i).symm
  right_inv _ := rfl

/-- … so a sum over it is the sum over the coordinate. -/
private theorem sum_idx1 {n : Nat} (f : (⟨1, ![n]⟩ : Shape).Idx → EReal) : ∑ i, f i = ∑ a : Fin n, f (ix1 a) := by
  rw [← Equiv.sum_comp (idxEquiv1 (n := n)).symm f]
  rfl

private theorem hdivf_apply {s : Shape} (x y : FVec Ideal s .f32) (i : s.Idx) : Host.divf x y i = Ideal.div (x i) (y i) := rfl
private theorem hnegf_apply {s : Shape} (x : FVec Ideal s .f32) (i : s.Idx) : Host.negf x i = -(x i) := rfl
private theorem hlog_apply {s : Shape} (x : FVec Ideal s .f32) (i : s.Idx) : Host.log x i = Ideal.log (x i) := rfl

/-- A scalar literal reads the extended real of its word. -/
private theorem kc_apply (b : BitVec 32) (j : S_.Idx) : kc (F := Ideal) b j = Ideal.ofBits .f32 b := rfl

/-- The row-wise sum at row r is the sum of that row. -/
private theorem sumRows_apply (x : FVec Ideal S4096x8192 .f32) (r : Fin 4096) :
    sumRows x (ix1 r) = ∑ k : Fin 8192, x (ix2 r k) := by
  have hR : S4096x8192.Reduces [1] S4096 := by decide
  refine (Ideal.hostReduceAdd_single reducesTo_S4096x8192_S4096_d1 hR x _ (ix1 r)).trans ?_
  rw [kc_apply, Ideal.ofBits_zero_f32, zero_add]
  refine Finset.sum_congr rfl fun k _ => congrArg x (funext fun ax => Fin.ext ?_)
  match ax with
  | ⟨0, _⟩ => rfl
  | ⟨1, _⟩ => rfl

/-- The column-wise sum at column k is the sum of that column. -/
private theorem sumAx0_apply (x : FVec Ideal S4096x8192 .f32) (k : Fin 8192) :
    Host.reduceAdd x (kc (F := Ideal) 0x00000000#32) reducesTo_S4096x8192_S8192_d0 h_S_ (ix1 k) = ∑ r : Fin 4096, x (ix2 r k) := by
  have hR : S4096x8192.Reduces [0] S8192 := by decide
  refine (Ideal.hostReduceAdd_single reducesTo_S4096x8192_S8192_d0 hR x _ (ix1 k)).trans ?_
  rw [kc_apply, Ideal.ofBits_zero_f32, zero_add]
  refine Finset.sum_congr rfl fun r _ => congrArg x (funext fun ax => Fin.ext ?_)
  match ax with
  | ⟨0, _⟩ => rfl
  | ⟨1, _⟩ => rfl

/-- The sum of a [8192] array. -/
private theorem sumCols_apply (x : FVec Ideal S8192 .f32) : sumCols x ix0 = ∑ k : Fin 8192, x (ix1 k) := by
  refine (Ideal.hostReduceAdd_total reducesTo_S8192_S_d0 (fun b => b.elim0) x _ ix0).trans ?_
  rw [kc_apply, Ideal.ofBits_zero_f32, zero_add, sum_idx1]

/-- A broadcast scalar reads the scalar everywhere. -/
private theorem bC_apply (v : FVec Ideal S_ .f32) (j : S8192.Idx) : bC v j = v ix0 := congrArg v (eq_ix0 _)
private theorem bK_apply (v : FVec Ideal S_ .f32) (j : S4096x1.Idx) :
    broadcastInDim S4096x1 ![] bcast_S_S4096x1 v j = v ix0 := congrArg v (eq_ix0 _)

/-- A [4096] array kept as a column reads the entry of its row. -/
private theorem col_apply (v : FVec Ideal S4096 .f32) (r : Fin 4096) (u : Fin 1) : col v (ix2 r u) = v (ix1 r) := by
  refine congrArg v (funext fun ax => Fin.ext ?_)
  match ax with
  | ⟨0, _⟩ => rfl

/-- A column spread over the lanes reads the column's entry of the row. -/
private theorem spread_apply (w : FVec Ideal S4096x1 .f32) (r : Fin 4096) (k : Fin 8192) :
    spread w (ix2 r k) = w (ix2 r (0 : Fin 1)) := by
  refine congrArg w (funext fun ax => Fin.ext ?_)
  match ax with
  | ⟨0, _⟩ => rfl
  | ⟨1, _⟩ => rfl

/-! ## Batch entropy -/

/-- A weight over its row's sum. -/
private theorem v41_apply (a1 : FVec Ideal S4096x8192 .f32) (r : Fin 4096) (k : Fin 8192) :
    v41 (F := Ideal) a1 (ix2 r k) = Ideal.div (a1 (ix2 r k)) ((∑ j : Fin 8192, a1 (ix2 r j)) + eps) := by
  unfold v41
  rw [hdivf_apply, spread_apply, addf_apply, col_apply, sumRows_apply, bK_apply, kc_apply]

/-- The mean selection frequency of column k. -/
private theorem v45_apply (a1 a4 : FVec Ideal S4096x8192 .f32) (k : Fin 8192) :
    v45 (F := Ideal) a1 a4 (ix1 k) = avgSel (colSum (rows a1) (rows a4)) k := by
  unfold v45 avgSel
  rw [hdivf_apply, bC_apply, kc_apply, sumAx0_apply]
  refine congrArg (fun t => Ideal.div t nB) ?_
  unfold colSum
  refine Finset.sum_congr rfl fun r _ => ?_
  rw [mulf_apply, v41_apply]
  rfl

/-- … normalised over the columns. -/
private theorem v49_apply (a1 a4 : FVec Ideal S4096x8192 .f32) (k : Fin 8192) :
    v49 (F := Ideal) a1 a4 (ix1 k) = avgNorm (colSum (rows a1) (rows a4)) k := by
  unfold v49 avgNorm
  rw [hdivf_apply, bC_apply, addf_apply, kc_apply, sumCols_apply, v45_apply]
  refine congrArg (fun t => Ideal.div (avgSel (colSum (rows a1) (rows a4)) k) (t + eps)) ?_
  exact Finset.sum_congr rfl fun j _ => v45_apply a1 a4 j

/-- Batch entropy: Σ_k q_k · log (q_k + ε) of the normalised mean selection frequencies (the two negations cancel). -/
theorem v56_eq (a1 a4 : FVec Ideal S4096x8192 .f32) : v56 (F := Ideal) a1 a4 ix0 = bentLoss (colSum (rows a1) (rows a4)) := by
  unfold v56 bentLoss
  rw [hnegf_apply, hnegf_apply, neg_neg, sumCols_apply]
  refine Finset.sum_congr rfl fun k _ => ?_
  rw [mulf_apply, hlog_apply, addf_apply, bC_apply, kc_apply, v49_apply]

end Cert.ReferenceIdeal.RefValue

end
-- ==== Proof.lean ====
/-
  The certificate of a portfolio loss: a Pallas kernel that streams the five [4096, 8192] arrays in 64 tiles of 64 rows,
  keeps five running sums in scratch, and combines them at the last tile, against the jnp reference.

  Over the extended reals both programs compute ONE function of the six arrays (Proof/Spec.lean, total): the host chain on
  the portfolio returns (mean return and clipped Sharpe ratio, the same operations in both programs) plus the weighted
  sum of four terms, each a combination of sums over the 4096 samples of a quantity of the sample's rows.
    * The kernel: by induction on the grid point each scratch accumulator holds the sum over the tiles so far of the
      tile's rows' quantities (Proof/KStep.lean, KPayA.lean, KPayB.lean, KInv.lean); 64 tiles of 64 rows are the 4096
      rows; the last point writes the combination to the [1, 1] result, which the host operations after the region add
      to the chain on the returns (Proof/KFinal.lean).
    * The reference: its @main is a straight line of host operations (Proof/RefOps.lean, RefRun.lean) whose result is a
      composed function of the arrays (Proof/RefTerm.lean); term by term that function is the specification's
      (Proof/RefValA.lean, RefValB.lean, RefValC.lean), the reference counting the positive mask entries in integers
      where the kernel sums indicators, selecting 0 where the kernel multiplies by 0, negating where the kernel
      subtracts from 0; the five-term sum is re-associated (Proof/RefSum.lean).
  No law used needs the inputs finite: sums are re-grouped (addition on the extended reals is commutative and
  associative), −(x / c) = (0 − x) / c, 0 · x = 0, 1 · x = x, −(−x) = x, max (−∞) x = x.
  The frames of the two kernel programs are the generated frame certificates; the reference's frame is its run with the
  result dropped; the ideal pass rewrote nothing, so there is nothing to preserve.
-/
import proofs.«153510_j16621523435816_1_alg».proof.Defs
import proofs.«153510_j16621523435816_1_alg».proof.Proof.Gen.Kernel
import proofs.«153510_j16621523435816_1_alg».proof.Proof.Gen.Kernel.Frame
import proofs.«153510_j16621523435816_1_alg».proof.Proof.Gen.KernelIdeal
import proofs.«153510_j16621523435816_1_alg».proof.Proof.Gen.KernelIdeal.Frame
import proofs.«153510_j16621523435816_1_alg».proof.Proof.Gen.ReferenceIdeal
import proofs.«153510_j16621523435816_1_alg».proof.Proof.Gen.Pre_finite_inputs
import proofs.«153510_j16621523435816_1_alg».proof.Proof.KInv
import proofs.«153510_j16621523435816_1_alg».proof.Proof.KFinal
import proofs.«153510_j16621523435816_1_alg».proof.Proof.RefRun
import proofs.«153510_j16621523435816_1_alg».proof.Proof.RefSum
import proofs.«153510_j16621523435816_1_alg».proof.Proof.RefValA
import proofs.«153510_j16621523435816_1_alg».proof.Proof.RefValB
import proofs.«153510_j16621523435816_1_alg».proof.Proof.RefValC
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The reference's frame: its run, the result dropped. -/
theorem frame_ri : Cert.frame_ReferenceIdeal := fun m ρ _ =>
  (θ_run Cert.ReferenceIdeal.defs _ _).mono (fun _ h c => (h c).2) (Cert.ReferenceIdeal.Ops.run (F := Ideal) m ρ)

/-- The reference's composed result is the specification's total of its arguments. -/
theorem ref_total (a0 : FVec Ideal Cert.ReferenceIdeal.S4096 .f32) (a1 a2 a3 a4 a5 : FVec Ideal Cert.ReferenceIdeal.S4096x8192 .f32) :
    Cert.ReferenceIdeal.Ops.refOut (F := Ideal) a0 a1 a2 a3 a4 a5
      = Cert.Loss.total Cert.ReferenceIdeal.Ops.headFacts a0 a1 a2 a3 a4 a5 :=
  Cert.ReferenceIdeal.RefValue.refOut_eq_of a0 a1 a2 a3 a4 a5 (Cert.ReferenceIdeal.RefValue.v15_eq a1)
    (Cert.ReferenceIdeal.RefValue.v35_eq a0 a1 a2 a4) (Cert.ReferenceIdeal.RefValue.v56_eq a1 a4)
    (Cert.ReferenceIdeal.RefValue.v95_eq a3 a4 a5)

/-- Both programs, run from memories agreeing on the arguments, end with the specification's total of them. -/
theorem algebraic : Cert.algebraic_KernelIdeal_ReferenceIdeal := by
  intro m ρ m' ρ' _ hagree
  refine ⟨_, Cert.KernelIdeal.Acc.run m ρ (fun c => Cert.KernelIdeal.Acc.out_last m c Cert.KernelIdeal.Acc.h63), ?_⟩
  refine (θ_run Cert.ReferenceIdeal.defs _ _).mono (fun _ h c => ⟨(h c).1.trans ?_, (h c).2⟩)
    (Cert.ReferenceIdeal.Ops.run (F := Ideal) m' ρ')
  rw [ref_total, (hagree c).1, (hagree c).2.1, (hagree c).2.2.1, (hagree c).2.2.2.1, (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
